-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x1600000 : Shape := ⟨2, ![2, 1600000]⟩
abbrev S50000x128 : Shape := ⟨2, ![50000, 128]⟩
abbrev S512x128 : Shape := ⟨2, ![512, 128]⟩
abbrev S128 : Shape := ⟨1, ![128]⟩
abbrev S128x64 : Shape := ⟨2, ![128, 64]⟩
abbrev S64 : Shape := ⟨1, ![64]⟩
abbrev S128x40 : Shape := ⟨2, ![128, 40]⟩
abbrev S40 : Shape := ⟨1, ![40]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S128x40 .f32) (main_arg9 : FVec F S40 .f32) (main_v33 : IVec S_ 1) : IVec S_ 1 :=
  let main_v34 : FVec F S128x40 .f32 := Host.absf main_arg8
  let main_cst_12 : FVec F S_ .f32 := constant S_ .f32 0x7F800000#32
  let main_v35 : FVec F S128x40 .f32 := broadcastInDim S128x40 ![] bcast_S_S128x40 main_cst_12
  let main_v36 : IVec S128x40 1 := cmpf .olt main_v34 main_v35
  let main_c_13 : IVec S_ 1 := constantI S_ 1 1#1
  let main_v37 : IVec S_ 1 := (fun x v => Host.reduce IntOp.andi x v reducesTo_S128x40_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S128x64 .f32) (main_arg6 : FVec F S64 .f32) (main_arg7 : FVec F S128x64 .f32) (main_arg8 : FVec F S128x40 .f32) (main_arg9 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_v33

def fn {F : FTy → Type} [FloatOps F] (main_arg0 : FVec F S50000x512 .f32) (main_arg1 : IVec S2x1600000 32) (main_arg2 : FVec F S50000x128 .f32) (main_arg3 : FVec F S512x128 .f32) (main_arg4 : FVec F S128 .f32) (main_arg5 : FVec F S128x64 .f32) (main_arg6 : FVec F S64 .f32) (main_arg7 : FVec F S128x64 .f32) (main_arg8 : FVec F S128x40 .f32) (main_arg9 : FVec F S40 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S50000x128 .f32 := Host.absf main_arg2
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S512x128 .f32 := Host.absf main_arg3
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S50000x512 : Shape := ⟨2, ![50000, 512]⟩
abbrev S2x1600000 : Shape := ⟨2, ![2, 1600000]⟩
abbrev S50000x128 : Shape := ⟨2, ![50000, 128]⟩
abbrev S512x128 : Shape := ⟨2, ![512, 128]⟩
abbrev S128 : Shape := ⟨1, ![128]⟩
abbrev S128x64 : Shape := ⟨2, ![128, 64]⟩
abbrev S64 : Shape := ⟨1, ![64]⟩
abbrev S128x40 : Shape := ⟨2, ![128, 40]⟩
abbrev S40 : Shape := ⟨1, ![40]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S2000x512 : Shape := ⟨2, ![2000, 512]⟩
abbrev S2000x128 : Shape := ⟨2, ![2000, 128]⟩
abbrev S1650000x128 : Shape := ⟨2, ![1650000, 128]⟩
abbrev S1x128 : Shape := ⟨2, ![1, 128]⟩
abbrev S50000x64 : Shape := ⟨2, ![50000, 64]⟩
abbrev S2000x64 : Shape := ⟨2, ![2000, 64]⟩
abbrev S1650000x64 : Shape := ⟨2, ![1650000, 64]⟩
abbrev S64x40 : Shape := ⟨2, ![64, 40]⟩
abbrev S1x64 : Shape := ⟨2, ![1, 64]⟩
abbrev S50000x40 : Shape := ⟨2, ![50000, 40]⟩
abbrev S2000x40 : Shape := ⟨2, ![2000, 40]⟩
abbrev S1650000x40 : Shape := ⟨2, ![1650000, 40]⟩
abbrev S1x40 : Shape := ⟨2, ![1, 40]⟩
abbrev S2000 : Shape := ⟨1, ![2000]⟩
abbrev S2000x1 : Shape := ⟨2, ![2000, 1]⟩

abbrev nBuf : Space → Nat
  | .hbm => 111
  | .vmem => 25
  | .smem => 0
  | _ => 0

abbrev bufTy : (tb : Table) → Fin (tcTables nBuf tb) → BufTy
  | .hbm, ⟨0, _⟩ => ⟨S50000x512, .f32⟩
  | .hbm, ⟨1, _⟩ => ⟨S2x1600000, .i32⟩
  | .hbm, ⟨2, _⟩ => ⟨S50000x128, .f32⟩
  | .hbm, ⟨3, _⟩ => ⟨S512x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S128x40, .f32⟩
  | .hbm, ⟨9, _⟩ => ⟨S40, .f32⟩
  | .hbm, ⟨10, _⟩ => ⟨S50000, .i32⟩
  | .hbm, ⟨11, _⟩ => ⟨S1x1600000, .i32⟩
  | .hbm, ⟨12, _⟩ => ⟨S1600000, .i32⟩
  | .hbm, ⟨13, _⟩ => ⟨S1650000, .i32⟩
  | .hbm, ⟨14, _⟩ => ⟨S1x1600000, .i32⟩
  | .hbm, ⟨15, _⟩ => ⟨S1600000, .i32⟩
  | .hbm, ⟨16, _⟩ => ⟨S1650000, .i32⟩
  | .hbm, ⟨17, _⟩ => ⟨S_, .f32⟩
  | .hbm, ⟨18, _⟩ => ⟨S1650000, .f32⟩
  | .hbm, ⟨19, _⟩ => ⟨S_, .f32⟩
  | .hbm, ⟨20, _⟩ => ⟨S50000, .f32⟩
  | .hbm, ⟨21, _⟩ => ⟨S1650000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .i32⟩
  | .hbm, ⟨35, _⟩ => ⟨S1650000, .i32⟩
  | .hbm, ⟨36, _⟩ => ⟨S1650000, .i1⟩
  | .hbm, ⟨37, _⟩ => ⟨S_, .i32⟩
  | .hbm, ⟨38, _⟩ => ⟨S1650000, .i32⟩
  | .hbm, ⟨39, _⟩ => ⟨S1650000, .i32⟩
  | .hbm, ⟨40, _⟩ => ⟨S1650000, .i32⟩
  | .hbm, ⟨41, _⟩ => ⟨S1650000x1, .i32⟩
  | .hbm, ⟨42, _⟩ => ⟨S1650000, .f32⟩
  | .hbm, ⟨43, _⟩ => ⟨S_, .i32⟩
  | .hbm, ⟨44, _⟩ => ⟨S1650000, .i32⟩
  | .hbm, ⟨45, _⟩ => ⟨S1650000, .i1⟩
  | .hbm, ⟨46, _⟩ => ⟨S_, .i32⟩
  | .hbm, ⟨47, _⟩ => ⟨S1650000, .i32⟩
  | .hbm, ⟨48, _⟩ => ⟨S1650000, .i32⟩
  | .hbm, ⟨49, _⟩ => ⟨S1650000, .i32⟩
  | .hbm, ⟨50, _⟩ => ⟨S1650000x1, .i32⟩
  | .hbm, ⟨51, _⟩ => ⟨S1650000, .f32⟩
  | .hbm, ⟨52, _⟩ => ⟨S1650000, .f32⟩
  | .hbm, ⟨53, _⟩ => ⟨S50000x128, .f32⟩
  | .hbm, ⟨54, _⟩ => ⟨S_, .i32⟩
  | .hbm, ⟨55, _⟩ => ⟨S1650000, .i32⟩
  | .hbm, ⟨56, _⟩ => ⟨S1650000, .i1⟩
  | .hbm, ⟨57, _⟩ => ⟨S_, .i32⟩
  | .hbm, ⟨58, _⟩ => ⟨S1650000, .i32⟩
  | .hbm, ⟨59, _⟩ => ⟨S1650000, .i32⟩
  | .hbm, ⟨60, _⟩ => ⟨S1650000, .i32⟩
  | .hbm, ⟨61, _⟩ => ⟨S1650000x1, .i32⟩
  | .hbm, ⟨62, _⟩ => ⟨S1650000x128, .f32⟩
  | .hbm, ⟨63, _⟩ => ⟨S1650000x1, .f32⟩
  | .hbm, ⟨64, _⟩ => ⟨S1650000x128, .f32⟩
  | .hbm, ⟨65, _⟩ => ⟨S1650000x128, .f32⟩
  | .hbm, ⟨66, _⟩ => ⟨S_, .f32⟩
  | .hbm, ⟨67, _⟩ => ⟨S50000x128, .f32⟩
  | .hbm, ⟨68, _⟩ => ⟨S1650000x1, .i32⟩
  | .hbm, ⟨69, _⟩ => ⟨S50000x128, .f32⟩
  | .hbm, ⟨70, _⟩ => ⟨S1x128, .f32⟩
  | .hbm, ⟨71, _⟩ => ⟨S50000x64, .f32⟩
  | .hbm, ⟨72, _⟩ => ⟨S_, .i32⟩
  | .hbm, ⟨73, _⟩ => ⟨S1650000, .i32⟩
  | .hbm, ⟨74, _⟩ => ⟨S1650000, .i1⟩
  | .hbm, ⟨75, _⟩ => ⟨S_, .i32⟩
  | .hbm, ⟨76, _⟩ => ⟨S1650000, .i32⟩
  | .hbm, ⟨77, _⟩ => ⟨S1650000, .i32⟩
  | .hbm, ⟨78, _⟩ => ⟨S1650000, .i32⟩
  | .hbm, ⟨79, _⟩ => ⟨S1650000x1, .i32⟩
  | .hbm, ⟨80, _⟩ => ⟨S1650000x64, .f32⟩
  | .hbm, ⟨81, _⟩ => ⟨S1650000x1, .f32⟩
  | .hbm, ⟨82, _⟩ => ⟨S1650000x64, .f32⟩
  | .hbm, ⟨83, _⟩ => ⟨S1650000x64, .f32⟩
  | .hbm, ⟨84, _⟩ => ⟨S_, .f32⟩
  | .hbm, ⟨85, _⟩ => ⟨S50000x64, .f32⟩
  | .hbm, ⟨86, _⟩ => ⟨S1650000x1, .i32⟩
  | .hbm, ⟨87, _⟩ => ⟨S50000x64, .f32⟩
  | .hbm, ⟨88, _⟩ => ⟨S64x40, .f32⟩
  | .hbm, ⟨89, _⟩ => ⟨S64x40, .f32⟩
  | .hbm, ⟨90, _⟩ => ⟨S128x40, .f32⟩
  | .hbm, ⟨91, _⟩ => ⟨S1x64, .f32⟩
  | .hbm, ⟨92, _⟩ => ⟨S50000x40, .f32⟩
  | .hbm, ⟨93, _⟩ => ⟨S_, .i32⟩
  | .hbm, ⟨94, _⟩ => ⟨S1650000, .i32⟩
  | .hbm, ⟨95, _⟩ => ⟨S1650000, .i1⟩
  | .hbm, ⟨96, _⟩ => ⟨S_, .i32⟩
  | .hbm, ⟨97, _⟩ => ⟨S1650000, .i32⟩
  | .hbm, ⟨98, _⟩ => ⟨S1650000, .i32⟩
  | .hbm, ⟨99, _⟩ => ⟨S1650000, .i32⟩
  | .hbm, ⟨100, _⟩ => ⟨S1650000x1, .i32⟩
  | .hbm, ⟨101, _⟩ => ⟨S1650000x40, .f32⟩
  | .hbm, ⟨102, _⟩ => ⟨S1650000x1, .f32⟩
  | .hbm, ⟨103, _⟩ => ⟨S1650000x40, .f32⟩
  | .hbm, ⟨104, _⟩ => ⟨S1650000x40, .f32⟩
  | .hbm, ⟨105, _⟩ => ⟨S_, .f32⟩
  | .hbm, ⟨106, _⟩ => ⟨S50000x40, .f32⟩
  | .hbm, ⟨107, _⟩ => ⟨S1650000x1, .i32⟩
  | .hbm, ⟨108, _⟩ => ⟨S50000x40, .f32⟩
  | .hbm, ⟨109, _⟩ => ⟨S1x40, .f32⟩
  | .hbm, ⟨110, _⟩ => ⟨S50000x40, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S128x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S1x64, .f32⟩
  | .local _ .vmem, ⟨14, _⟩ => ⟨S64x40, .f32⟩
  | .local _ .vmem, ⟨15, _⟩ => ⟨S2000x128, .f32⟩
  | .local _ .vmem, ⟨16, _⟩ => ⟨S2000x128, .f32⟩
  | .local _ .vmem, ⟨17, _⟩ => ⟨S128x40, .f32⟩
  | .local _ .vmem, ⟨18, _⟩ => ⟨S2000x40, .f32⟩
  | .local _ .vmem, ⟨19, _⟩ => ⟨S2000x40, .f32⟩
  | .local _ .vmem, ⟨20, _⟩ => ⟨S2000x40, .f32⟩
  | .local _ .vmem, ⟨21, _⟩ => ⟨S2000x40, .f32⟩
  | .local _ .vmem, ⟨22, _⟩ => ⟨S1x40, .f32⟩
  | .local _ .vmem, ⟨23, _⟩ => ⟨S2000x40, .f32⟩
  | .local _ .vmem, ⟨24, _⟩ => ⟨S2000x40, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_10 : Ref sig .tc := ⟨.hbm, 72, rfl⟩
abbrev main_v48 : Ref sig .tc := ⟨.hbm, 73, rfl⟩
abbrev main_v49 : Ref sig .tc := ⟨.hbm, 74, rfl⟩
abbrev main_c_11 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_13 : Ref sig .tc := ⟨.hbm, 93, rfl⟩
abbrev main_v66 : Ref sig .tc := ⟨.hbm, 94, rfl⟩
abbrev main_v67 : Ref sig .tc := ⟨.hbm, 95, rfl⟩
abbrev main_c_14 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_15 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc2_sem4_0 : DmaSem sig := 17
abbrev cc2_sem5_0 : DmaSem sig := 18
abbrev cc2_sem5_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x40 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  slices_S128x40_S64x40_0_0 : S128x40.Slices ![0, 0] S64x40
  slices_S128x40_S64x40_64_0 : S128x40.Slices ![64, 0] S64x40
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x40_S64x40_0_0 : ∀ a, (![0, 0] : Fin 2 → Nat) a + S64x40.size a ≤ S64x40.size a
  h_S64x40 : 0 < S64x40.numel
  shapeCasts_S64x40_S64x40 : S64x40.ShapeCasts S64x40
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S2000x40_S2000x40_0_0 : ∀ a, (![0, 0] : Fin 2 → Nat) a + S2000x40.size a ≤ S2000x40.size a
  h_S2000x40 : 0 < S2000x40.numel
  bcast_S1650000x1_S1650000x40_0_1 : S1650000x1.BroadcastsInDim S1650000x40 (![0, 1] : Fin 2 → Fin S1650000x40.rank)
  bcast_S_S50000x40 : S_.BroadcastsInDim S50000x40 (![] : Fin 0 → Fin S50000x40.rank)
  shapeCasts_S40_S1x40 : S40.ShapeCasts S1x40
  shapeCasts_S2000x40_S2000x40 : S2000x40.ShapeCasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S2000x512_S512x128_S2000x128_1_0_0_1_n_n_wf : DotDims.WF S2000x512 S512x128 S2000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S2000x128_S128x64_S2000x64_1_0_0_1_n_n_wf : DotDims.WF S2000x128 S128x64 S2000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S128x64_S64x40_S128x40_1_0_0_1_n_n_wf : DotDims.WF S128x64 S64x40 S128x40 [1] [0] [0] [1] [] []
  dot_S2000x64_S64x40_S2000x40_1_0_0_1_n_n_wf : DotDims.WF S2000x64 S64x40 S2000x40 [1] [0] [0] [1] [] []
  dot_S2000x128_S128x40_S2000x40_1_0_0_1_n_n_wf : DotDims.WF S2000x128 S128x40 S2000x40 [1] [0] [0] [1] [] []
  gather_S50000x40_S1650000x1_S1650000x40_1_0_n_n_0_1_140_wf : GatherDims.WF S50000x40 S1650000x1 S1650000x40 [1] [0] [] [0] [] 1 ![1, 40]
  scatter_S50000x40_S1650000x1_S1650000x40_1_0_0_1_wf : ScatterDims.WF S50000x40 S1650000x1 S1650000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S50000x64.size a
  hwx1_3 : ∀ i : grid1.Coords, EltTy.bits .f32 = 32 ∨ (Rect.block (s := S50000x64) S2000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x40.size a ≤ S64x40.size a
  hwx2_2 : ∀ i : grid2.Coords, EltTy.bits .f32 = 32 ∨ (Rect.block (s := S64x40) S64x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x40.size a ≤ S128x40.size a
  hwx2_4 : ∀ i : grid2.Coords, EltTy.bits .f32 = 32 ∨ (Rect.block (s := S128x40) S128x40.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x40.size a ≤ S50000x40.size a
  hwx2_5 : ∀ i : grid2.Coords, EltTy.bits .f32 = 32 ∨ (Rect.block (s := S50000x40) S2000x40.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x40.size a ≤ S50000x40.size a
  hwx3_0 : ∀ i : grid3.Coords, EltTy.bits .f32 = 32 ∨ (Rect.block (s := S50000x40) S2000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x40.size a ≤ S50000x40.size a
  hwx3_2 : ∀ i : grid3.Coords, EltTy.bits .f32 = 32 ∨ (Rect.block (s := S50000x40) S2000x40.size (cc3_transform_2 i) (hinb3_2 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S128x64_S64x40_S128x40_1_0_0_1_n_n : DotDims S128x64 S64x40 S128x40 where
  lhsContracting := [1]
  rhsContracting := [0]
  lhsNonContracting := [0]
  rhsNonContracting := [1]
  lhsBatch := []
  rhsBatch := []
  wf := dot_S128x64_S64x40_S128x40_1_0_0_1_n_n_wf
def dot_S2000x64_S64x40_S2000x40_1_0_0_1_n_n : DotDims S2000x64 S64x40 S2000x40 where
  lhsContracting := [1]
  rhsContracting := [0]
  lhsNonContracting := [0]
  rhsNonContracting := [1]
  lhsBatch := []
  rhsBatch := []
  wf := dot_S2000x64_S64x40_S2000x40_1_0_0_1_n_n_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf
def gather_S50000x40_S1650000x1_S1650000x40_1_0_n_n_0_1_140 : GatherDims S50000x40 S1650000x1 S1650000x40 where
  offsetDims := [1]
  collapsedSliceDims := [0]
  operandBatchingDims := []
  startIndicesBatchingDims := []
  startIndexMap := [0]
  indexVectorDim := 1
  sliceSizes := ![1, 40]
  wf := gather_S50000x40_S1650000x1_S1650000x40_1_0_n_n_0_1_140_wf
def scatter_S50000x40_S1650000x1_S1650000x40_1_0_0_1 : ScatterDims S50000x40 S1650000x1 S1650000x40 where
  updateWindowDims := [1]
  insertedWindowDims := [0]
  scatterDimsToOperandDims := [0]
  indexVectorDim := 1
  wf := scatter_S50000x40_S1650000x1_S1650000x40_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S64x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg2) S2000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v63) S128x40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v65) S2000x40.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v78) S2000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v79) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v80) S2000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x512 : Shape := ⟨2, ![50000, 512]⟩
abbrev S2x1600000 : Shape := ⟨2, ![2, 1600000]⟩
abbrev S50000x128 : Shape := ⟨2, ![50000, 128]⟩
abbrev S512x128 : Shape := ⟨2, ![512, 128]⟩
abbrev S128 : Shape := ⟨1, ![128]⟩
abbrev S128x64 : Shape := ⟨2, ![128, 64]⟩
abbrev S64 : Shape := ⟨1, ![64]⟩
abbrev S128x40 : Shape := ⟨2, ![128, 40]⟩
abbrev S40 : Shape := ⟨1, ![40]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩
abbrev S50000x64 : Shape := ⟨2, ![50000, 64]⟩
abbrev S1650000x64 : Shape := ⟨2, ![1650000, 64]⟩
abbrev S1x64 : Shape := ⟨2, ![1, 64]⟩
abbrev S50000x40 : Shape := ⟨2, ![50000, 40]⟩
abbrev S1650000x40 : Shape := ⟨2, ![1650000, 40]⟩
abbrev S1x40 : Shape := ⟨2, ![1, 40]⟩
abbrev S50000x1 : Shape := ⟨2, ![50000, 1]⟩

abbrev nBuf : Space → Nat
  | .hbm => 136
  | .vmem => 0
  | .smem => 0
  | _ => 0

abbrev hbmTy0_0 (i : Nat) : BufTy := match i % 128 with
  | 0 => ⟨S50000x512, .f32⟩
  | 1 => ⟨S2x1600000, .i32⟩
  | 2 => ⟨S50000x128, .f32⟩
  | 3 => ⟨S512x128, .f32⟩
  | 4 => ⟨S128, .f32⟩
  | 5 => ⟨S128x64, .f32⟩
  | 6 => ⟨S64, .f32⟩
  | 7 => ⟨S128x64, .f32⟩
  | 8 => ⟨S128x40, .f32⟩
  | 9 => ⟨S40, .f32⟩
  | 10 => ⟨S50000, .i32⟩
  | 11 => ⟨S1x1600000, .i32⟩
  | 12 => ⟨S1600000, .i32⟩
  | 13 => ⟨S1650000, .i32⟩
  | 14 => ⟨S1x1600000, .i32⟩
  | 15 => ⟨S1600000, .i32⟩
  | 16 => ⟨S1650000, .i32⟩
  | 17 => ⟨S_, .f32⟩
  | 18 => ⟨S1650000, .f32⟩
  | 19 => ⟨S_, .f32⟩
  | 20 => ⟨S50000, .f32⟩
  | 21 => ⟨S1650000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S50000, .f32⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S1650000, .i32⟩
  | 36 => ⟨S1650000, .i1⟩
  | 37 => ⟨S_, .i32⟩
  | 38 => ⟨S1650000, .i32⟩
  | 39 => ⟨S1650000, .i32⟩
  | 40 => ⟨S1650000, .i32⟩
  | 41 => ⟨S1650000x1, .i32⟩
  | 42 => ⟨S1650000, .f32⟩
  | 43 => ⟨S_, .i32⟩
  | 44 => ⟨S1650000, .i32⟩
  | 45 => ⟨S1650000, .i1⟩
  | 46 => ⟨S_, .i32⟩
  | 47 => ⟨S1650000, .i32⟩
  | 48 => ⟨S1650000, .i32⟩
  | 49 => ⟨S1650000, .i32⟩
  | 50 => ⟨S1650000x1, .i32⟩
  | 51 => ⟨S1650000, .f32⟩
  | 52 => ⟨S1650000, .f32⟩
  | 53 => ⟨S50000x128, .f32⟩
  | 54 => ⟨S_, .i32⟩
  | 55 => ⟨S1650000, .i32⟩
  | 56 => ⟨S1650000, .i1⟩
  | 57 => ⟨S_, .i32⟩
  | 58 => ⟨S1650000, .i32⟩
  | 59 => ⟨S1650000, .i32⟩
  | 60 => ⟨S1650000, .i32⟩
  | 61 => ⟨S1650000x1, .i32⟩
  | 62 => ⟨S1650000x128, .f32⟩
  | 63 => ⟨S1650000x1, .f32⟩
  | 64 => ⟨S1650000x128, .f32⟩
  | 65 => ⟨S1650000x128, .f32⟩
  | 66 => ⟨S_, .f32⟩
  | 67 => ⟨S50000x128, .f32⟩
  | 68 => ⟨S1650000x1, .i32⟩
  | 69 => ⟨S50000x128, .f32⟩
  | 70 => ⟨S1x128, .f32⟩
  | 71 => ⟨S50000x128, .f32⟩
  | 72 => ⟨S50000x128, .f32⟩
  | 73 => ⟨S_, .f32⟩
  | 74 => ⟨S50000x128, .f32⟩
  | 75 => ⟨S50000x128, .f32⟩
  | 76 => ⟨S50000x64, .f32⟩
  | 77 => ⟨S_, .i32⟩
  | 78 => ⟨S1650000, .i32⟩
  | 79 => ⟨S1650000, .i1⟩
  | 80 => ⟨S_, .i32⟩
  | 81 => ⟨S1650000, .i32⟩
  | 82 => ⟨S1650000, .i32⟩
  | 83 => ⟨S1650000, .i32⟩
  | 84 => ⟨S1650000x1, .i32⟩
  | 85 => ⟨S1650000x64, .f32⟩
  | 86 => ⟨S1650000x1, .f32⟩
  | 87 => ⟨S1650000x64, .f32⟩
  | 88 => ⟨S1650000x64, .f32⟩
  | 89 => ⟨S_, .f32⟩
  | 90 => ⟨S50000x64, .f32⟩
  | 91 => ⟨S1650000x1, .i32⟩
  | 92 => ⟨S50000x64, .f32⟩
  | 93 => ⟨S1x64, .f32⟩
  | 94 => ⟨S50000x64, .f32⟩
  | 95 => ⟨S50000x64, .f32⟩
  | 96 => ⟨S_, .f32⟩
  | 97 => ⟨S50000x64, .f32⟩
  | 98 => ⟨S50000x64, .f32⟩
  | 99 => ⟨S50000x64, .f32⟩
  | 100 => ⟨S50000x128, .f32⟩
  | 101 => ⟨S50000x40, .f32⟩
  | 102 => ⟨S_, .i32⟩
  | 103 => ⟨S1650000, .i32⟩
  | 104 => ⟨S1650000, .i1⟩
  | 105 => ⟨S_, .i32⟩
  | 106 => ⟨S1650000, .i32⟩
  | 107 => ⟨S1650000, .i32⟩
  | 108 => ⟨S1650000, .i32⟩
  | 109 => ⟨S1650000x1, .i32⟩
  | 110 => ⟨S1650000x40, .f32⟩
  | 111 => ⟨S1650000x1, .f32⟩
  | 112 => ⟨S1650000x40, .f32⟩
  | 113 => ⟨S1650000x40, .f32⟩
  | 114 => ⟨S_, .f32⟩
  | 115 => ⟨S50000x40, .f32⟩
  | 116 => ⟨S1650000x1, .i32⟩
  | 117 => ⟨S50000x40, .f32⟩
  | 118 => ⟨S1x40, .f32⟩
  | 119 => ⟨S50000x40, .f32⟩
  | 120 => ⟨S50000x40, .f32⟩
  | 121 => ⟨S_, .f32⟩
  | 122 => ⟨S50000, .f32⟩
  | 123 => ⟨S_, .f32⟩
  | 124 => ⟨S50000, .f32⟩
  | 125 => ⟨S50000, .f32⟩
  | 126 => ⟨S50000x1, .f32⟩
  | 127 => ⟨S50000x40, .f32⟩
  | _ => ⟨S50000x512, .f32⟩

abbrev hbmTy0_1 (i : Nat) : BufTy := match i % 128 with
  | 0 => ⟨S50000x40, .f32⟩
  | 1 => ⟨S50000x40, .f32⟩
  | 2 => ⟨S_, .f32⟩
  | 3 => ⟨S50000, .f32⟩
  | 4 => ⟨S50000x1, .f32⟩
  | 5 => ⟨S50000x1, .f32⟩
  | 6 => ⟨S50000x40, .f32⟩
  | 7 => ⟨S50000x40, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_c_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_12 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_call2_cst : Ref sig .tc := ⟨.hbm, 96, rfl⟩
abbrev main_call2_v0 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_13 : Ref sig .tc := ⟨.hbm, 102, rfl⟩
abbrev main_v71 : Ref sig .tc := ⟨.hbm, 103, rfl⟩
abbrev main_v72 : Ref sig .tc := ⟨.hbm, 104, rfl⟩
abbrev main_c_14 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_15 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_call3_cst : Ref sig .tc := ⟨.hbm, 121, rfl⟩
abbrev main_call3_v0 : Ref sig .tc := ⟨.hbm, 122, rfl⟩
abbrev main_call3_cst_0 : Ref sig .tc := ⟨.hbm, 123, rfl⟩
abbrev main_call3_v1 : Ref sig .tc := ⟨.hbm, 124, rfl⟩
abbrev main_call3_v2 : Ref sig .tc := ⟨.hbm, 125, rfl⟩
abbrev main_call3_v3 : Ref sig .tc := ⟨.hbm, 126, rfl⟩
abbrev main_call3_v4 : Ref sig .tc := ⟨.hbm, 127, rfl⟩
abbrev main_call3_v5 : Ref sig .tc := ⟨.hbm, 128, rfl⟩
abbrev main_call3_v6 : Ref sig .tc := ⟨.hbm, 129, rfl⟩
abbrev main_call3_cst_1 : Ref sig .tc := ⟨.hbm, 130, rfl⟩
abbrev main_call3_v7 : Ref sig .tc := ⟨.hbm, 131, rfl⟩
abbrev main_call3_v8 : Ref sig .tc := ⟨.hbm, 132, rfl⟩
abbrev main_call3_v9 : Ref sig .tc := ⟨.hbm, 133, rfl⟩
abbrev main_call3_v10 : Ref sig .tc := ⟨.hbm, 134, rfl⟩
abbrev main_v87 : Ref sig .tc := ⟨.hbm, 135, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  concatenates_S50000x64_S50000x64_S50000x128_d1 : Shape.Concatenates [S50000x64, S50000x64] S50000x128 1
  bcast_S1650000x1_S1650000x40_0_1 : S1650000x1.BroadcastsInDim S1650000x40 (![0, 1] : Fin 2 → Fin S1650000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x512_S512x128_S50000x128_1_0_0_1_n_n_wf : DotDims.WF S50000x512 S512x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x64_S50000x64_1_0_0_1_n_n_wf : DotDims.WF S50000x128 S128x64 S50000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S50000x128_S128x40_S50000x40_1_0_0_1_n_n_wf : DotDims.WF S50000x128 S128x40 S50000x40 [1] [0] [0] [1] [] []
  gather_S50000x40_S1650000x1_S1650000x40_1_0_n_n_0_1_140_wf : GatherDims.WF S50000x40 S1650000x1 S1650000x40 [1] [0] [] [0] [] 1 ![1, 40]
  scatter_S50000x40_S1650000x1_S1650000x40_1_0_0_1_wf : ScatterDims.WF S50000x40 S1650000x1 S1650000x40 [1] [0] [0] 1

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S1650000x1_S1650000x40_1_0_n_n_0_1_140 : GatherDims S50000x40 S1650000x1 S1650000x40 where
  offsetDims := [1]
  collapsedSliceDims := [0]
  operandBatchingDims := []
  startIndicesBatchingDims := []
  startIndexMap := [0]
  indexVectorDim := 1
  sliceSizes := ![1, 40]
  wf := gather_S50000x40_S1650000x1_S1650000x40_1_0_n_n_0_1_140_wf
def scatter_S50000x40_S1650000x1_S1650000x40_1_0_0_1 : ScatterDims S50000x40 S1650000x1 S1650000x40 where
  updateWindowDims := [1]
  insertedWindowDims := [0]
  scatterDimsToOperandDims := [0]
  indexVectorDim := 1
  wf := scatter_S50000x40_S1650000x1_S1650000x40_1_0_0_1_wf

class Facts : Prop extends Facts₀ where

variable [Facts]
-- ==== Proof.Spec.lean ====
/-
  The layers of the network as functions of whole arrays over the extended reals, index by index, and the one
  algebraic law the two programs differ by.

  * `mm A B`: the rows-by-columns product, entry (r, c) the sum over k of A (r, k) * B (k, c).
  * `reluRow A b`: the one-row array b added to every row of A, then each entry's maximum with zero.
  * `conv3`: the third layer's projection as the kernel computes it, a product of the rectified aggregate with the top
    half of the weight plus a product of the spectral input with a precomputed 128 x N matrix.
  * `lsm A b`: b added to every row of A, then the row-wise log-softmax: each entry minus the row's maximum, minus the
    logarithm of the sum over the row of the exponentials of those differences.

  The law (`mm_concat_assoc`): a product whose left factor is two blocks side by side, the second block itself a
  product E * L, splits along the inner axis into the first block times the top rows of the weight plus
  E * (L * bottom rows). Splitting the inner sum holds for all extended reals; moving the parentheses is
  distributivity, which needs E, L and the weight to be real numbers.
-/
import Idealize.ShloMosaic.Lib.ValueIdx
import Idealize.ShloMosaic.PureOps.Ideal.Laws

noncomputable section

namespace Cert.Spec

open Idealize.ShloMosaic Idealize.ShloMosaic.ValueIdx

/-- The shape of a matrix with `a` rows and `b` columns. -/
abbrev Mat (a b : Nat) : Shape := ⟨2, ![a, b]⟩

variable {M K N : Nat}

/-- Rows-by-columns product: entry (r, c) is the sum over k of A (r, k) * B (k, c). -/
def mm (A : (Mat M K).Idx → EReal) (B : (Mat K N).Idx → EReal) : (Mat M N).Idx → EReal :=
  fun j => ∑ k : Fin K, A (ix2 (j 0) k) * B (ix2 k (j 1))

/-- The one-row array `b` added to every row of `A`, then the maximum with the value of the zero word. -/
def reluRow (A : (Mat M K).Idx → EReal) (b : (Mat 1 K).Idx → EReal) : (Mat M K).Idx → EReal :=
  fun j => max (A j + b (ix2 (0 : Fin 1) (j 1))) (Ideal.ofBits .f32 0x00000000#32)

/-- The third layer's projection in the kernel's arrangement. -/
def conv3 {H D : Nat} (A : (Mat M H).Idx → EReal) (b : (Mat 1 H).Idx → EReal) (Wt : (Mat H N).Idx → EReal)
    (E : (Mat M D).Idx → EReal) (C : (Mat D N).Idx → EReal) : (Mat M N).Idx → EReal :=
  fun j => mm (reluRow A b) Wt j + mm E C j

/-- Row r of `A` with the one-row array `b` added, as a function of the column. -/
def rowPlus (A : (Mat M N).Idx → EReal) (b : (Mat 1 N).Idx → EReal) (r : Fin M) : Fin N → EReal :=
  fun q => A (ix2 r q) + b (ix2 (0 : Fin 1) q)

/-- The maximum of a row, folded from the value of the word of minus infinity. -/
def rowMax (z : Fin N → EReal) : EReal :=
  (Finset.univ : Finset (Fin N)).fold max (Ideal.ofBits .f32 0xFF800000#32) z

/-- Row-wise log-softmax of `A` plus the row `b`. -/
def lsm (A : (Mat M N).Idx → EReal) (b : (Mat 1 N).Idx → EReal) : (Mat M N).Idx → EReal :=
  fun j =>
    (rowPlus A b (j 0) (j 1) - rowMax (rowPlus A b (j 0)))
      - Ideal.log (∑ q : Fin N, Ideal.exp (rowPlus A b (j 0) q - rowMax (rowPlus A b (j 0))))

/-- A vector of length `K` as a one-row matrix. -/
def rowOf (v : (⟨1, ![K]⟩ : Shape).Idx → EReal) : (Mat 1 K).Idx → EReal :=
  fun j => v (ix1 (j 1))

/-- The first `H` rows of a matrix of `H + H'` rows. -/
def topRows {H H' : Nat} (W : (Mat (H + H') N).Idx → EReal) : (Mat H N).Idx → EReal :=
  fun j => W (ix2 (Fin.castAdd H' (j 0)) (j 1))

/-- The last `H'` rows of a matrix of `H + H'` rows. -/
def botRows {H H' : Nat} (W : (Mat (H + H') N).Idx → EReal) : (Mat H' N).Idx → EReal :=
  fun j => W (ix2 (Fin.natAdd H (j 0)) (j 1))

/-- Two matrices of the same number of rows side by side. -/
def catCols {H H' : Nat} (A : (Mat M H).Idx → EReal) (B : (Mat M H').Idx → EReal) : (Mat M (H + H')).Idx → EReal :=
  fun j => Fin.addCases (fun k => A (ix2 (j 0) k)) (fun k => B (ix2 (j 0) k)) (j 1)

end Cert.Spec

end
-- ==== Proof.LibPlainDot.lean ====
/-
  A plain two-dimensional contraction (rows x inner times inner x columns, no batch axis) read at an index.
  At the extended reals the matrix unit's product into a zero accumulator and the host's dot product are both
  the sum, over the inner index k, of the left operand's entry (row, k) times the right operand's entry (k, column).
-/
import Idealize.ShloMosaic.Lib.ValueIdx
import Idealize.ShloMosaic.PureOps.Ideal.Laws
import Idealize.ShloMosaic.Lib.ValueLayout

noncomputable section

namespace Cert.PlainDot

open Idealize.ShloMosaic Idealize.ShloMosaic.ValueIdx

variable {M K N : Nat}

/-- The left operand is read on its row axis at the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand is read on its inner axis at the contraction index. -/
theorem lhs_inner (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand is read on its inner axis at the contraction index. -/
theorem rhs_inner (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand is read on its column axis at the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum re-indexed by the inner coordinate. -/
theorem sum_contr (A : (⟨2, ![M, K]⟩ : Shape).Idx → EReal) (B : (⟨2, ![K, N]⟩ : Shape).Idx → EReal)
    (j : (⟨2, ![M, N]⟩ : Shape).Idx) :
    (∑ q : (DotDims.plain M K N).contr.Idx, A ((DotDims.plain M K N).lhsIdx j q) * B ((DotDims.plain M K N).rhsIdx j q))
      = ∑ k : Fin K, A (ix2 (j 0) k) * B (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact (lhs_inner _ _).trans hk)
  have er : (DotDims.plain M K N).rhsIdx j ((contrEquiv1 (DotDims.plain M K N) K rfl rfl).symm k) = ix2 k (j 1) :=
    funext fun a => Fin.ext (by
      match a with
      | ⟨0, _⟩ => exact (rhs_inner _ _).trans hk
      | ⟨1, _⟩ => exact rhs_col _ _)
  exact congrArg₂ (· * ·) (congrArg A el) (congrArg B er)

/-- The matrix unit's product into the zero accumulator, at an output index: the plain sum of products. -/
theorem matmul_zero_apply {φ₁ φ₂ : FTy} (prec : Option ContractPrecision)
    (A : FVec Ideal (⟨2, ![M, K]⟩ : Shape) φ₁) (B : FVec Ideal (⟨2, ![K, N]⟩ : Shape) φ₂) (j : (⟨2, ![M, N]⟩ : Shape).Idx) :
    FloatOps.matmul (DotDims.plain M K N) prec A B (constant (⟨2, ![M, N]⟩ : Shape) .f32 0x00000000#32) j
      = ∑ k : Fin K, A (ix2 (j 0) k) * B (ix2 k (j 1)) :=
  (Ideal.matmul_constant_zero_apply (DotDims.plain M K N) prec A B j).trans (sum_contr A B j)

/-- The host's dot product at an output index: the same sum. -/
theorem dotGeneral_apply {φ₁ φ₂ : FTy} (prec : Option ContractPrecision) (sched : HostSchedule)
    (A : FVec Ideal (⟨2, ![M, K]⟩ : Shape) φ₁) (B : FVec Ideal (⟨2, ![K, N]⟩ : Shape) φ₂) (j : (⟨2, ![M, N]⟩ : Shape).Idx) :
    FloatOps.dotGeneral (DotDims.plain M K N) prec sched A B j
      = ∑ k : Fin K, A (ix2 (j 0) k) * B (ix2 k (j 1)) :=
  (Ideal.dotGeneral_apply (DotDims.plain M K N) prec sched A B j).trans (sum_contr A B j)

/-! ## A matrix product with a row added to every row -/

/-- The matrix product of `A` and `B` with the one-row array `b` added to each of its rows: the entry at
    (r, c) is `∑ k, A (r, k) * B (k, c) + b (0, c)`. -/
def affine (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => (∑ k : Fin K, A (ix2 (j 0) k) * B (ix2 k (j 1))) + b (ix2 (0 : Fin 1) (j 1))

/-- The matrix unit's product into a zero accumulator plus a one-row array broadcast over the rows is `affine`. -/
theorem matmul_add_row_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    addf (matmul (DotDims.plain M K N) prec A B (constant (⟨2, ![M, N]⟩ : Shape) .f32 0x00000000#32))
        (broadcastTo (⟨2, ![M, N]⟩ : Shape) b h) = affine A B b := by
  funext j
  obtain ⟨p, q, rfl⟩ : ∃ (p : Fin M) (q : Fin N), j = ix2 p q := ⟨j 0, j 1, eq_ix2 j⟩
  show FloatOps.matmul (DotDims.plain M K N) prec A B (constant (⟨2, ![M, N]⟩ : Shape) .f32 0x00000000#32) (ix2 p q)
      + broadcastTo (⟨2, ![M, N]⟩ : Shape) b h (ix2 p q) = _
  rw [matmul_zero_apply, broadcastTo_1b_ab_apply]
  rfl

/-- `affine` followed by the rectifier: each entry's maximum with the value of the zero word. -/
def affineRelu (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => max (affine A B b j) (Ideal.ofBits .f32 0x00000000#32)

/-- The same product and row, then the entrywise maximum with a splat of the zero word, is `affineRelu`. -/
theorem matmul_add_row_max_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    maximumf (addf (matmul (DotDims.plain M K N) prec A B (constant (⟨2, ![M, N]⟩ : Shape) .f32 0x00000000#32))
        (broadcastTo (⟨2, ![M, N]⟩ : Shape) b h))
      (broadcast (⟨2, ![M, N]⟩ : Shape) (Scalar.ofBits (F := Ideal) .f32 0x00000000#32)) = affineRelu A B b := by
  rw [matmul_add_row_eq]
  rfl

end Cert.PlainDot

end
-- ==== Proof.KReg0.lean ====
/-
  The first kernel region as a function of whole arrays: twenty-five row blocks of 2000 rows, each the product of its
  block of the input with the whole weight, fill the output with the rows-by-columns product of the two arrays.
-/
import proofs.«120531_j6004364280508_1_alg».proof.Proof.Gen.KernelIdeal.Frame
import proofs.«120531_j6004364280508_1_alg».proof.Proof.Spec
import proofs.«120531_j6004364280508_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg0

open Cert.KernelIdeal Cert.KernelIdeal.Gen Idealize.ShloMosaic Idealize.ShloMosaic.TcCoe Idealize.SL.Sem
open Idealize.ShloMosaic.ValueIdx
open Idealize.ShloMosaic.Pipeline (Dat Cfg Window)

/-- The zero offsets of a whole-block load or store, as the constant function. -/
theorem zero_offsets : (![0, 0] : Fin 2 → Nat) = fun _ => 0 := funext fun a => by fin_cases a <;> rfl

/-- The body's result at row p, column q of its block: the sum over the inner index k of the input block's
    entry (p, k) times the weight's entry (k, q). The two format changes are the identity on extended reals. -/
theorem payload_apply (x0 : Vec Ideal S2000x512 .f32) (x1 : Vec Ideal S512x128 .f32) (p : Fin 2000) (q : Fin 128) :
    k0_pay1 x0 x1 (ix2 p q) = ∑ k : Fin 512, x0 (ix2 p k) * x1 (ix2 k q) := by
  unfold k0_pay1
  exact Cert.PlainDot.matmul_zero_apply (M := 2000) (K := 512) (N := 128) none _ _ (ix2 p q)

/-- Where the three windows' blocks sit at grid point t: the input's and the output's row block is block t,
    on the column axis every block index is zero, and the weight's block is the whole array. -/
theorem block_indices : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

-- the buffer contents the region is entered from: any
variable (V : (c : Dev nD) → (b : Ref sig .tc) → Buf (Elt Ideal) ((c : Thread nD τ).loc b))

/-- Entry (p, k) of the input's block at point t is entry (2000 t + p, k) of the input array. -/
theorem input_block_apply (c : Dev nD) (t : Fin cfg0.N) (p : Fin 2000) (k : Fin 512) (r : Fin 50000)
    (hr : r.val = t.val * 2000 + p.val) :
    (iblk0 V c 0 t : Vec Ideal S2000x512 .f32) (ix2 p k) = (V c main_arg0 : S50000x512.Idx → EReal) (ix2 r k) := by
  obtain ⟨e0, e1, -⟩ := block_indices t
  unfold iblk0
  rw [View.read_apply]
  show V c main_arg0 _ = V c main_arg0 _
  congr 1
  funext a
  apply Fin.ext
  match a with
  | ⟨0, _⟩ => show win0_0.index t (0 : Fin 2) * 2000 + 1 * p.val = r.val; omega
  | ⟨1, _⟩ => show win0_0.index t (1 : Fin 2) * 512 + 1 * k.val = k.val; omega

/-- The weight's block at every point is the whole weight array. -/
theorem weight_block_apply (c : Dev nD) (t : Fin cfg0.N) (k : Fin 512) (q : Fin 128) :
    (iblk0 V c 1 t : Vec Ideal S512x128 .f32) (ix2 k q) = (V c main_arg3 : S512x128.Idx → EReal) (ix2 k q) := by
  obtain ⟨-, -, e2, e3, -⟩ := block_indices t
  unfold iblk0
  rw [View.read_apply]
  show V c main_arg3 _ = V c main_arg3 _
  congr 1
  funext a
  apply Fin.ext
  match a with
  | ⟨0, _⟩ => show win0_1.index t (0 : Fin 2) * 512 + 1 * k.val = k.val; omega
  | ⟨1, _⟩ => show win0_1.index t (1 : Fin 2) * 128 + 1 * q.val = q.val; omega

/-- Entry (p, q) of the output's block at point t sits at row 2000 t + p, column q of the output array. -/
theorem output_block_row (t : Fin cfg0.N) (p : Fin 2000) (q : Fin 128) :
    ((((cfg0.win 2).blk t).view.emb (ix2 p q) : S50000x128.Idx) 0).val = t.val * 2000 + p.val
    ∧ ((((cfg0.win 2).blk t).view.emb (ix2 p q) : S50000x128.Idx) 1).val = q.val := by
  obtain ⟨-, -, -, -, e4, e5⟩ := block_indices t
  constructor
  · show win0_2.index t (0 : Fin 2) * 2000 + 1 * p.val = _; omega
  · show win0_2.index t (1 : Fin 2) * 128 + 1 * q.val = _; omega

/-- What point t writes back is block t of the product of the two input arrays. -/
theorem flushed_eq (c : Dev nD) (t : Fin cfg0.N) :
    (dat0 V c).flushed 2 t = ((cfg0.win 2).blk t).view.read (Elt Ideal)
      (Cert.Spec.mm (M := 50000) (K := 512) (N := 128) (V c main_arg0) (V c main_arg3)) := by
  show (cfg0.win 2).cut (grid0.coords t) ((dat0 V c).after 2 t) = _
  rw [after0_2]
  unfold out0_2
  rw [View.canon_unit_zero zero_offsets]
  simp only [View.ld_unit_zero (S := S2000x512) zero_offsets, View.ld_unit_zero (S := S512x128) zero_offsets]
  funext j
  show k0_pay1 (iblk0 V c 0 t) (iblk0 V c 1 t) j
    = Cert.Spec.mm (M := 50000) (K := 512) (N := 128) (V c main_arg0) (V c main_arg3) (((cfg0.win 2).blk t).view.emb j)
  obtain ⟨p, q, rfl⟩ : ∃ (p : Fin 2000) (q : Fin 128), j = ix2 p q := ⟨j 0, j 1, eq_ix2 j⟩
  refine (payload_apply (iblk0 V c 0 t) (iblk0 V c 1 t) p q).trans ?_
  obtain ⟨hrow, hcol⟩ := output_block_row t p q
  unfold Cert.Spec.mm
  refine Finset.sum_congr rfl fun k _ => ?_
  exact congrArg₂ (· * ·) (input_block_apply V c t p k _ hrow)
    ((weight_block_apply V c t k q).trans
      (congrArg (fun z : Fin 128 => (V c main_arg3 : S512x128.Idx → EReal) (ix2 k z)) (Fin.ext hcol).symm))

/-- An index of the output array lies in point t's block iff on each axis its coordinate lies in the block's range. -/
theorem mem_block (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v32).slice (win0_2.rect t)).set ↔ _
  rw [View.set_slice_whole, Rect.mem_set_unit]
  exact Iff.rfl

/-- Every index of the output array is written back: row r lies in the block of point r / 2000, and each of the
    twenty-five points writes its block back. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  obtain ⟨t, ht⟩ : ∃ t : Fin cfg0.N, t.val = (i 0).val / 2000 :=
    ⟨⟨(i 0).val / 2000, lt_of_lt_of_eq (by omega) hN.symm⟩, rfl⟩
  obtain ⟨-, -, -, -, e4, e5⟩ := block_indices t
  refine ⟨t, flush0_2 t, ?_⟩
  rw [mem_block]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 128 ≤ (i 1).val ∧ (i 1).val < win0_2.index t (1 : Fin 2) * 128 + 128
    omega

/-- After the region the output array is the product of the two input arrays as the region found them. -/
theorem final0 (c : Dev nD) :
    (dat0 V c).arrAt 2 cfg0.N = Cert.Spec.mm (M := 50000) (K := 512) (N := 128) (V c main_arg0) (V c main_arg3) :=
  (dat0 V c).arrAt_eq_of_cover 2 _ (fun t _ => flushed_eq V c t) covered

end Cert.KernelIdeal.Reg0

end
-- ==== Proof.KReg1.lean ====
/-
  The second kernel region as a function of whole arrays: each block of 2000 rows of the aggregate gets the bias row
  added and is rectified, then multiplied by the whole weight; together the blocks are that product of whole arrays.
-/
import proofs.«120531_j6004364280508_1_alg».proof.Proof.Gen.KernelIdeal.Frame
import proofs.«120531_j6004364280508_1_alg».proof.Proof.Spec
import proofs.«120531_j6004364280508_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Cert.KernelIdeal Cert.KernelIdeal.Gen Idealize.ShloMosaic Idealize.ShloMosaic.TcCoe Idealize.SL.Sem
open Idealize.ShloMosaic.ValueIdx
open Idealize.ShloMosaic.Pipeline (Dat Cfg Window)

/-- Both offsets of a whole-block access are zero. -/
theorem offsets_zero : (![0, 0] : Fin 2 → Nat) = fun _ => 0 := funext fun a => by fin_cases a <;> rfl

/-- The body's result at row p, column q of a block: the sum over the inner index k of the rectified
    (aggregate entry (p, k) plus bias entry k) times the weight entry (k, q). -/
theorem block_product_apply (x0 : Vec Ideal S2000x128 .f32) (x1 : Vec Ideal S1x128 .f32) (x2 : Vec Ideal S128x64 .f32)
    (p : Fin 2000) (q : Fin 64) :
    k1_pay1 x0 x1 x2 (ix2 p q)
      = ∑ k : Fin 128, max (x0 (ix2 p k) + x1 (ix2 (0 : Fin 1) k)) (Ideal.ofBits .f32 0x00000000#32) * x2 (ix2 k q) := by
  unfold k1_pay1
  simp only [shapeCast_self]
  refine (Cert.PlainDot.matmul_zero_apply (M := 2000) (K := 128) (N := 64) none _ _ (ix2 p q)).trans ?_
  refine Finset.sum_congr rfl fun k _ => ?_
  rw [truncf_apply, truncf_apply, maximumf_apply, addf_apply, broadcast_apply, broadcastTo_1b_ab_apply]
  rfl

/-- The printed index maps over the grid: the aggregate's row block moves with the output's; the bias row and
    the weight stay at block (0, 0); the output's block is (t, 0). -/
theorem index_facts : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- A block's entry (p, q) is the whole-array product's entry (r, q) when the block of the aggregate holds row r at
    its row p and the bias row and the weight are held whole. -/
theorem block_entry (x0 : Vec Ideal S2000x128 .f32) (x1 : Vec Ideal S1x128 .f32) (x2 : Vec Ideal S128x64 .f32)
    (A : (Cert.Spec.Mat 50000 128).Idx → EReal) (b : (Cert.Spec.Mat 1 128).Idx → EReal)
    (W : (Cert.Spec.Mat 128 64).Idx → EReal) (p : Fin 2000) (q : Fin 64) (r : Fin 50000)
    (h0 : ∀ k : Fin 128, x0 (ix2 p k) = A (ix2 r k))
    (h1 : ∀ k : Fin 128, x1 (ix2 (0 : Fin 1) k) = b (ix2 (0 : Fin 1) k))
    (h2 : ∀ k : Fin 128, x2 (ix2 k q) = W (ix2 k q)) :
    k1_pay1 x0 x1 x2 (ix2 p q)
      = Cert.Spec.mm (M := 50000) (K := 128) (N := 64) (Cert.Spec.reluRow (M := 50000) (K := 128) A b) W (ix2 r q) := by
  rw [block_product_apply]
  refine Finset.sum_congr rfl fun k _ => ?_
  rw [h0 k, h1 k, h2 k]
  rfl

-- the buffer contents the region is entered from: any
variable (V : (c : Dev nD) → (b : Ref sig .tc) → Buf (Elt Ideal) ((c : Thread nD τ).loc b))

/-- The rectified (aggregate plus bias row) times the weight, as one function of the arrays the region finds. -/
abbrev wholeProduct (c : Dev nD) : (Cert.Spec.Mat 50000 64).Idx → EReal :=
  Cert.Spec.mm (M := 50000) (K := 128) (N := 64)
    (Cert.Spec.reluRow (M := 50000) (K := 128) (V c main_v45) (V c main_v46)) (V c main_arg5)

/-- What point t writes back is block t of the whole-array product. -/
theorem flushed_eq (c : Dev nD) (t : Fin cfg1.N) :
    (dat1 V c).flushed 3 t = ((cfg1.win 3).blk t).view.read (Elt Ideal) (wholeProduct V c) := by
  show (cfg1.win 3).cut (grid1.coords t) ((dat1 V c).after 3 t) = _
  rw [after1_3]
  unfold out1_3
  rw [View.canon_unit_zero offsets_zero]
  simp only [View.ld_unit_zero (S := S2000x128) offsets_zero, View.ld_unit_zero (S := S1x128) offsets_zero, View.ld_unit_zero (S := S128x64) offsets_zero]
  obtain ⟨e0, e1, e2, e3, e4, e5, e6, e7⟩ := index_facts t
  funext j
  show k1_pay1 (iblk1 V c 0 t) (iblk1 V c 1 t) (iblk1 V c 2 t) j = wholeProduct V c (((cfg1.win 3).blk t).view.emb j)
  have hp : (j 0).val < 2000 := (j 0).isLt
  have hq : (j 1).val < 64 := (j 1).isLt
  -- the block's entry (j 0, j 1) sits at row 2000 t + j 0, column j 1 of the array
  have hi : ((cfg1.win 3).blk t).view.emb j = ix2 ((((cfg1.win 3).blk t).view.emb j) 0) (j 1) := by
    funext a; apply Fin.ext
    match a with
    | ⟨0, _⟩ => rfl
    | ⟨1, _⟩ => show win1_3.index t (1 : Fin 2) * 64 + 1 * (j 1).val = (j 1).val; omega
  refine (congrArg (k1_pay1 (iblk1 V c 0 t) (iblk1 V c 1 t) (iblk1 V c 2 t)) (eq_ix2 (n0 := 2000) (n1 := 64) j)).trans ?_
  refine (block_entry _ _ _ (V c main_v45) (V c main_v46) (V c main_arg5) (j 0) (j 1) ((((cfg1.win 3).blk t).view.emb j) 0) ?_ ?_ ?_).trans ?_
  · intro k
    show V c main_v45 (((cfg1.win 0).blk t).view.emb (ix2 (j 0) k)) = V c main_v45 (ix2 ((((cfg1.win 3).blk t).view.emb j) 0) k)
    refine congrArg _ ?_
    funext a; apply Fin.ext
    match a with
    | ⟨0, _⟩ => show win1_0.index t (0 : Fin 2) * 2000 + 1 * (j 0).val = win1_3.index t (0 : Fin 2) * 2000 + 1 * (j 0).val; omega
    | ⟨1, _⟩ => show win1_0.index t (1 : Fin 2) * 128 + 1 * k.val = k.val; omega
  · intro k
    show V c main_v46 (((cfg1.win 1).blk t).view.emb (ix2 (0 : Fin 1) k)) = V c main_v46 (ix2 (0 : Fin 1) k)
    refine congrArg _ ?_
    funext a; apply Fin.ext
    match a with
    | ⟨0, _⟩ => show win1_1.index t (0 : Fin 2) * 1 + 1 * 0 = 0; omega
    | ⟨1, _⟩ => show win1_1.index t (1 : Fin 2) * 128 + 1 * k.val = k.val; omega
  · intro k
    show V c main_arg5 (((cfg1.win 2).blk t).view.emb (ix2 k (j 1))) = V c main_arg5 (ix2 k (j 1))
    refine congrArg _ ?_
    funext a; apply Fin.ext
    match a with
    | ⟨0, _⟩ => show win1_2.index t (0 : Fin 2) * 128 + 1 * k.val = k.val; omega
    | ⟨1, _⟩ => show win1_2.index t (1 : Fin 2) * 64 + 1 * (j 1).val = (j 1).val; omega
  · exact congrArg (wholeProduct V c) hi.symm

/-- An index of the output array is in point t's block iff each coordinate is in the block's range on its axis. -/
theorem mem_blk (t : Fin cfg1.N) (i : S50000x64.Idx) :
    i ∈ ((cfg1.win 3).blk t).view.set ↔ ∀ a : Fin 2, win1_3.index t a * S2000x64.size a ≤ (i a).val ∧ (i a).val < win1_3.index t a * S2000x64.size a + S2000x64.size a := by
  show i ∈ ((View.whole main_v47).slice (win1_3.rect t)).set ↔ _
  rw [View.set_slice_whole, Rect.mem_set_unit]
  exact Iff.rfl

/-- Every row r lies in the block of point r / 2000, and every point writes its block back. -/
theorem covered (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  have hN : grid1.N = 25 := N_1
  let t : Fin cfg1.N := ⟨(i 0).val / 2000, by show (i 0).val / 2000 < grid1.N; omega⟩
  obtain ⟨-, -, -, -, -, -, e6, e7⟩ := index_facts t
  have e6' : win1_3.index t (0 : Fin 2) = (i 0).val / 2000 := e6
  refine ⟨t, flush1_3 t, ?_⟩
  rw [mem_blk]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 64 ≤ (i 1).val ∧ (i 1).val < win1_3.index t (1 : Fin 2) * 64 + 64; omega

/-- After the region the output array is the rectified (aggregate plus bias row) times the weight. -/
theorem final1 (c : Dev nD) :
    (dat1 V c).arrAt 3 cfg1.N = Cert.Spec.mm (M := 50000) (K := 128) (N := 64)
      (Cert.Spec.reluRow (M := 50000) (K := 128) (V c main_v45) (V c main_v46)) (V c main_arg5) :=
  (dat1 V c).arrAt_eq_of_cover 3 (wholeProduct V c) (fun t _ => flushed_eq V c t) covered

end Cert.KernelIdeal.Reg1

end
-- ==== Proof.KReg2.lean ====
/-
  The third kernel region as a function of whole arrays: per block of 2000 rows, the rectified (aggregate plus bias
  row) times the top half of the last weight, plus the spectral input's block times the precomputed 128 x 40 matrix.
-/
import proofs.«120531_j6004364280508_1_alg».proof.Proof.Gen.KernelIdeal.Frame
import proofs.«120531_j6004364280508_1_alg».proof.Proof.Spec
import proofs.«120531_j6004364280508_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg2

open Cert.KernelIdeal Cert.KernelIdeal.Gen Idealize.ShloMosaic Idealize.ShloMosaic.TcCoe Idealize.SL.Sem
open Idealize.ShloMosaic.ValueIdx
open Idealize.ShloMosaic.Pipeline (Dat Cfg Window)

/-- Both offsets of a whole-block access are zero. -/
theorem offsets_zero : (![0, 0] : Fin 2 → Nat) = fun _ => 0 := funext fun a => by fin_cases a <;> rfl

/-- The body's result at row p, column q of a block: the sum over k of the rectified (aggregate entry (p, k) plus
    bias entry k) times the first weight's entry (k, q), plus the sum over k of the spectral block's entry (p, k)
    times the second matrix's entry (k, q). -/
theorem block_sum_apply (x0 : Vec Ideal S2000x64 .f32) (x1 : Vec Ideal S1x64 .f32) (x2 : Vec Ideal S64x40 .f32)
    (x3 : Vec Ideal S2000x128 .f32) (x4 : Vec Ideal S128x40 .f32) (p : Fin 2000) (q : Fin 40) :
    k2_pay1 x0 x1 x2 x3 x4 (ix2 p q)
      = ∑ k : Fin 64, max (x0 (ix2 p k) + x1 (ix2 (0 : Fin 1) k)) (Ideal.ofBits .f32 0x00000000#32) * x2 (ix2 k q)
        + ∑ k : Fin 128, x3 (ix2 p k) * x4 (ix2 k q) := by
  unfold k2_pay1
  simp only [shapeCast_self]
  rw [addf_apply]
  refine congrArg₂ (· + ·) ?_ ?_
  · refine (Cert.PlainDot.matmul_zero_apply (M := 2000) (K := 64) (N := 40) none _ _ (ix2 p q)).trans ?_
    refine Finset.sum_congr rfl fun k _ => ?_
    rw [truncf_apply, truncf_apply, maximumf_apply, addf_apply, broadcast_apply, broadcastTo_1b_ab_apply]
    rfl
  · refine (Cert.PlainDot.matmul_zero_apply (M := 2000) (K := 128) (N := 40) none _ _ (ix2 p q)).trans ?_
    refine Finset.sum_congr rfl fun k _ => ?_
    rw [truncf_apply, truncf_apply]

/-- The printed index maps over the grid: the aggregate's and the spectral input's row blocks move with the output's;
    the bias row and the two matrices stay at block (0, 0); the output's block is (t, 0). -/
theorem index_facts : ∀ t : Fin cfg2.N, win2_0.index t (0 : Fin 2) = win2_5.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = win2_5.index t (0 : Fin 2)
    ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- A block's entry (p, q) is the whole-array expression's entry (r, q) when the blocks of the aggregate and of the
    spectral input hold row r at their row p and the bias row and the two matrices are held whole. -/
theorem block_entry (x0 : Vec Ideal S2000x64 .f32) (x1 : Vec Ideal S1x64 .f32) (x2 : Vec Ideal S64x40 .f32)
    (x3 : Vec Ideal S2000x128 .f32) (x4 : Vec Ideal S128x40 .f32)
    (A : (Cert.Spec.Mat 50000 64).Idx → EReal) (b : (Cert.Spec.Mat 1 64).Idx → EReal)
    (Wt : (Cert.Spec.Mat 64 40).Idx → EReal) (E : (Cert.Spec.Mat 50000 128).Idx → EReal)
    (C : (Cert.Spec.Mat 128 40).Idx → EReal) (p : Fin 2000) (q : Fin 40) (r : Fin 50000)
    (h0 : ∀ k : Fin 64, x0 (ix2 p k) = A (ix2 r k))
    (h1 : ∀ k : Fin 64, x1 (ix2 (0 : Fin 1) k) = b (ix2 (0 : Fin 1) k))
    (h2 : ∀ k : Fin 64, x2 (ix2 k q) = Wt (ix2 k q))
    (h3 : ∀ k : Fin 128, x3 (ix2 p k) = E (ix2 r k))
    (h4 : ∀ k : Fin 128, x4 (ix2 k q) = C (ix2 k q)) :
    k2_pay1 x0 x1 x2 x3 x4 (ix2 p q)
      = Cert.Spec.conv3 (M := 50000) (N := 40) (H := 64) (D := 128) A b Wt E C (ix2 r q) := by
  rw [block_sum_apply]
  refine congrArg₂ (· + ·) ?_ ?_
  · refine Finset.sum_congr rfl fun k _ => ?_
    rw [h0 k, h1 k, h2 k]
    rfl
  · refine Finset.sum_congr rfl fun k _ => ?_
    rw [h3 k, h4 k]

-- the buffer contents the region is entered from: any
variable (V : (c : Dev nD) → (b : Ref sig .tc) → Buf (Elt Ideal) ((c : Thread nD τ).loc b))

/-- The third layer's projection as one function of the arrays the region finds. -/
abbrev wholeSum (c : Dev nD) : (Cert.Spec.Mat 50000 40).Idx → EReal :=
  Cert.Spec.conv3 (M := 50000) (N := 40) (H := 64) (D := 128)
    (V c main_v60) (V c main_v64) (V c main_v61) (V c main_arg2) (V c main_v63)

/-- What point t writes back is block t of the whole-array expression. -/
theorem flushed_eq (c : Dev nD) (t : Fin cfg2.N) :
    (dat2 V c).flushed 5 t = ((cfg2.win 5).blk t).view.read (Elt Ideal) (wholeSum V c) := by
  show (cfg2.win 5).cut (grid2.coords t) ((dat2 V c).after 5 t) = _
  rw [after2_5]
  unfold out2_5
  rw [View.canon_unit_zero offsets_zero]
  simp only [View.ld_unit_zero (S := S2000x64) offsets_zero, View.ld_unit_zero (S := S1x64) offsets_zero,
    View.ld_unit_zero (S := S64x40) offsets_zero, View.ld_unit_zero (S := S2000x128) offsets_zero,
    View.ld_unit_zero (S := S128x40) offsets_zero]
  obtain ⟨e0, e1, e2, e3, e4, e5, e6, e7, e8, e9, e10, e11⟩ := index_facts t
  funext j
  show k2_pay1 (iblk2 V c 0 t) (iblk2 V c 1 t) (iblk2 V c 2 t) (iblk2 V c 3 t) (iblk2 V c 4 t) j
    = wholeSum V c (((cfg2.win 5).blk t).view.emb j)
  have hp : (j 0).val < 2000 := (j 0).isLt
  have hq : (j 1).val < 40 := (j 1).isLt
  -- the block's entry (j 0, j 1) sits at row 2000 t + j 0, column j 1 of the array
  have hi : ((cfg2.win 5).blk t).view.emb j = ix2 ((((cfg2.win 5).blk t).view.emb j) 0) (j 1) := by
    funext a; apply Fin.ext
    match a with
    | ⟨0, _⟩ => rfl
    | ⟨1, _⟩ => show win2_5.index t (1 : Fin 2) * 40 + 1 * (j 1).val = (j 1).val; omega
  refine (congrArg (k2_pay1 (iblk2 V c 0 t) (iblk2 V c 1 t) (iblk2 V c 2 t) (iblk2 V c 3 t) (iblk2 V c 4 t))
    (eq_ix2 (n0 := 2000) (n1 := 40) j)).trans ?_
  refine (block_entry _ _ _ _ _ (V c main_v60) (V c main_v64) (V c main_v61) (V c main_arg2) (V c main_v63)
    (j 0) (j 1) ((((cfg2.win 5).blk t).view.emb j) 0) ?_ ?_ ?_ ?_ ?_).trans ?_
  · intro k
    show V c main_v60 (((cfg2.win 0).blk t).view.emb (ix2 (j 0) k)) = V c main_v60 (ix2 ((((cfg2.win 5).blk t).view.emb j) 0) k)
    refine congrArg _ ?_
    funext a; apply Fin.ext
    match a with
    | ⟨0, _⟩ => show win2_0.index t (0 : Fin 2) * 2000 + 1 * (j 0).val = win2_5.index t (0 : Fin 2) * 2000 + 1 * (j 0).val; omega
    | ⟨1, _⟩ => show win2_0.index t (1 : Fin 2) * 64 + 1 * k.val = k.val; omega
  · intro k
    show V c main_v64 (((cfg2.win 1).blk t).view.emb (ix2 (0 : Fin 1) k)) = V c main_v64 (ix2 (0 : Fin 1) k)
    refine congrArg _ ?_
    funext a; apply Fin.ext
    match a with
    | ⟨0, _⟩ => show win2_1.index t (0 : Fin 2) * 1 + 1 * 0 = 0; omega
    | ⟨1, _⟩ => show win2_1.index t (1 : Fin 2) * 64 + 1 * k.val = k.val; omega
  · intro k
    show V c main_v61 (((cfg2.win 2).blk t).view.emb (ix2 k (j 1))) = V c main_v61 (ix2 k (j 1))
    refine congrArg _ ?_
    funext a; apply Fin.ext
    match a with
    | ⟨0, _⟩ => show win2_2.index t (0 : Fin 2) * 64 + 1 * k.val = k.val; omega
    | ⟨1, _⟩ => show win2_2.index t (1 : Fin 2) * 40 + 1 * (j 1).val = (j 1).val; omega
  · intro k
    show V c main_arg2 (((cfg2.win 3).blk t).view.emb (ix2 (j 0) k)) = V c main_arg2 (ix2 ((((cfg2.win 5).blk t).view.emb j) 0) k)
    refine congrArg _ ?_
    funext a; apply Fin.ext
    match a with
    | ⟨0, _⟩ => show win2_3.index t (0 : Fin 2) * 2000 + 1 * (j 0).val = win2_5.index t (0 : Fin 2) * 2000 + 1 * (j 0).val; omega
    | ⟨1, _⟩ => show win2_3.index t (1 : Fin 2) * 128 + 1 * k.val = k.val; omega
  · intro k
    show V c main_v63 (((cfg2.win 4).blk t).view.emb (ix2 k (j 1))) = V c main_v63 (ix2 k (j 1))
    refine congrArg _ ?_
    funext a; apply Fin.ext
    match a with
    | ⟨0, _⟩ => show win2_4.index t (0 : Fin 2) * 128 + 1 * k.val = k.val; omega
    | ⟨1, _⟩ => show win2_4.index t (1 : Fin 2) * 40 + 1 * (j 1).val = (j 1).val; omega
  · exact congrArg (wholeSum V c) hi.symm

/-- An index of the output array is in point t's block iff each coordinate is in the block's range on its axis. -/
theorem mem_blk (t : Fin cfg2.N) (i : S50000x40.Idx) :
    i ∈ ((cfg2.win 5).blk t).view.set ↔ ∀ a : Fin 2, win2_5.index t a * S2000x40.size a ≤ (i a).val ∧ (i a).val < win2_5.index t a * S2000x40.size a + S2000x40.size a := by
  show i ∈ ((View.whole main_v65).slice (win2_5.rect t)).set ↔ _
  rw [View.set_slice_whole, Rect.mem_set_unit]
  exact Iff.rfl

/-- Every row r lies in the block of point r / 2000, and every point writes its block back. -/
theorem covered (i : S50000x40.Idx) :
    ∃ t : Fin cfg2.N, (cfg2.win 5).flush t = true ∧ i ∈ ((cfg2.win 5).blk t).view.set := by
  have hi0 : (i 0).val < 50000 := (i 0).isLt
  have hi1 : (i 1).val < 40 := (i 1).isLt
  have hN : grid2.N = 25 := N_2
  let t : Fin cfg2.N := ⟨(i 0).val / 2000, by show (i 0).val / 2000 < grid2.N; omega⟩
  obtain ⟨-, -, -, -, -, -, -, -, -, -, e10, e11⟩ := index_facts t
  have e10' : win2_5.index t (0 : Fin 2) = (i 0).val / 2000 := e10
  refine ⟨t, flush2_5 t, ?_⟩
  rw [mem_blk]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 40 ≤ (i 1).val ∧ (i 1).val < win2_5.index t (1 : Fin 2) * 40 + 40; omega

/-- After the region the output array is the third layer's projection in the kernel's arrangement. -/
theorem final2 (c : Dev nD) :
    (dat2 V c).arrAt 5 cfg2.N = Cert.Spec.conv3 (M := 50000) (N := 40) (H := 64) (D := 128)
      (V c main_v60) (V c main_v64) (V c main_v61) (V c main_arg2) (V c main_v63) :=
  (dat2 V c).arrAt_eq_of_cover 5 (wholeSum V c) (fun t _ => flushed_eq V c t) covered

end Cert.KernelIdeal.Reg2

end
-- ==== Proof.KReg3Pay.lean ====
/-
  The fourth kernel's body on one block of 2000 rows and 40 columns, index by index: the bias row added to every row,
  then each entry minus its row's maximum, minus the logarithm of the row's sum of the exponentials of those differences.
-/
import proofs.«120531_j6004364280508_1_alg».proof.Proof.Gen.KernelIdeal.Skeleton
import proofs.«120531_j6004364280508_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg3Pay

open Cert.KernelIdeal Cert.KernelIdeal.Gen Idealize.ShloMosaic Idealize.ShloMosaic.TcCoe
open Idealize.ShloMosaic.ValueIdx

/-! ## The keepdims column forms of the layout operations -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two lane reductions at a row -/

/-- Row `p` with the column `k` put back on the dropped axis is the index (p, k). -/
theorem lift_row (p : Fin 2000) (k : Fin (S2000x40.size 1)) :
    reduces_S2000x40_S2000.lift (ix1 p) k = ix2 p (⟨k.val, k.isLt⟩ : Fin 40) := by
  funext c; apply Fin.ext
  match c with | ⟨0, _⟩ => rfl | ⟨1, _⟩ => rfl

/-- The lane maximum from the word of minus infinity is, at row `p`, the fold of `max` over the row's 40 entries
    from that word's value. -/
theorem rowMax_spread (z : FVec Ideal S2000x40 .f32) (hφ : FKind.Formats .f32)
    (hacc : (0xFF800000#32 : BitVec 32) = FKind.maximumf.neutral .f32 hφ) (p : Fin 2000) :
    multiReduction (F := Ideal) .maximumf [1] S2000 z 0xFF800000#32 reduces_S2000x40_S2000 hφ hacc (ix1 p)
      = Cert.Spec.rowMax (fun q : Fin 40 => z (ix2 p q)) := by
  refine (Ideal.multiReduction_maximumf_single z 0xFF800000#32 reduces_S2000x40_S2000 hφ hacc (ix1 p)).trans ?_
  have hf : (z ∘ reduces_S2000x40_S2000.lift (ix1 p)) = fun q : Fin 40 => z (ix2 p q) :=
    funext fun k => congrArg z (lift_row p k)
  exact congrArg (fun f => Finset.fold max (Ideal.ofBits .f32 0xFF800000#32) f (Finset.univ : Finset (Fin 40))) hf

/-- The lane sum from the zero word is, at row `p`, the sum of the row's 40 entries. -/
theorem rowSum_spread (z : FVec Ideal S2000x40 .f32) (hφ : FKind.Formats .f32)
    (hacc : (0x00000000#32 : BitVec 32) = FKind.add.neutral .f32 hφ) (p : Fin 2000) :
    multiReduction (F := Ideal) .add [1] S2000 z 0x00000000#32 reduces_S2000x40_S2000 hφ hacc (ix1 p)
      = ∑ q : Fin 40, z (ix2 p q) := by
  refine (Ideal.multiReduction_add_single z 0x00000000#32 reduces_S2000x40_S2000 hφ hacc (ix1 p)).trans ?_
  exact Finset.sum_congr rfl fun k _ => congrArg z (lift_row p k)

/-! ## The body, stage by stage -/

/-- The exponential of an array at an index. -/
theorem exp_apply {s : Shape} {φ : FTy} (a : FVec Ideal s φ) (i : s.Idx) : exp a i = Ideal.exp (a i) := rfl

/-- The logarithm of an array at an index. -/
theorem log_apply {s : Shape} {φ : FTy} (a : FVec Ideal s φ) (i : s.Idx) : log a i = Ideal.log (a i) := rfl

/-- The block with the bias row added to every row: at (p, q) the entry there plus entry q of the bias. -/
theorem biased_apply (v0 : Vec Ideal S2000x40 .f32) (v2 : Vec Ideal S1x40 .f32) (p : Fin 2000) (q : Fin 40) :
    addf (F := Ideal) (φ := .f32) (shapeCast S2000x40 v0 shapeCasts_S2000x40_S2000x40)
        (broadcastTo S2000x40 (shapeCast S1x40 v2 shapeCasts_S1x40_S1x40) broadcasts_S1x40_S2000x40) (ix2 p q)
      = Cert.Spec.rowPlus (M := 2000) (N := 40) v0 v2 p q := by
  rw [addf_apply, shapeCast_self, shapeCast_self, broadcastTo_1b_ab_apply]
  rfl

/-- An array minus its row maxima spread back over the columns: at (p, q) the entry minus row p's maximum. -/
theorem shifted_apply (z : FVec Ideal S2000x40 .f32) (hφ : FKind.Formats .f32)
    (hm : (0xFF800000#32 : BitVec 32) = FKind.maximumf.neutral .f32 hφ) (p : Fin 2000) (q : Fin 40) :
    subf z (broadcastTo S2000x40 (shapeCast S2000x1
        (multiReduction (F := Ideal) .maximumf [1] S2000 z 0xFF800000#32 reduces_S2000x40_S2000 hφ hm)
        shapeCasts_S2000_S2000x1) broadcasts_S2000x1_S2000x40) (ix2 p q)
      = z (ix2 p q) - Cert.Spec.rowMax (fun k : Fin 40 => z (ix2 p k)) := by
  refine (subf_apply _ _ _).trans ?_
  refine congrArg (fun m : EReal => z (ix2 p q) - m) ?_
  refine (broadcastTo_a1_ab_apply _ _ p q).trans ?_
  refine (shapeCast_a_a1_apply _ _ p (0 : Fin 1)).trans ?_
  exact rowMax_spread z hφ hm p

/-- The logarithm of the row sums of the exponentials of an array, spread back over the columns: at (p, q) the
    logarithm of the sum over row p of the exponentials. -/
theorem logRowSum_spread (w : FVec Ideal S2000x40 .f32) (hφ : FKind.Formats .f32)
    (ha : (0x00000000#32 : BitVec 32) = FKind.add.neutral .f32 hφ) (p : Fin 2000) (q : Fin 40) :
    broadcastTo S2000x40 (log (shapeCast S2000x1
        (multiReduction (F := Ideal) .add [1] S2000 (exp w) 0x00000000#32 reduces_S2000x40_S2000 hφ ha)
        shapeCasts_S2000_S2000x1)) broadcasts_S2000x1_S2000x40 (ix2 p q)
      = Ideal.log (∑ k : Fin 40, Ideal.exp (w (ix2 p k))) := by
  refine (broadcastTo_a1_ab_apply _ _ p q).trans ?_
  refine (log_apply _ _).trans ?_
  refine congrArg Ideal.log ?_
  refine (shapeCast_a_a1_apply _ _ p (0 : Fin 1)).trans ?_
  exact rowSum_spread (exp w) hφ ha p

/-- The row-wise log-softmax of an array whose row p is the function r: at (p, q), r q minus r's maximum, minus the
    logarithm of the sum over k of the exponentials of r k minus r's maximum. -/
theorem rowLsm_apply (z : FVec Ideal S2000x40 .f32) (hφ : FKind.Formats .f32)
    (hm : (0xFF800000#32 : BitVec 32) = FKind.maximumf.neutral .f32 hφ)
    (ha : (0x00000000#32 : BitVec 32) = FKind.add.neutral .f32 hφ) (p : Fin 2000) (r : Fin 40 → EReal)
    (hr : ∀ k : Fin 40, z (ix2 p k) = r k) (q : Fin 40) :
    subf
      (subf z (broadcastTo S2000x40 (shapeCast S2000x1
        (multiReduction (F := Ideal) .maximumf [1] S2000 z 0xFF800000#32 reduces_S2000x40_S2000 hφ hm)
        shapeCasts_S2000_S2000x1) broadcasts_S2000x1_S2000x40))
      (broadcastTo S2000x40 (log (shapeCast S2000x1
        (multiReduction (F := Ideal) .add [1] S2000
          (exp (subf z (broadcastTo S2000x40 (shapeCast S2000x1
            (multiReduction (F := Ideal) .maximumf [1] S2000 z 0xFF800000#32 reduces_S2000x40_S2000 hφ hm)
            shapeCasts_S2000_S2000x1) broadcasts_S2000x1_S2000x40)))
          0x00000000#32 reduces_S2000x40_S2000 hφ ha)
        shapeCasts_S2000_S2000x1)) broadcasts_S2000x1_S2000x40) (ix2 p q)
      = (r q - Cert.Spec.rowMax r) - Ideal.log (∑ k : Fin 40, Ideal.exp (r k - Cert.Spec.rowMax r)) := by
  have hz : (fun k : Fin 40 => z (ix2 p k)) = r := funext hr
  have hs : ∀ k : Fin 40,
      subf z (broadcastTo S2000x40 (shapeCast S2000x1
        (multiReduction (F := Ideal) .maximumf [1] S2000 z 0xFF800000#32 reduces_S2000x40_S2000 hφ hm)
        shapeCasts_S2000_S2000x1) broadcasts_S2000x1_S2000x40) (ix2 p k) = r k - Cert.Spec.rowMax r := fun k => by
    rw [shifted_apply z hφ hm p k, hz, hr k]
  refine (subf_apply _ _ _).trans ?_
  refine congrArg₂ (fun a b : EReal => a - b) (hs q) ?_
  refine (logRowSum_spread _ hφ ha p q).trans ?_
  exact congrArg Ideal.log (Finset.sum_congr rfl fun k _ => congrArg Ideal.exp (hs k))

/-- The body's result on a block is the row-wise log-softmax of the block plus the bias row. -/
theorem pay_eq (v0 : Vec Ideal S2000x40 .f32) (v2 : Vec Ideal S1x40 .f32) :
    k3_pay1 (F := Ideal) v0 v2 = Cert.Spec.lsm (M := 2000) (N := 40) v0 v2 := by
  funext j
  obtain ⟨p, q, rfl⟩ : ∃ (p : Fin 2000) (q : Fin 40), j = ix2 p q := ⟨j 0, j 1, eq_ix2 j⟩
  unfold k3_pay1
  exact rowLsm_apply _ _ _ _ p (Cert.Spec.rowPlus (M := 2000) (N := 40) v0 v2 p) (fun k => biased_apply v0 v2 p k) q

end Cert.KernelIdeal.Reg3Pay

end
-- ==== Proof.KReg3.lean ====
/-
  The fourth kernel region as a function of whole arrays: per block of 2000 rows, the bias row added, then the row-wise
  log-softmax (row maximum, differences, exponentials, their sum, its logarithm). Every row lies in one block.
-/
import proofs.«120531_j6004364280508_1_alg».proof.Proof.Gen.KernelIdeal.Frame
import proofs.«120531_j6004364280508_1_alg».proof.Proof.Spec
import proofs.«120531_j6004364280508_1_alg».proof.Proof.LibPlainDot
import proofs.«120531_j6004364280508_1_alg».proof.Proof.KReg3Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg3

open Cert.KernelIdeal Cert.KernelIdeal.Gen Idealize.ShloMosaic Idealize.ShloMosaic.TcCoe Idealize.SL.Sem
open Idealize.ShloMosaic.ValueIdx
open Idealize.ShloMosaic.Pipeline (Dat Cfg Window)

/-- The zero offsets of a whole-block load or store, as the constant function. -/
theorem zero_offsets : (![0, 0] : Fin 2 → Nat) = fun _ => 0 := funext fun a => by fin_cases a <;> rfl

/-- Where the three windows' blocks sit at grid point t: the input's and the output's row block is block t,
    on the column axis every block index is zero, and the bias row's block is the whole one-row array. -/
theorem block_indices : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- The log-softmax of a row depends on that row only: when row p of a block X is row r of the array A, and the two
    bias rows agree, entry (p, q) of the block's log-softmax is entry (r, q) of the array's. The row with the bias
    added is the same function of the column on both sides; the maximum, the sum and the entry are functions of it. -/
theorem lsm_row_congr (X : (Cert.Spec.Mat 2000 40).Idx → EReal) (b' : (Cert.Spec.Mat 1 40).Idx → EReal)
    (A : (Cert.Spec.Mat 50000 40).Idx → EReal) (b : (Cert.Spec.Mat 1 40).Idx → EReal)
    (p : Fin 2000) (r : Fin 50000) (q : Fin 40)
    (h0 : ∀ k : Fin 40, X (ix2 p k) = A (ix2 r k))
    (h1 : ∀ k : Fin 40, b' (ix2 (0 : Fin 1) k) = b (ix2 (0 : Fin 1) k)) :
    Cert.Spec.lsm (M := 2000) (N := 40) X b' (ix2 p q) = Cert.Spec.lsm (M := 50000) (N := 40) A b (ix2 r q) := by
  have hrow : Cert.Spec.rowPlus (M := 2000) (N := 40) X b' p = Cert.Spec.rowPlus (M := 50000) (N := 40) A b r :=
    funext fun k => by unfold Cert.Spec.rowPlus; rw [h0 k, h1 k]
  show (Cert.Spec.rowPlus (M := 2000) (N := 40) X b' p q - Cert.Spec.rowMax (Cert.Spec.rowPlus (M := 2000) (N := 40) X b' p))
      - Ideal.log (∑ k : Fin 40, Ideal.exp (Cert.Spec.rowPlus (M := 2000) (N := 40) X b' p k
          - Cert.Spec.rowMax (Cert.Spec.rowPlus (M := 2000) (N := 40) X b' p)))
    = (Cert.Spec.rowPlus (M := 50000) (N := 40) A b r q - Cert.Spec.rowMax (Cert.Spec.rowPlus (M := 50000) (N := 40) A b r))
      - Ideal.log (∑ k : Fin 40, Ideal.exp (Cert.Spec.rowPlus (M := 50000) (N := 40) A b r k
          - Cert.Spec.rowMax (Cert.Spec.rowPlus (M := 50000) (N := 40) A b r)))
  rw [hrow]

-- the buffer contents the region is entered from: any
variable (V : (c : Dev nD) → (b : Ref sig .tc) → Buf (Elt Ideal) ((c : Thread nD τ).loc b))

/-- Entry (p, k) of the input's block at point t is entry (2000 t + p, k) of the input array. -/
theorem input_block_apply (c : Dev nD) (t : Fin cfg3.N) (p : Fin 2000) (k : Fin 40) (r : Fin 50000)
    (hr : r.val = t.val * 2000 + p.val) :
    (iblk3 V c 0 t : Vec Ideal S2000x40 .f32) (ix2 p k) = (V c main_v78 : S50000x40.Idx → EReal) (ix2 r k) := by
  obtain ⟨e0, e1, -⟩ := block_indices t
  unfold iblk3
  rw [View.read_apply]
  show V c main_v78 _ = V c main_v78 _
  congr 1
  funext a
  apply Fin.ext
  match a with
  | ⟨0, _⟩ => show win3_0.index t (0 : Fin 2) * 2000 + 1 * p.val = r.val; omega
  | ⟨1, _⟩ => show win3_0.index t (1 : Fin 2) * 40 + 1 * k.val = k.val; omega

/-- The bias row's block at every point is the whole one-row array. -/
theorem bias_block_apply (c : Dev nD) (t : Fin cfg3.N) (k : Fin 40) :
    (iblk3 V c 1 t : Vec Ideal S1x40 .f32) (ix2 (0 : Fin 1) k) = (V c main_v79 : S1x40.Idx → EReal) (ix2 (0 : Fin 1) k) := by
  obtain ⟨-, -, e2, e3, -⟩ := block_indices t
  unfold iblk3
  rw [View.read_apply]
  show V c main_v79 _ = V c main_v79 _
  congr 1
  funext a
  apply Fin.ext
  match a with
  | ⟨0, _⟩ => show win3_1.index t (0 : Fin 2) * 1 + 1 * 0 = 0; omega
  | ⟨1, _⟩ => show win3_1.index t (1 : Fin 2) * 40 + 1 * k.val = k.val; omega

/-- Entry (p, q) of the output's block at point t sits at row 2000 t + p, column q of the output array. -/
theorem output_block_row (t : Fin cfg3.N) (p : Fin 2000) (q : Fin 40) :
    ((((cfg3.win 2).blk t).view.emb (ix2 p q) : S50000x40.Idx) 0).val = t.val * 2000 + p.val
    ∧ ((((cfg3.win 2).blk t).view.emb (ix2 p q) : S50000x40.Idx) 1).val = q.val := by
  obtain ⟨-, -, -, -, e4, e5⟩ := block_indices t
  constructor
  · show win3_2.index t (0 : Fin 2) * 2000 + 1 * p.val = _; omega
  · show win3_2.index t (1 : Fin 2) * 40 + 1 * q.val = _; omega

/-- What point t writes back is block t of the row-wise log-softmax of the input array plus the bias row. -/
theorem flushed_eq (c : Dev nD) (t : Fin cfg3.N) :
    (dat3 V c).flushed 2 t = ((cfg3.win 2).blk t).view.read (Elt Ideal)
      (Cert.Spec.lsm (M := 50000) (N := 40) (V c main_v78) (V c main_v79)) := by
  show (cfg3.win 2).cut (grid3.coords t) ((dat3 V c).after 2 t) = _
  rw [after3_2]
  unfold out3_2
  rw [View.canon_unit_zero zero_offsets]
  simp only [View.ld_unit_zero (S := S2000x40) zero_offsets, View.ld_unit_zero (S := S1x40) zero_offsets]
  funext j
  show k3_pay1 (iblk3 V c 0 t) (iblk3 V c 1 t) j
    = Cert.Spec.lsm (M := 50000) (N := 40) (V c main_v78) (V c main_v79) (((cfg3.win 2).blk t).view.emb j)
  obtain ⟨p, q, rfl⟩ : ∃ (p : Fin 2000) (q : Fin 40), j = ix2 p q := ⟨j 0, j 1, eq_ix2 j⟩
  obtain ⟨hrow, hcol⟩ := output_block_row t p q
  have hlt : t.val * 2000 + p.val < 50000 := by
    have := (((cfg3.win 2).blk t).view.emb (ix2 p q) 0).isLt
    rw [hrow] at this
    exact this
  have hemb : ((cfg3.win 2).blk t).view.emb (ix2 p q) = ix2 (⟨t.val * 2000 + p.val, hlt⟩ : Fin 50000) q := by
    funext a; apply Fin.ext
    match a with
    | ⟨0, _⟩ => exact hrow
    | ⟨1, _⟩ => exact hcol
  refine (congrFun (Cert.KernelIdeal.Reg3Pay.pay_eq (iblk3 V c 0 t) (iblk3 V c 1 t)) (ix2 p q)).trans ?_
  refine (lsm_row_congr (iblk3 V c 0 t) (iblk3 V c 1 t) (V c main_v78) (V c main_v79) p ⟨t.val * 2000 + p.val, hlt⟩ q
    (fun k => input_block_apply V c t p k _ rfl) (fun k => bias_block_apply V c t k)).trans ?_
  exact congrArg (Cert.Spec.lsm (M := 50000) (N := 40) (V c main_v78) (V c main_v79)) hemb.symm

/-- An index of the output array lies in point t's block iff on each axis its coordinate lies in the block's range. -/
theorem mem_block (t : Fin cfg3.N) (i : S50000x40.Idx) :
    i ∈ ((cfg3.win 2).blk t).view.set ↔ ∀ a : Fin 2, win3_2.index t a * S2000x40.size a ≤ (i a).val
      ∧ (i a).val < win3_2.index t a * S2000x40.size a + S2000x40.size a := by
  show i ∈ ((View.whole main_v80).slice (win3_2.rect t)).set ↔ _
  rw [View.set_slice_whole, Rect.mem_set_unit]
  exact Iff.rfl

/-- Every index of the output array is written back: row r lies in the block of point r / 2000, and each of the
    twenty-five points writes its block back. -/
theorem covered (i : S50000x40.Idx) :
    ∃ t : Fin cfg3.N, (cfg3.win 2).flush t = true ∧ i ∈ ((cfg3.win 2).blk t).view.set := by
  have hi0 : (i 0).val < 50000 := (i 0).isLt
  have hi1 : (i 1).val < 40 := (i 1).isLt
  have hN : cfg3.N = 25 := N_3
  obtain ⟨t, ht⟩ : ∃ t : Fin cfg3.N, t.val = (i 0).val / 2000 :=
    ⟨⟨(i 0).val / 2000, lt_of_lt_of_eq (by omega) hN.symm⟩, rfl⟩
  obtain ⟨-, -, -, -, e4, e5⟩ := block_indices t
  refine ⟨t, flush3_2 t, ?_⟩
  rw [mem_block]
  intro a
  match a with
  | ⟨0, _⟩ =>
    show win3_2.index t (0 : Fin 2) * 2000 ≤ (i 0).val ∧ (i 0).val < win3_2.index t (0 : Fin 2) * 2000 + 2000
    omega
  | ⟨1, _⟩ =>
    show win3_2.index t (1 : Fin 2) * 40 ≤ (i 1).val ∧ (i 1).val < win3_2.index t (1 : Fin 2) * 40 + 40
    omega

/-- After the region the output array is the row-wise log-softmax of the aggregate plus the bias row. -/
theorem final3 (c : Dev nD) :
    (dat3 V c).arrAt 2 cfg3.N = Cert.Spec.lsm (M := 50000) (N := 40) (V c main_v78) (V c main_v79) :=
  (dat3 V c).arrAt_eq_of_cover 2 _ (fun t _ => flushed_eq V c t) covered

end Cert.KernelIdeal.Reg3

end
-- ==== Proof.KAgg.lean ====
/-
  The graph aggregation both programs share, as functions of whole arrays.

  From the edge list (two rows of node numbers) the program forms the source list `rowT` and the target list `colT`
  (each edge list followed by every node once: the self loops), the degree of every node (a scatter-add of ones by
  target), its inverse square root where the degree is positive and zero elsewhere, and the edge weight `nrmT`: the product
  of that quantity at the edge's source and at its target. One aggregation `aggOf…` gathers the rows of a node array at
  the (wrapped) sources, scales each gathered row by its edge weight and scatter-adds the rows by target into zeros.
  Nothing here is opened by the proof: both programs apply these very operations, so they are carried as they are.
-/
import proofs.«120531_j6004364280508_1_alg».proof.KernelIdeal

noncomputable section

namespace Cert.KAgg

open Cert.KernelIdeal Idealize.ShloMosaic

variable {F : FTy → Type} [FloatOps F] [Cert.KernelIdeal.Facts₀]

open Cert.KernelIdeal.Facts₀

/-- A negative node number wrapped by the number of nodes, as an index column. -/
def wrapIdx (v : (⟨S1650000, .i32⟩ : BufTy).Contents (Elt F)) : (⟨S1650000x1, .i32⟩ : BufTy).Contents (Elt F) :=
  broadcastInDim S1650000x1 ![0] bcast_S1650000_S1650000x1_0
    (select (cmpi .slt v (broadcastInDim S1650000 ![] bcast_S_S1650000 (constantI S_ 32 0#32)))
      (addi v (broadcastInDim S1650000 ![] bcast_S_S1650000 (constantI S_ 32 50000#32))) v)

/-- The sources: the first row of the edge list, then every node. -/
def rowT (x1 : (⟨S2x1600000, .i32⟩ : BufTy).Contents (Elt F)) : (⟨S1650000, .i32⟩ : BufTy).Contents (Elt F) :=
  concatenate S1650000 0 [⟨S1600000, shapeCast _ (extractStridedSlice S1x1600000 ![0, 0] x1 slices_S2x1600000_S1x1600000_0_0) shapeCasts_S1x1600000_S1600000⟩, ⟨S50000, iotaInDim S50000 32 0⟩] concatenates_S1600000_S50000_S1650000_d0

/-- The targets: the second row of the edge list, then every node. -/
def colT (x1 : (⟨S2x1600000, .i32⟩ : BufTy).Contents (Elt F)) : (⟨S1650000, .i32⟩ : BufTy).Contents (Elt F) :=
  concatenate S1650000 0 [⟨S1600000, shapeCast _ (extractStridedSlice S1x1600000 ![1, 0] x1 slices_S2x1600000_S1x1600000_1_0) shapeCasts_S1x1600000_S1600000⟩, ⟨S50000, iotaInDim S50000 32 0⟩] concatenates_S1600000_S50000_S1650000_d0

/-- The degree of every node: ones scatter-added by target. -/
def degT (x1 : (⟨S2x1600000, .i32⟩ : BufTy).Contents (Elt F)) : (⟨S50000, .f32⟩ : BufTy).Contents (Elt F) :=
  Host.scatterAdd scatter_S50000_S1650000x1_S1650000_n_0_0_1
    (broadcastInDim S50000 ![] bcast_S_S50000 (constant S_ .f32 0x00000000#32))
    (broadcastInDim S1650000x1 ![0] bcast_S1650000_S1650000x1_0 (colT x1))
    (broadcastInDim S1650000 ![] bcast_S_S1650000 (constant S_ .f32 0x3F800000#32))

/-- One over the square root of the degree where the degree is positive, zero elsewhere. -/
def disT (x1 : (⟨S2x1600000, .i32⟩ : BufTy).Contents (Elt F)) : (⟨S50000, .f32⟩ : BufTy).Contents (Elt F) :=
  select (cmpf (F := F) .ogt (degT x1) (broadcastInDim S50000 ![] bcast_S_S50000 (constant S_ .f32 0x00000000#32)))
    (Host.divf (broadcastInDim S50000 ![] bcast_S_S50000 (constant S_ .f32 0x3F800000#32)) (Host.sqrt (degT x1)))
    (broadcastInDim S50000 ![] bcast_S_S50000 (id (constant S_ .f32 0x00000000#32)))

/-- The edge weights. -/
def nrmT (x1 : (⟨S2x1600000, .i32⟩ : BufTy).Contents (Elt F)) : (⟨S1650000, .f32⟩ : BufTy).Contents (Elt F) :=
  mulf (Host.gather gather_S50000_S1650000x1_S1650000_n_0_n_n_0_1_1 (disT x1) (wrapIdx (rowT x1)))
    (Host.gather gather_S50000_S1650000x1_S1650000_n_0_n_n_0_1_1 (disT x1) (wrapIdx (colT x1)))

/-- One aggregation of a node array of 128 columns. -/
def aggOf128 (rowv colv : (⟨S1650000, .i32⟩ : BufTy).Contents (Elt F)) (nrmv : (⟨S1650000, .f32⟩ : BufTy).Contents (Elt F))
    (p : (⟨S50000x128, .f32⟩ : BufTy).Contents (Elt F)) : (⟨S50000x128, .f32⟩ : BufTy).Contents (Elt F) :=
  Host.scatterAdd scatter_S50000x128_S1650000x1_S1650000x128_1_0_0_1
    (broadcastInDim S50000x128 ![] bcast_S_S50000x128 (constant S_ .f32 0x00000000#32))
    (broadcastInDim S1650000x1 ![0] bcast_S1650000_S1650000x1_0 colv)
    (mulf (Host.gather gather_S50000x128_S1650000x1_S1650000x128_1_0_n_n_0_1_1128 p (wrapIdx rowv))
      (broadcastInDim S1650000x128 ![0, 1] bcast_S1650000x1_S1650000x128_0_1 (broadcastInDim S1650000x1 ![0] bcast_S1650000_S1650000x1_0 nrmv)))

/-- One aggregation of a node array of 64 columns. -/
def aggOf64 (rowv colv : (⟨S1650000, .i32⟩ : BufTy).Contents (Elt F)) (nrmv : (⟨S1650000, .f32⟩ : BufTy).Contents (Elt F))
    (p : (⟨S50000x64, .f32⟩ : BufTy).Contents (Elt F)) : (⟨S50000x64, .f32⟩ : BufTy).Contents (Elt F) :=
  Host.scatterAdd scatter_S50000x64_S1650000x1_S1650000x64_1_0_0_1
    (broadcastInDim S50000x64 ![] bcast_S_S50000x64 (constant S_ .f32 0x00000000#32))
    (broadcastInDim S1650000x1 ![0] bcast_S1650000_S1650000x1_0 colv)
    (mulf (Host.gather gather_S50000x64_S1650000x1_S1650000x64_1_0_n_n_0_1_164 p (wrapIdx rowv))
      (broadcastInDim S1650000x64 ![0, 1] bcast_S1650000x1_S1650000x64_0_1 (broadcastInDim S1650000x1 ![0] bcast_S1650000_S1650000x1_0 nrmv)))

/-- One aggregation of a node array of 40 columns. -/
def aggOf40 (rowv colv : (⟨S1650000, .i32⟩ : BufTy).Contents (Elt F)) (nrmv : (⟨S1650000, .f32⟩ : BufTy).Contents (Elt F))
    (p : (⟨S50000x40, .f32⟩ : BufTy).Contents (Elt F)) : (⟨S50000x40, .f32⟩ : BufTy).Contents (Elt F) :=
  Host.scatterAdd scatter_S50000x40_S1650000x1_S1650000x40_1_0_0_1
    (broadcastInDim S50000x40 ![] bcast_S_S50000x40 (constant S_ .f32 0x00000000#32))
    (broadcastInDim S1650000x1 ![0] bcast_S1650000_S1650000x1_0 colv)
    (mulf (Host.gather gather_S50000x40_S1650000x1_S1650000x40_1_0_n_n_0_1_140 p (wrapIdx rowv))
      (broadcastInDim S1650000x40 ![0, 1] bcast_S1650000x1_S1650000x40_0_1 (broadcastInDim S1650000x1 ![0] bcast_S1650000_S1650000x1_0 nrmv)))

end Cert.KAgg

end
-- ==== Proof.KHostBase.lean ====
/-
  What the host operations before the first kernel region leave in the buffers: the source list, the target list and the
  edge weights as functions of the edge-list argument, and every argument array as launched (no operation writes one).
-/
import proofs.«120531_j6004364280508_1_alg».proof.Proof.Gen.KernelIdeal.Frame
import proofs.«120531_j6004364280508_1_alg».proof.Proof.KAgg

set_option maxRecDepth 16384

noncomputable section

namespace Cert.KernelIdeal.FoldBase

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-! ## What each stretch of host operations writes

The host operations before the first region come in three stretches. Each operation writes its one result buffer; the
lists below name every buffer a stretch writes, so a buffer outside a list keeps its contents across that stretch. -/

/-- A result buffer named in a list lies in the list's set of device buffers. -/
theorem single_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The buffers the first stretch writes. -/
def wrA : List (Ref sig .tc) :=
  [main_v0, main_v1, main_v2, main_v3, main_v4, main_v5, main_v6, main_cst, main_v7, main_cst_0, main_v8, main_v9, main_v10,
   main_cst_1, main_v11, main_v12, main_v13, main_cst_2, main_v14, main_v15, main_cst_3]
/-- The buffers the second stretch writes. -/
def wrB : List (Ref sig .tc) := [main_call0_v0, main_call0_v1, main_v16]
/-- The buffers the third stretch writes. -/
def wrC : List (Ref sig .tc) :=
  [main_c, main_v17, main_v18, main_c_4, main_v19, main_v20, main_v21, main_v22, main_v23, main_c_5, main_v24, main_v25,
   main_c_6, main_v26, main_v27, main_v28, main_v29, main_v30, main_v31]

theorem hostOps0_wr : (hostOps0 : List (HloOp τ sig (Elt F))).Forall fun op => op.writes ⊆ (wrA.map (Proc.devRef (τ := τ) .tc)).toFinset := by
  simp only [hostOps0, List.Forall, StableHlo.nullary_writes, StableHlo.unary_writes, StableHlo.binary_writes, StableHlo.ternary_writes, StableHlo.reshape_writes]
  repeat' apply And.intro
  all_goals exact single_sub_of_mem (by decide)

theorem hostOps0_1_wr : (hostOps0_1 : List (HloOp τ sig (Elt F))).Forall fun op => op.writes ⊆ (wrB.map (Proc.devRef (τ := τ) .tc)).toFinset := by
  simp only [hostOps0_1, List.Forall, StableHlo.nullary_writes, StableHlo.unary_writes, StableHlo.binary_writes, StableHlo.ternary_writes, StableHlo.reshape_writes]
  repeat' apply And.intro
  all_goals exact single_sub_of_mem (by decide)

theorem hostOps0_2_wr : (hostOps0_2 : List (HloOp τ sig (Elt F))).Forall fun op => op.writes ⊆ (wrC.map (Proc.devRef (τ := τ) .tc)).toFinset := by
  simp only [hostOps0_2, List.Forall, StableHlo.nullary_writes, StableHlo.unary_writes, StableHlo.binary_writes, StableHlo.ternary_writes, StableHlo.reshape_writes]
  repeat' apply And.intro
  all_goals exact single_sub_of_mem (by decide)

/-- A buffer the first stretch does not write holds what it held at the launch. -/
theorem W1_carry (c : Dev nD) (r : Ref sig .tc) (hr : r ∉ wrA) : W1 m ρ c (Proc.devRef .tc r) = W0 m ρ c (Proc.devRef .tc r) :=
  StableHlo.after_of_writes_sub _ _ hostOps0_wr hr
/-- A buffer the second stretch does not write holds what the first left. -/
theorem W2_carry (c : Dev nD) (r : Ref sig .tc) (hr : r ∉ wrB) : W2 m ρ c (Proc.devRef .tc r) = W1 m ρ c (Proc.devRef .tc r) :=
  StableHlo.after_of_writes_sub _ _ hostOps0_1_wr hr
/-- A buffer the third stretch does not write holds what the second left. -/
theorem W3_carry (c : Dev nD) (r : Ref sig .tc) (hr : r ∉ wrC) : W3 m ρ c (Proc.devRef .tc r) = W2 m ρ c (Proc.devRef .tc r) :=
  StableHlo.after_of_writes_sub _ _ hostOps0_2_wr hr

/-- A buffer no stretch writes holds at the first region's entry what it held at the launch. -/
theorem W3_launch (c : Dev nD) (r : Ref sig .tc) (h0 : r ∉ wrA) (h1 : r ∉ wrB) (h2 : r ∉ wrC) :
    W3 m ρ c (Proc.devRef .tc r) = W0 m ρ c (Proc.devRef .tc r) :=
  (W3_carry m ρ c r h2).trans ((W2_carry m ρ c r h1).trans (W1_carry m ρ c r h0))

/-! ## The first stretch: the two lists, the degree and the two branches of its inverse square root

Each buffer's contents after the stretch is the composition of the operations that lead to it, read off the stretch
operation by operation; the compositions are the shared definitions by unfolding. -/

theorem W1_v3 (c : Dev nD) : W1 m ρ c (Proc.devRef .tc main_v3) = Cert.KAgg.rowT (m ((c : Thread nD τ).loc main_arg1)) := by
  show StableHlo.after hostOps0 _ (Proc.devRef .tc main_v3) = _
  after_results
  rfl

theorem W1_v6 (c : Dev nD) : W1 m ρ c (Proc.devRef .tc main_v6) = Cert.KAgg.colT (m ((c : Thread nD τ).loc main_arg1)) := by
  show StableHlo.after hostOps0 _ (Proc.devRef .tc main_v6) = _
  after_results
  rfl

/-- The degree: ones scatter-added by target into zeros. -/
theorem W1_v10 (c : Dev nD) : W1 m ρ c (Proc.devRef .tc main_v10) = Cert.KAgg.degT (m ((c : Thread nD τ).loc main_arg1)) := by
  show StableHlo.after hostOps0 _ (Proc.devRef .tc main_v10) = _
  after_results
  rfl

/-- Where the degree is positive. -/
theorem W1_v12 (c : Dev nD) : W1 m ρ c (Proc.devRef .tc main_v12)
    = cmpf (F := F) .ogt (Cert.KAgg.degT (m ((c : Thread nD τ).loc main_arg1))) (broadcastInDim S50000 ![] bcast_S_S50000 (constant S_ .f32 0x00000000#32)) := by
  show StableHlo.after hostOps0 _ (Proc.devRef .tc main_v12) = _
  after_results
  rfl

/-- One over the square root of the degree. -/
theorem W1_v15 (c : Dev nD) : W1 m ρ c (Proc.devRef .tc main_v15)
    = Host.divf (broadcastInDim S50000 ![] bcast_S_S50000 (constant S_ .f32 0x3F800000#32)) (Host.sqrt (Cert.KAgg.degT (m ((c : Thread nD τ).loc main_arg1)))) := by
  show StableHlo.after hostOps0 _ (Proc.devRef .tc main_v15) = _
  after_results
  rfl

/-- The zero the select falls back to. -/
theorem W1_cst_3 (c : Dev nD) : W1 m ρ c (Proc.devRef .tc main_cst_3) = constant S_ .f32 0x00000000#32 := by
  show StableHlo.after hostOps0 _ (Proc.devRef .tc main_cst_3) = _
  after_results

/-! ## The second stretch: the select between the two branches -/

/-- The second stretch from any entry contents: the select of its three operands. -/
theorem after1_v16 (V : Valuation τ sig (Elt F)) :
    StableHlo.after hostOps0_1 V (Proc.devRef .tc main_v16)
      = select (V (Proc.devRef .tc main_v12)) (V (Proc.devRef .tc main_v15))
          (broadcastInDim S50000 ![] bcast_S_S50000 (id (V (Proc.devRef .tc main_cst_3)))) := by
  after_results
  simp only [StableHlo.TRef.ofBuf, StableHlo.TRef.toBuf, cast_eq]

/-- One over the square root of the degree where the degree is positive, zero elsewhere. -/
theorem W2_v16 (c : Dev nD) : W2 m ρ c (Proc.devRef .tc main_v16) = Cert.KAgg.disT (m ((c : Thread nD τ).loc main_arg1)) :=
  (after1_v16 (W1 m ρ c)).trans (by rw [W1_v12, W1_v15, W1_cst_3]; rfl)

/-- The sources, carried across the second stretch. -/
theorem W2_v3 (c : Dev nD) : W2 m ρ c (Proc.devRef .tc main_v3) = Cert.KAgg.rowT (m ((c : Thread nD τ).loc main_arg1)) :=
  (W2_carry m ρ c main_v3 (by decide)).trans (W1_v3 m ρ c)
/-- The targets, carried across the second stretch. -/
theorem W2_v6 (c : Dev nD) : W2 m ρ c (Proc.devRef .tc main_v6) = Cert.KAgg.colT (m ((c : Thread nD τ).loc main_arg1)) :=
  (W2_carry m ρ c main_v6 (by decide)).trans (W1_v6 m ρ c)

/-! ## The third stretch: the inverse square roots gathered at the wrapped lists and multiplied -/

/-- The third stretch from any entry contents: the product of the two gathers at the wrapped lists. -/
theorem after2_v31 (V : Valuation τ sig (Elt F)) :
    StableHlo.after hostOps0_2 V (Proc.devRef .tc main_v31)
      = mulf (Host.gather gather_S50000_S1650000x1_S1650000_n_0_n_n_0_1_1 (V (Proc.devRef .tc main_v16)) (Cert.KAgg.wrapIdx (V (Proc.devRef .tc main_v3))))
          (Host.gather gather_S50000_S1650000x1_S1650000_n_0_n_n_0_1_1 (V (Proc.devRef .tc main_v16)) (Cert.KAgg.wrapIdx (V (Proc.devRef .tc main_v6)))) := by
  after_results_simp
  rfl

/-! ## The graph's lists at the first region's entry -/

/-- The sources: the first row of the edge list, then every node. -/
theorem W3_v3 (c : Dev nD) : W3 m ρ c (Proc.devRef .tc main_v3) = Cert.KAgg.rowT (m ((c : Thread nD τ).loc main_arg1)) :=
  (W3_carry m ρ c main_v3 (by decide)).trans (W2_v3 m ρ c)
/-- The targets: the second row of the edge list, then every node. -/
theorem W3_v6 (c : Dev nD) : W3 m ρ c (Proc.devRef .tc main_v6) = Cert.KAgg.colT (m ((c : Thread nD τ).loc main_arg1)) :=
  (W3_carry m ρ c main_v6 (by decide)).trans (W2_v6 m ρ c)
/-- The edge weights. -/
theorem W3_v31 (c : Dev nD) : W3 m ρ c (Proc.devRef .tc main_v31) = Cert.KAgg.nrmT (m ((c : Thread nD τ).loc main_arg1)) :=
  (after2_v31 (W2 m ρ c)).trans (by rw [W2_v16, W2_v3, W2_v6]; rfl)

/-! ## The arguments at the first region's entry -/

theorem W3_arg0 (c : Dev nD) : W3 m ρ c (Proc.devRef .tc main_arg0) = m ((c : Thread nD τ).loc main_arg0) :=
  W3_launch m ρ c main_arg0 (by decide) (by decide) (by decide)
theorem W3_arg1 (c : Dev nD) : W3 m ρ c (Proc.devRef .tc main_arg1) = m ((c : Thread nD τ).loc main_arg1) :=
  W3_launch m ρ c main_arg1 (by decide) (by decide) (by decide)
theorem W3_arg2 (c : Dev nD) : W3 m ρ c (Proc.devRef .tc main_arg2) = m ((c : Thread nD τ).loc main_arg2) :=
  W3_launch m ρ c main_arg2 (by decide) (by decide) (by decide)
theorem W3_arg3 (c : Dev nD) : W3 m ρ c (Proc.devRef .tc main_arg3) = m ((c : Thread nD τ).loc main_arg3) :=
  W3_launch m ρ c main_arg3 (by decide) (by decide) (by decide)
theorem W3_arg4 (c : Dev nD) : W3 m ρ c (Proc.devRef .tc main_arg4) = m ((c : Thread nD τ).loc main_arg4) :=
  W3_launch m ρ c main_arg4 (by decide) (by decide) (by decide)
theorem W3_arg5 (c : Dev nD) : W3 m ρ c (Proc.devRef .tc main_arg5) = m ((c : Thread nD τ).loc main_arg5) :=
  W3_launch m ρ c main_arg5 (by decide) (by decide) (by decide)
theorem W3_arg6 (c : Dev nD) : W3 m ρ c (Proc.devRef .tc main_arg6) = m ((c : Thread nD τ).loc main_arg6) :=
  W3_launch m ρ c main_arg6 (by decide) (by decide) (by decide)
theorem W3_arg7 (c : Dev nD) : W3 m ρ c (Proc.devRef .tc main_arg7) = m ((c : Thread nD τ).loc main_arg7) :=
  W3_launch m ρ c main_arg7 (by decide) (by decide) (by decide)
theorem W3_arg8 (c : Dev nD) : W3 m ρ c (Proc.devRef .tc main_arg8) = m ((c : Thread nD τ).loc main_arg8) :=
  W3_launch m ρ c main_arg8 (by decide) (by decide) (by decide)
theorem W3_arg9 (c : Dev nD) : W3 m ρ c (Proc.devRef .tc main_arg9) = m ((c : Thread nD τ).loc main_arg9) :=
  W3_launch m ρ c main_arg9 (by decide) (by decide) (by decide)

end Cert.KernelIdeal.FoldBase

end
-- ==== Proof.KHost.lean ====
/-
  What the host operations between the kernel regions leave in the buffers the regions read, as functions of the arguments
  and of the previous region's output.

  The run's boundary contents are a fold: a stretch of host operations applied to the contents before it, a region
  replacing its arrays by what its write-backs leave. An argument array is written by nothing, so it is the launch
  memory at every boundary. The source list, the target list and the edge weights are computed before the first region
  and written by nothing afterwards. Each aggregation reads the previous region's output and those three.
-/
import proofs.«120531_j6004364280508_1_alg».proof.Proof.Gen.KernelIdeal.Frame
import proofs.«120531_j6004364280508_1_alg».proof.Proof.KAgg
import proofs.«120531_j6004364280508_1_alg».proof.Proof.KHostBase

set_option maxRecDepth 16384

noncomputable section

namespace Cert.KernelIdeal.Fold

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-! ## The buffers each stretch of host operations writes

A buffer outside the list keeps its contents across the stretch. -/

/-- The buffers the host operations before region 1 write. -/
def wr1 : List (Ref sig .tc) :=
  [main_c_7, main_v33, main_v34, main_c_8, main_v35, main_v36, main_v37, main_v38, main_v39, main_v40, main_v41, main_v42,
    main_cst_9, main_v43, main_v44, main_v45, main_v46]

/-- The buffers the host operations before region 2 write. -/
def wr2 : List (Ref sig .tc) :=
  [main_c_10, main_v48, main_v49, main_c_11, main_v50, main_v51, main_v52, main_v53, main_v54, main_v55, main_v56, main_v57,
    main_cst_12, main_v58, main_v59, main_v60, main_v61, main_v62, main_v63, main_v64]

theorem hostOps1_wr : (hostOps1 : List (HloOp τ sig (Elt F))).Forall fun op =>
    op.writes ⊆ (wr1.map (Proc.devRef (τ := τ) .tc)).toFinset := by
  simp only [hostOps1, List.Forall, StableHlo.nullary_writes, StableHlo.unary_writes, StableHlo.binary_writes,
    StableHlo.ternary_writes, StableHlo.quaternary_writes, StableHlo.reshape_writes, StableHlo.binaryIndexed_writes,
    Finset.singleton_subset_iff, List.mem_toFinset]
  repeat' apply And.intro
  all_goals exact List.mem_map_of_mem (by decide)

theorem hostOps2_wr : (hostOps2 : List (HloOp τ sig (Elt F))).Forall fun op =>
    op.writes ⊆ (wr2.map (Proc.devRef (τ := τ) .tc)).toFinset := by
  simp only [hostOps2, List.Forall, StableHlo.nullary_writes, StableHlo.unary_writes, StableHlo.binary_writes,
    StableHlo.ternary_writes, StableHlo.quaternary_writes, StableHlo.reshape_writes, StableHlo.binaryIndexed_writes,
    Finset.singleton_subset_iff, List.mem_toFinset]
  repeat' apply And.intro
  all_goals exact List.mem_map_of_mem (by decide)

/-- Across the host operations before region 1 a buffer they do not write keeps its contents. -/
theorem W5_keeps (c : Dev nD) (r : Ref sig .tc) (hr : r ∉ wr1) :
    W5 m ρ c (Proc.devRef .tc r) = W4 m ρ c (Proc.devRef .tc r) :=
  StableHlo.after_of_writes_sub _ _ hostOps1_wr hr

/-- Across the host operations before region 2 a buffer they do not write keeps its contents. -/
theorem W7_keeps (c : Dev nD) (r : Ref sig .tc) (hr : r ∉ wr2) :
    W7 m ρ c (Proc.devRef .tc r) = W6 m ρ c (Proc.devRef .tc r) :=
  StableHlo.after_of_writes_sub _ _ hostOps2_wr hr

/-! ## What each stretch computes, from any contents before it

Each result buffer read back operation by operation: the aggregation is the printed chain of the wrap of the sources, the
gather, the scaling by the broadcast edge weights and the scatter-add into zeros by target. -/

theorem hostOps1_v45 (V : Valuation τ sig (Elt F)) : StableHlo.after hostOps1 V (Proc.devRef .tc main_v45)
    = Cert.KAgg.aggOf128 (V (Proc.devRef .tc main_v3)) (V (Proc.devRef .tc main_v6)) (V (Proc.devRef .tc main_v31))
        (V (Proc.devRef .tc main_v32)) := by
  after_results_simp
  rfl
theorem hostOps1_v46 (V : Valuation τ sig (Elt F)) : StableHlo.after hostOps1 V (Proc.devRef .tc main_v46)
    = shapeCast S1x128 (V (Proc.devRef .tc main_arg4)) Facts₀.shapeCasts_S128_S1x128 := by
  after_results_simp
  rfl

theorem hostOps2_v60 (V : Valuation τ sig (Elt F)) : StableHlo.after hostOps2 V (Proc.devRef .tc main_v60)
    = Cert.KAgg.aggOf64 (V (Proc.devRef .tc main_v3)) (V (Proc.devRef .tc main_v6)) (V (Proc.devRef .tc main_v31))
        (V (Proc.devRef .tc main_v47)) := by
  after_results_simp
  rfl
theorem hostOps2_v61 (V : Valuation τ sig (Elt F)) : StableHlo.after hostOps2 V (Proc.devRef .tc main_v61)
    = extractStridedSlice S64x40 ![0, 0] (V (Proc.devRef .tc main_arg8)) Facts₀.slices_S128x40_S64x40_0_0 := by
  after_results_simp
theorem hostOps2_v63 (V : Valuation τ sig (Elt F)) : StableHlo.after hostOps2 V (Proc.devRef .tc main_v63)
    = Host.dotGeneral dot_S128x64_S64x40_S128x40_1_0_0_1_n_n none (V (Proc.devRef .tc main_arg7))
        (extractStridedSlice S64x40 ![64, 0] (V (Proc.devRef .tc main_arg8)) Facts₀.slices_S128x40_S64x40_64_0) := by
  after_results_simp
theorem hostOps2_v64 (V : Valuation τ sig (Elt F)) : StableHlo.after hostOps2 V (Proc.devRef .tc main_v64)
    = shapeCast S1x64 (V (Proc.devRef .tc main_arg6)) Facts₀.shapeCasts_S64_S1x64 := by
  after_results_simp
  rfl

theorem hostOps3_v78 (V : Valuation τ sig (Elt F)) : StableHlo.after hostOps3 V (Proc.devRef .tc main_v78)
    = Cert.KAgg.aggOf40 (V (Proc.devRef .tc main_v3)) (V (Proc.devRef .tc main_v6)) (V (Proc.devRef .tc main_v31))
        (V (Proc.devRef .tc main_v65)) := by
  after_results_simp
  rfl
theorem hostOps3_v79 (V : Valuation τ sig (Elt F)) : StableHlo.after hostOps3 V (Proc.devRef .tc main_v79)
    = shapeCast S1x40 (V (Proc.devRef .tc main_arg9)) Facts₀.shapeCasts_S40_S1x40 := by
  after_results_simp
  rfl

/-! ## The graph's lists and the arguments at each later boundary

Nothing after the first region's entry writes the source list, the target list, the edge weights or an argument: a
region passes over a buffer that is none of its arrays, a stretch over a buffer outside its list. -/

theorem W4_v3 (c : Dev nD) : W4 m ρ c (Proc.devRef .tc main_v3) = Cert.KAgg.rowT (m ((c : Thread nD τ).loc main_arg1)) :=
  (W4_of_ne m ρ c main_v3 (by decide)).trans (FoldBase.W3_v3 m ρ c)
theorem W4_v6 (c : Dev nD) : W4 m ρ c (Proc.devRef .tc main_v6) = Cert.KAgg.colT (m ((c : Thread nD τ).loc main_arg1)) :=
  (W4_of_ne m ρ c main_v6 (by decide)).trans (FoldBase.W3_v6 m ρ c)
theorem W4_v31 (c : Dev nD) : W4 m ρ c (Proc.devRef .tc main_v31) = Cert.KAgg.nrmT (m ((c : Thread nD τ).loc main_arg1)) :=
  (W4_of_ne m ρ c main_v31 (by decide)).trans (FoldBase.W3_v31 m ρ c)
theorem W4_arg2 (c : Dev nD) : W4 m ρ c (Proc.devRef .tc main_arg2) = m ((c : Thread nD τ).loc main_arg2) :=
  (W4_of_ne m ρ c main_arg2 (by decide)).trans (FoldBase.W3_arg2 m ρ c)
theorem W4_arg4 (c : Dev nD) : W4 m ρ c (Proc.devRef .tc main_arg4) = m ((c : Thread nD τ).loc main_arg4) :=
  (W4_of_ne m ρ c main_arg4 (by decide)).trans (FoldBase.W3_arg4 m ρ c)
theorem W4_arg5 (c : Dev nD) : W4 m ρ c (Proc.devRef .tc main_arg5) = m ((c : Thread nD τ).loc main_arg5) :=
  (W4_of_ne m ρ c main_arg5 (by decide)).trans (FoldBase.W3_arg5 m ρ c)
theorem W4_arg6 (c : Dev nD) : W4 m ρ c (Proc.devRef .tc main_arg6) = m ((c : Thread nD τ).loc main_arg6) :=
  (W4_of_ne m ρ c main_arg6 (by decide)).trans (FoldBase.W3_arg6 m ρ c)
theorem W4_arg7 (c : Dev nD) : W4 m ρ c (Proc.devRef .tc main_arg7) = m ((c : Thread nD τ).loc main_arg7) :=
  (W4_of_ne m ρ c main_arg7 (by decide)).trans (FoldBase.W3_arg7 m ρ c)
theorem W4_arg8 (c : Dev nD) : W4 m ρ c (Proc.devRef .tc main_arg8) = m ((c : Thread nD τ).loc main_arg8) :=
  (W4_of_ne m ρ c main_arg8 (by decide)).trans (FoldBase.W3_arg8 m ρ c)
theorem W4_arg9 (c : Dev nD) : W4 m ρ c (Proc.devRef .tc main_arg9) = m ((c : Thread nD τ).loc main_arg9) :=
  (W4_of_ne m ρ c main_arg9 (by decide)).trans (FoldBase.W3_arg9 m ρ c)
theorem W5_v3 (c : Dev nD) : W5 m ρ c (Proc.devRef .tc main_v3) = Cert.KAgg.rowT (m ((c : Thread nD τ).loc main_arg1)) :=
  (W5_keeps m ρ c main_v3 (by decide)).trans (W4_v3 m ρ c)
theorem W5_v6 (c : Dev nD) : W5 m ρ c (Proc.devRef .tc main_v6) = Cert.KAgg.colT (m ((c : Thread nD τ).loc main_arg1)) :=
  (W5_keeps m ρ c main_v6 (by decide)).trans (W4_v6 m ρ c)
theorem W5_v31 (c : Dev nD) : W5 m ρ c (Proc.devRef .tc main_v31) = Cert.KAgg.nrmT (m ((c : Thread nD τ).loc main_arg1)) :=
  (W5_keeps m ρ c main_v31 (by decide)).trans (W4_v31 m ρ c)
theorem W5_arg2 (c : Dev nD) : W5 m ρ c (Proc.devRef .tc main_arg2) = m ((c : Thread nD τ).loc main_arg2) :=
  (W5_keeps m ρ c main_arg2 (by decide)).trans (W4_arg2 m ρ c)
theorem W5_arg6 (c : Dev nD) : W5 m ρ c (Proc.devRef .tc main_arg6) = m ((c : Thread nD τ).loc main_arg6) :=
  (W5_keeps m ρ c main_arg6 (by decide)).trans (W4_arg6 m ρ c)
theorem W5_arg7 (c : Dev nD) : W5 m ρ c (Proc.devRef .tc main_arg7) = m ((c : Thread nD τ).loc main_arg7) :=
  (W5_keeps m ρ c main_arg7 (by decide)).trans (W4_arg7 m ρ c)
theorem W5_arg8 (c : Dev nD) : W5 m ρ c (Proc.devRef .tc main_arg8) = m ((c : Thread nD τ).loc main_arg8) :=
  (W5_keeps m ρ c main_arg8 (by decide)).trans (W4_arg8 m ρ c)
theorem W5_arg9 (c : Dev nD) : W5 m ρ c (Proc.devRef .tc main_arg9) = m ((c : Thread nD τ).loc main_arg9) :=
  (W5_keeps m ρ c main_arg9 (by decide)).trans (W4_arg9 m ρ c)
theorem W6_v3 (c : Dev nD) : W6 m ρ c (Proc.devRef .tc main_v3) = Cert.KAgg.rowT (m ((c : Thread nD τ).loc main_arg1)) :=
  (W6_of_ne m ρ c main_v3 (by decide)).trans (W5_v3 m ρ c)
theorem W6_v6 (c : Dev nD) : W6 m ρ c (Proc.devRef .tc main_v6) = Cert.KAgg.colT (m ((c : Thread nD τ).loc main_arg1)) :=
  (W6_of_ne m ρ c main_v6 (by decide)).trans (W5_v6 m ρ c)
theorem W6_v31 (c : Dev nD) : W6 m ρ c (Proc.devRef .tc main_v31) = Cert.KAgg.nrmT (m ((c : Thread nD τ).loc main_arg1)) :=
  (W6_of_ne m ρ c main_v31 (by decide)).trans (W5_v31 m ρ c)
theorem W6_arg2 (c : Dev nD) : W6 m ρ c (Proc.devRef .tc main_arg2) = m ((c : Thread nD τ).loc main_arg2) :=
  (W6_of_ne m ρ c main_arg2 (by decide)).trans (W5_arg2 m ρ c)
theorem W6_arg6 (c : Dev nD) : W6 m ρ c (Proc.devRef .tc main_arg6) = m ((c : Thread nD τ).loc main_arg6) :=
  (W6_of_ne m ρ c main_arg6 (by decide)).trans (W5_arg6 m ρ c)
theorem W6_arg7 (c : Dev nD) : W6 m ρ c (Proc.devRef .tc main_arg7) = m ((c : Thread nD τ).loc main_arg7) :=
  (W6_of_ne m ρ c main_arg7 (by decide)).trans (W5_arg7 m ρ c)
theorem W6_arg8 (c : Dev nD) : W6 m ρ c (Proc.devRef .tc main_arg8) = m ((c : Thread nD τ).loc main_arg8) :=
  (W6_of_ne m ρ c main_arg8 (by decide)).trans (W5_arg8 m ρ c)
theorem W6_arg9 (c : Dev nD) : W6 m ρ c (Proc.devRef .tc main_arg9) = m ((c : Thread nD τ).loc main_arg9) :=
  (W6_of_ne m ρ c main_arg9 (by decide)).trans (W5_arg9 m ρ c)
theorem W7_v3 (c : Dev nD) : W7 m ρ c (Proc.devRef .tc main_v3) = Cert.KAgg.rowT (m ((c : Thread nD τ).loc main_arg1)) :=
  (W7_keeps m ρ c main_v3 (by decide)).trans (W6_v3 m ρ c)
theorem W7_v6 (c : Dev nD) : W7 m ρ c (Proc.devRef .tc main_v6) = Cert.KAgg.colT (m ((c : Thread nD τ).loc main_arg1)) :=
  (W7_keeps m ρ c main_v6 (by decide)).trans (W6_v6 m ρ c)
theorem W7_v31 (c : Dev nD) : W7 m ρ c (Proc.devRef .tc main_v31) = Cert.KAgg.nrmT (m ((c : Thread nD τ).loc main_arg1)) :=
  (W7_keeps m ρ c main_v31 (by decide)).trans (W6_v31 m ρ c)
theorem W7_arg9 (c : Dev nD) : W7 m ρ c (Proc.devRef .tc main_arg9) = m ((c : Thread nD τ).loc main_arg9) :=
  (W7_keeps m ρ c main_arg9 (by decide)).trans (W6_arg9 m ρ c)
theorem W8_v3 (c : Dev nD) : W8 m ρ c (Proc.devRef .tc main_v3) = Cert.KAgg.rowT (m ((c : Thread nD τ).loc main_arg1)) :=
  (W8_of_ne m ρ c main_v3 (by decide)).trans (W7_v3 m ρ c)
theorem W8_v6 (c : Dev nD) : W8 m ρ c (Proc.devRef .tc main_v6) = Cert.KAgg.colT (m ((c : Thread nD τ).loc main_arg1)) :=
  (W8_of_ne m ρ c main_v6 (by decide)).trans (W7_v6 m ρ c)
theorem W8_v31 (c : Dev nD) : W8 m ρ c (Proc.devRef .tc main_v31) = Cert.KAgg.nrmT (m ((c : Thread nD τ).loc main_arg1)) :=
  (W8_of_ne m ρ c main_v31 (by decide)).trans (W7_v31 m ρ c)
theorem W8_arg9 (c : Dev nD) : W8 m ρ c (Proc.devRef .tc main_arg9) = m ((c : Thread nD τ).loc main_arg9) :=
  (W8_of_ne m ρ c main_arg9 (by decide)).trans (W7_arg9 m ρ c)

/-! ## Entry of region 0 -/

theorem W3_arg0 (c : Dev nD) : W3 m ρ c (Proc.devRef .tc main_arg0) = m ((c : Thread nD τ).loc main_arg0) :=
  FoldBase.W3_arg0 m ρ c
theorem W3_arg3 (c : Dev nD) : W3 m ρ c (Proc.devRef .tc main_arg3) = m ((c : Thread nD τ).loc main_arg3) :=
  FoldBase.W3_arg3 m ρ c

/-! ## Entry of region 1 -/

theorem W5_v45 (c : Dev nD) : W5 m ρ c (Proc.devRef .tc main_v45)
    = Cert.KAgg.aggOf128 (Cert.KAgg.rowT (m ((c : Thread nD τ).loc main_arg1))) (Cert.KAgg.colT (m ((c : Thread nD τ).loc main_arg1)))
        (Cert.KAgg.nrmT (m ((c : Thread nD τ).loc main_arg1))) (W4 m ρ c (Proc.devRef .tc main_v32)) :=
  (hostOps1_v45 (W4 m ρ c)).trans (by rw [W4_v3, W4_v6, W4_v31])
theorem W5_v46 (c : Dev nD) : W5 m ρ c (Proc.devRef .tc main_v46)
    = shapeCast S1x128 (m ((c : Thread nD τ).loc main_arg4)) Facts₀.shapeCasts_S128_S1x128 :=
  (hostOps1_v46 (W4 m ρ c)).trans (by rw [W4_arg4])
theorem W5_arg5 (c : Dev nD) : W5 m ρ c (Proc.devRef .tc main_arg5) = m ((c : Thread nD τ).loc main_arg5) :=
  (W5_keeps m ρ c main_arg5 (by decide)).trans (W4_arg5 m ρ c)

/-! ## Entry of region 2 -/

theorem W7_v60 (c : Dev nD) : W7 m ρ c (Proc.devRef .tc main_v60)
    = Cert.KAgg.aggOf64 (Cert.KAgg.rowT (m ((c : Thread nD τ).loc main_arg1))) (Cert.KAgg.colT (m ((c : Thread nD τ).loc main_arg1)))
        (Cert.KAgg.nrmT (m ((c : Thread nD τ).loc main_arg1))) (W6 m ρ c (Proc.devRef .tc main_v47)) :=
  (hostOps2_v60 (W6 m ρ c)).trans (by rw [W6_v3, W6_v6, W6_v31])
theorem W7_v64 (c : Dev nD) : W7 m ρ c (Proc.devRef .tc main_v64)
    = shapeCast S1x64 (m ((c : Thread nD τ).loc main_arg6)) Facts₀.shapeCasts_S64_S1x64 :=
  (hostOps2_v64 (W6 m ρ c)).trans (by rw [W6_arg6])
theorem W7_v61 (c : Dev nD) : W7 m ρ c (Proc.devRef .tc main_v61)
    = extractStridedSlice S64x40 ![0, 0] (m ((c : Thread nD τ).loc main_arg8)) Facts₀.slices_S128x40_S64x40_0_0 :=
  (hostOps2_v61 (W6 m ρ c)).trans (by rw [W6_arg8])
theorem W7_arg2 (c : Dev nD) : W7 m ρ c (Proc.devRef .tc main_arg2) = m ((c : Thread nD τ).loc main_arg2) :=
  (W7_keeps m ρ c main_arg2 (by decide)).trans (W6_arg2 m ρ c)
theorem W7_v63 (c : Dev nD) : W7 m ρ c (Proc.devRef .tc main_v63)
    = Host.dotGeneral dot_S128x64_S64x40_S128x40_1_0_0_1_n_n none (m ((c : Thread nD τ).loc main_arg7))
        (extractStridedSlice S64x40 ![64, 0] (m ((c : Thread nD τ).loc main_arg8)) Facts₀.slices_S128x40_S64x40_64_0) :=
  (hostOps2_v63 (W6 m ρ c)).trans (by rw [W6_arg7, W6_arg8])

/-! ## Entry of region 3 -/

theorem W9_v78 (c : Dev nD) : W9 m ρ c (Proc.devRef .tc main_v78)
    = Cert.KAgg.aggOf40 (Cert.KAgg.rowT (m ((c : Thread nD τ).loc main_arg1))) (Cert.KAgg.colT (m ((c : Thread nD τ).loc main_arg1)))
        (Cert.KAgg.nrmT (m ((c : Thread nD τ).loc main_arg1))) (W8 m ρ c (Proc.devRef .tc main_v65)) :=
  (hostOps3_v78 (W8 m ρ c)).trans (by rw [W8_v3, W8_v6, W8_v31])
theorem W9_v79 (c : Dev nD) : W9 m ρ c (Proc.devRef .tc main_v79)
    = shapeCast S1x40 (m ((c : Thread nD τ).loc main_arg9)) Facts₀.shapeCasts_S40_S1x40 :=
  (hostOps3_v79 (W8 m ρ c)).trans (by rw [W8_arg9])

end Cert.KernelIdeal.Fold

end
-- ==== Proof.Outs.lean ====
/-
  The two programs' results as compositions of the layers (Spec) over the shared aggregation (KAgg), as functions of the
  ten argument arrays.

  `kOut` is the kernel's arrangement: the third layer's projection is the rectified second aggregate times the top 64
  rows of the last weight plus the spectral input times (spectral weight times the bottom 64 rows).
  `rOut` is the reference's: the rectified second aggregate and (spectral input times spectral weight) side by side,
  times the whole last weight. Everything else is the same term in both.
-/
import proofs.«120531_j6004364280508_1_alg».proof.Proof.Spec
import proofs.«120531_j6004364280508_1_alg».proof.Proof.KAgg

noncomputable section

namespace Cert.Outs

open Cert.KernelIdeal Idealize.ShloMosaic Cert.Spec

variable [Cert.KernelIdeal.Facts₀]

variable (x0 : S50000x512.Idx → EReal) (x1 : (⟨S2x1600000, .i32⟩ : BufTy).Contents (Elt Ideal)) (x2 : S50000x128.Idx → EReal)
  (x3 : S512x128.Idx → EReal) (x4 : S128.Idx → EReal) (x5 : S128x64.Idx → EReal) (x6 : S64.Idx → EReal)
  (x7 : S128x64.Idx → EReal) (x8 : S128x40.Idx → EReal) (x9 : S40.Idx → EReal)

/-- One aggregation of an array of 128 columns over the graph the edge list `x1` gives. -/
abbrev agg128 (p : S50000x128.Idx → EReal) : S50000x128.Idx → EReal :=
  Cert.KAgg.aggOf128 (F := Ideal) (Cert.KAgg.rowT x1) (Cert.KAgg.colT x1) (Cert.KAgg.nrmT x1) p
/-- The same for 64 columns. -/
abbrev agg64 (p : S50000x64.Idx → EReal) : S50000x64.Idx → EReal :=
  Cert.KAgg.aggOf64 (F := Ideal) (Cert.KAgg.rowT x1) (Cert.KAgg.colT x1) (Cert.KAgg.nrmT x1) p
/-- The same for 40 columns. -/
abbrev agg40 (p : S50000x40.Idx → EReal) : S50000x40.Idx → EReal :=
  Cert.KAgg.aggOf40 (F := Ideal) (Cert.KAgg.rowT x1) (Cert.KAgg.colT x1) (Cert.KAgg.nrmT x1) p

/-- The second layer's aggregate, the same in both programs. -/
def agg2 : S50000x64.Idx → EReal :=
  agg64 x1 (mm (M := 50000) (K := 128) (N := 64) (reluRow (M := 50000) (K := 128) (agg128 x1 (mm (M := 50000) (K := 512) (N := 128) x0 x3)) (rowOf (K := 128) x4)) x5)

/-- The kernel's result. -/
def kOut : S50000x40.Idx → EReal :=
  lsm (M := 50000) (N := 40)
    (agg40 x1 (conv3 (M := 50000) (N := 40) (H := 64) (D := 128) (agg2 x0 x1 x3 x4 x5) (rowOf (K := 64) x6)
      (topRows (N := 40) (H := 64) (H' := 64) x8) x2 (mm (M := 128) (K := 64) (N := 40) x7 (botRows (N := 40) (H := 64) (H' := 64) x8))))
    (rowOf (K := 40) x9)

/-- The reference's result. -/
def rOut : S50000x40.Idx → EReal :=
  lsm (M := 50000) (N := 40)
    (agg40 x1 (mm (M := 50000) (K := 64 + 64) (N := 40)
      (catCols (M := 50000) (H := 64) (H' := 64) (reluRow (M := 50000) (K := 64) (agg2 x0 x1 x3 x4 x5) (rowOf (K := 64) x6))
        (mm (M := 50000) (K := 128) (N := 64) x2 x7)) x8))
    (rowOf (K := 40) x9)

end Cert.Outs

end
-- ==== Proof.KValue.lean ====
/-
  The kernel's result as one function of the ten argument arrays.

  The result buffer after the run is the last region's output array; each region's output is its layer (Spec) of the
  arrays the region was entered from; each such array is either an argument, a reshaped or sliced argument, a small
  product of two arguments, or the graph aggregation (KAgg) of the previous region's output. Reading the chain
  backwards from the result gives `Cert.Outs.kOut` of the arguments.
-/
import proofs.«120531_j6004364280508_1_alg».proof.Proof.Gen.KernelIdeal.Frame
import proofs.«120531_j6004364280508_1_alg».proof.Proof.KReg0
import proofs.«120531_j6004364280508_1_alg».proof.Proof.KReg1
import proofs.«120531_j6004364280508_1_alg».proof.Proof.KReg2
import proofs.«120531_j6004364280508_1_alg».proof.Proof.KReg3
import proofs.«120531_j6004364280508_1_alg».proof.Proof.KHost
import proofs.«120531_j6004364280508_1_alg».proof.Proof.Outs
import proofs.«120531_j6004364280508_1_alg».proof.Proof.LibPlainDot
import Idealize.ShloMosaic.Lib.ValueLayout
import Idealize.ShloMosaic.Lib.ValueIdx

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx

/-! ## Small layout facts -/

/-- A vector recast as a one-row matrix is that vector as a row. -/
theorem cast_row {a : Nat} (v : (⟨1, ![a]⟩ : Shape).Idx → EReal) (h : (⟨1, ![a]⟩ : Shape).ShapeCasts ⟨2, ![1, a]⟩) :
    shapeCast ⟨2, ![1, a]⟩ v h = Cert.Spec.rowOf (K := a) v := by
  funext j
  obtain ⟨u, i, rfl⟩ : ∃ (u : Fin 1) (i : Fin a), j = ix2 u i := ⟨j 0, j 1, eq_ix2 j⟩
  exact shapeCast_a_1a_apply v h u i

/-- The slice of the first 64 rows of a matrix of 128 rows. -/
theorem slice_top (w : (⟨2, ![128, 40]⟩ : Shape).Idx → EReal) (h : (⟨2, ![128, 40]⟩ : Shape).Slices ![0, 0] ⟨2, ![64, 40]⟩) :
    extractStridedSlice ⟨2, ![64, 40]⟩ ![0, 0] w h = Cert.Spec.topRows (N := 40) (H := 64) (H' := 64) w := by
  funext j
  obtain ⟨p, q, rfl⟩ : ∃ (p : Fin 64) (q : Fin 40), j = ix2 p q := ⟨j 0, j 1, eq_ix2 j⟩
  exact slice2_axis0_apply 0 w h p q (Fin.castAdd 64 p) (Nat.zero_add _).symm

/-- The slice of the last 64 rows of a matrix of 128 rows. -/
theorem slice_bot (w : (⟨2, ![128, 40]⟩ : Shape).Idx → EReal) (h : (⟨2, ![128, 40]⟩ : Shape).Slices ![64, 0] ⟨2, ![64, 40]⟩) :
    extractStridedSlice ⟨2, ![64, 40]⟩ ![64, 0] w h = Cert.Spec.botRows (N := 40) (H := 64) (H' := 64) w := by
  funext j
  obtain ⟨p, q, rfl⟩ : ∃ (p : Fin 64) (q : Fin 40), j = ix2 p q := ⟨j 0, j 1, eq_ix2 j⟩
  exact slice2_axis0_apply 64 w h p q (Fin.natAdd 64 p) rfl

/-- The host's dot product of a 128 x 64 and a 64 x 40 matrix is their rows-by-columns product. -/
theorem dot_small [Cert.KernelIdeal.Facts₀] (l : (⟨2, ![128, 64]⟩ : Shape).Idx → EReal) (r : (⟨2, ![64, 40]⟩ : Shape).Idx → EReal) :
    Host.dotGeneral (F := Ideal) (φ₁ := .f32) (φ₂ := .f32) dot_S128x64_S64x40_S128x40_1_0_0_1_n_n none l r
      = Cert.Spec.mm (M := 128) (K := 64) (N := 40) l r := by
  funext j
  exact Cert.PlainDot.dotGeneral_apply (M := 128) (K := 64) (N := 40) none _ l r j

/-! ## The chain, read backwards from the result -/

variable (m : (ℓ : Loc nD τ sig) → Buf (Elt Ideal) ℓ) (ρ : Dev nD → PrngReg)

/-- The first region's output: the product of the input with the first weight. -/
theorem out0 (c : Dev nD) : W4 m ρ c (Proc.devRef .tc main_v32)
    = Cert.Spec.mm (M := 50000) (K := 512) (N := 128) (m ((c : Thread nD τ).loc main_arg0)) (m ((c : Thread nD τ).loc main_arg3)) := by
  refine ((W4_arr m ρ c 2).trans (Cert.KernelIdeal.Reg0.final0 (V3 m ρ) c)).trans ?_
  rw [show V3 m ρ c main_arg0 = m ((c : Thread nD τ).loc main_arg0) from Cert.KernelIdeal.Fold.W3_arg0 m ρ c,
    show V3 m ρ c main_arg3 = m ((c : Thread nD τ).loc main_arg3) from Cert.KernelIdeal.Fold.W3_arg3 m ρ c]

/-- The second region's output: the rectified first aggregate (plus bias) times the second weight. -/
theorem out1 (c : Dev nD) : W6 m ρ c (Proc.devRef .tc main_v47)
    = Cert.Spec.mm (M := 50000) (K := 128) (N := 64)
        (Cert.Spec.reluRow (M := 50000) (K := 128)
          (Cert.Outs.agg128 (m ((c : Thread nD τ).loc main_arg1))
            (Cert.Spec.mm (M := 50000) (K := 512) (N := 128) (m ((c : Thread nD τ).loc main_arg0)) (m ((c : Thread nD τ).loc main_arg3))))
          (Cert.Spec.rowOf (K := 128) (m ((c : Thread nD τ).loc main_arg4))))
        (m ((c : Thread nD τ).loc main_arg5)) := by
  refine ((W6_arr m ρ c 3).trans (Cert.KernelIdeal.Reg1.final1 (V5 m ρ) c)).trans ?_
  rw [show V5 m ρ c main_v45 = _ from Cert.KernelIdeal.Fold.W5_v45 m ρ c,
    show V5 m ρ c main_v46 = _ from Cert.KernelIdeal.Fold.W5_v46 m ρ c,
    show V5 m ρ c main_arg5 = _ from Cert.KernelIdeal.Fold.W5_arg5 m ρ c, out0 m ρ c, cast_row]

/-- The third region's output: the third layer's projection in the kernel's arrangement. -/
theorem out2 (c : Dev nD) : W8 m ρ c (Proc.devRef .tc main_v65)
    = Cert.Spec.conv3 (M := 50000) (N := 40) (H := 64) (D := 128)
        (Cert.Outs.agg2 (m ((c : Thread nD τ).loc main_arg0)) (m ((c : Thread nD τ).loc main_arg1)) (m ((c : Thread nD τ).loc main_arg3))
          (m ((c : Thread nD τ).loc main_arg4)) (m ((c : Thread nD τ).loc main_arg5)))
        (Cert.Spec.rowOf (K := 64) (m ((c : Thread nD τ).loc main_arg6)))
        (Cert.Spec.topRows (N := 40) (H := 64) (H' := 64) (m ((c : Thread nD τ).loc main_arg8)))
        (m ((c : Thread nD τ).loc main_arg2))
        (Cert.Spec.mm (M := 128) (K := 64) (N := 40) (m ((c : Thread nD τ).loc main_arg7))
          (Cert.Spec.botRows (N := 40) (H := 64) (H' := 64) (m ((c : Thread nD τ).loc main_arg8)))) := by
  refine ((W8_arr m ρ c 5).trans (Cert.KernelIdeal.Reg2.final2 (V7 m ρ) c)).trans ?_
  rw [show V7 m ρ c main_v60 = _ from Cert.KernelIdeal.Fold.W7_v60 m ρ c,
    show V7 m ρ c main_v64 = _ from Cert.KernelIdeal.Fold.W7_v64 m ρ c,
    show V7 m ρ c main_v61 = _ from Cert.KernelIdeal.Fold.W7_v61 m ρ c,
    show V7 m ρ c main_arg2 = _ from Cert.KernelIdeal.Fold.W7_arg2 m ρ c,
    show V7 m ρ c main_v63 = _ from Cert.KernelIdeal.Fold.W7_v63 m ρ c, out1 m ρ c, cast_row, slice_top, dot_small, slice_bot]
  rfl

/-- The result buffer after the run: the kernel's arrangement of the whole network. -/
theorem out_eq (c : Dev nD) : W10 m ρ c (Proc.devRef .tc main_v80)
    = Cert.Outs.kOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) := by
  refine ((W10_arr m ρ c 2).trans (Cert.KernelIdeal.Reg3.final3 (V9 m ρ) c)).trans ?_
  rw [show V9 m ρ c main_v78 = _ from Cert.KernelIdeal.Fold.W9_v78 m ρ c,
    show V9 m ρ c main_v79 = _ from Cert.KernelIdeal.Fold.W9_v79 m ρ c, out2 m ρ c, cast_row]
  rfl

end Cert.KernelIdeal.KValue

end
-- ==== Proof.RefRunStaged.lean ====
/-
  The reference program's run, read part by part.

  The program is one straight line of 126 host operations, cut into nine consecutive parts. A part, run from any buffer
  contents, leaves in the buffers the later parts read a stage of the reference (its operations composed, as a function
  of what the part itself read), and leaves every buffer it does not write as it was. Chaining the nine parts from the
  launch contents: the result buffer ends at the last stage applied to the ten argument arrays, and each argument array,
  written by no operation, ends as launched.
-/
import proofs.«120531_j6004364280508_1_alg».proof.Proof.RefRun
import proofs.«120531_j6004364280508_1_alg».proof.Proof.RefRead

set_option maxRecDepth 16384

noncomputable section

namespace Cert.ReferenceIdeal.Staged

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-! ## Lists of operations one after the other -/

/-- The contents after two lines run one after the other: the second line from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- A property of every operation of two lists holds of every operation of their concatenation. -/
theorem forall_append {P : HloOp τ sig (Elt F) → Prop} {l₁ l₂ : List (HloOp τ sig (Elt F))}
    (h₁ : l₁.Forall P) (h₂ : l₂.Forall P) : (l₁ ++ l₂).Forall P :=
  List.forall_iff_forall_mem.mpr fun a ha =>
    (List.mem_append.mp ha).elim (List.forall_iff_forall_mem.mp h₁ a) (List.forall_iff_forall_mem.mp h₂ a)

/-- Every operation of the program touches TensorCore buffers only. -/
theorem ops_sub : (ops : List (HloOp τ sig (Elt F))).Forall fun op => op.bufs ⊆ tcRefs τ sig :=
  forall_append ops_part0_sub (forall_append ops_part1_sub (forall_append ops_part2_sub (forall_append ops_part3_sub (forall_append ops_part4_sub (forall_append ops_part5_sub (forall_append ops_part6_sub (forall_append ops_part7_sub (ops_part8_sub))))))))

theorem part0_fresh : (ops_part0 : List (HloOp τ sig (Elt F))).Forall fun op => op.fresh = ∅ := by
  simp only [List.Forall]; repeat' constructor
theorem part1_fresh : (ops_part1 : List (HloOp τ sig (Elt F))).Forall fun op => op.fresh = ∅ := by
  simp only [List.Forall]; repeat' constructor
theorem part2_fresh : (ops_part2 : List (HloOp τ sig (Elt F))).Forall fun op => op.fresh = ∅ := by
  simp only [List.Forall]; repeat' constructor
theorem part3_fresh : (ops_part3 : List (HloOp τ sig (Elt F))).Forall fun op => op.fresh = ∅ := by
  simp only [List.Forall]; repeat' constructor
theorem part4_fresh : (ops_part4 : List (HloOp τ sig (Elt F))).Forall fun op => op.fresh = ∅ := by
  simp only [List.Forall]; repeat' constructor
theorem part5_fresh : (ops_part5 : List (HloOp τ sig (Elt F))).Forall fun op => op.fresh = ∅ := by
  simp only [List.Forall]; repeat' constructor
theorem part6_fresh : (ops_part6 : List (HloOp τ sig (Elt F))).Forall fun op => op.fresh = ∅ := by
  simp only [List.Forall]; repeat' constructor
theorem part7_fresh : (ops_part7 : List (HloOp τ sig (Elt F))).Forall fun op => op.fresh = ∅ := by
  simp only [List.Forall]; repeat' constructor
theorem part8_fresh : (ops_part8 : List (HloOp τ sig (Elt F))).Forall fun op => op.fresh = ∅ := by
  simp only [List.Forall]; repeat' constructor

/-- No operation of the program allocates a buffer. -/
theorem ops_fresh : (ops : List (HloOp τ sig (Elt F))).Forall fun op => op.fresh = ∅ :=
  forall_append part0_fresh (forall_append part1_fresh (forall_append part2_fresh (forall_append part3_fresh (forall_append part4_fresh (forall_append part5_fresh (forall_append part6_fresh (forall_append part7_fresh (part8_fresh))))))))

/-! ## What each part writes

Each operation writes its one result buffer. The lists name every buffer a part writes, so a buffer outside a part's
list keeps its contents across that part. -/

/-- A result buffer named in a list lies in the list's set of device buffers. -/
theorem single_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The buffers part 0 writes (the node numbers and the first row of the edge list). -/
def wr0 : List (Ref sig .tc) :=
  [main_v0, main_v1, main_v2]
/-- The buffers part 1 writes (the source list and the second row of the edge list). -/
def wr1 : List (Ref sig .tc) :=
  [main_v3, main_v4, main_v5]
/-- The buffers part 2 writes (the target list, the degrees, their inverse square roots, the edge weights). -/
def wr2 : List (Ref sig .tc) :=
  [main_v6, main_cst, main_v7, main_cst_0, main_v8, main_v9, main_v10, main_cst_1, main_v11, main_v12, main_v13,
   main_cst_2, main_v14, main_v15, main_cst_3, main_call0_v0, main_call0_v1, main_v16, main_c, main_v17, main_v18,
   main_c_4, main_v19, main_v20, main_v21, main_v22, main_v23, main_c_5, main_v24, main_v25, main_c_6, main_v26,
   main_v27, main_v28, main_v29, main_v30, main_v31]
/-- The buffers part 3 writes (the first layer and the second layer's product). -/
def wr3 : List (Ref sig .tc) :=
  [main_v32, main_c_7, main_v33, main_v34, main_c_8, main_v35, main_v36, main_v37, main_v38, main_v39, main_v40,
   main_v41, main_v42, main_cst_9, main_v43, main_v44, main_v45, main_v46, main_v47, main_v48, main_call1_cst,
   main_call1_v0, main_v49, main_v50]
/-- The buffers part 4 writes (the second aggregate, rectified, and the spectral projection). -/
def wr4 : List (Ref sig .tc) :=
  [main_c_10, main_v51, main_v52, main_c_11, main_v53, main_v54, main_v55, main_v56, main_v57, main_v58, main_v59,
   main_v60, main_cst_12, main_v61, main_v62, main_v63, main_v64, main_v65, main_v66, main_call2_cst, main_call2_v0,
   main_v67, main_v68]
/-- The buffers part 5 writes (the two blocks side by side and the last product). -/
def wr5 : List (Ref sig .tc) :=
  [main_v69, main_v70]
/-- The buffers part 6 writes (the last aggregate and its bias). -/
def wr6 : List (Ref sig .tc) :=
  [main_c_13, main_v71, main_v72, main_c_14, main_v73, main_v74, main_v75, main_v76, main_v77, main_v78, main_v79,
   main_v80, main_cst_15, main_v81, main_v82, main_v83, main_v84, main_v85, main_v86]
/-- The buffers part 7 writes (the row maxima and the differences from them). -/
def wr7 : List (Ref sig .tc) :=
  [main_call3_cst, main_call3_v0, main_call3_cst_0, main_call3_v1, main_call3_v2, main_call3_v3, main_call3_v4,
   main_call3_v5]
/-- The buffers part 8 writes (the exponentials, their sums, the logarithms, the result). -/
def wr8 : List (Ref sig .tc) :=
  [main_call3_v6, main_call3_cst_1, main_call3_v7, main_call3_v8, main_call3_v9, main_call3_v10, main_v87]

theorem part0_wr : (ops_part0 : List (HloOp τ sig (Elt F))).Forall fun op => op.writes ⊆ (wr0.map (Proc.devRef (τ := τ) .tc)).toFinset := by
  simp only [List.Forall, nullary_writes, unary_writes, binary_writes, ternary_writes, reshape_writes]
  repeat' apply And.intro
  all_goals exact single_sub_of_mem (by decide)
theorem part1_wr : (ops_part1 : List (HloOp τ sig (Elt F))).Forall fun op => op.writes ⊆ (wr1.map (Proc.devRef (τ := τ) .tc)).toFinset := by
  simp only [List.Forall, nullary_writes, unary_writes, binary_writes, ternary_writes, reshape_writes]
  repeat' apply And.intro
  all_goals exact single_sub_of_mem (by decide)
theorem part2_wr : (ops_part2 : List (HloOp τ sig (Elt F))).Forall fun op => op.writes ⊆ (wr2.map (Proc.devRef (τ := τ) .tc)).toFinset := by
  simp only [List.Forall, nullary_writes, unary_writes, binary_writes, ternary_writes, reshape_writes]
  repeat' apply And.intro
  all_goals exact single_sub_of_mem (by decide)
theorem part3_wr : (ops_part3 : List (HloOp τ sig (Elt F))).Forall fun op => op.writes ⊆ (wr3.map (Proc.devRef (τ := τ) .tc)).toFinset := by
  simp only [List.Forall, nullary_writes, unary_writes, binary_writes, ternary_writes, reshape_writes]
  repeat' apply And.intro
  all_goals exact single_sub_of_mem (by decide)
theorem part4_wr : (ops_part4 : List (HloOp τ sig (Elt F))).Forall fun op => op.writes ⊆ (wr4.map (Proc.devRef (τ := τ) .tc)).toFinset := by
  simp only [List.Forall, nullary_writes, unary_writes, binary_writes, ternary_writes, reshape_writes]
  repeat' apply And.intro
  all_goals exact single_sub_of_mem (by decide)
theorem part5_wr : (ops_part5 : List (HloOp τ sig (Elt F))).Forall fun op => op.writes ⊆ (wr5.map (Proc.devRef (τ := τ) .tc)).toFinset := by
  simp only [List.Forall, nullary_writes, unary_writes, binary_writes, ternary_writes, reshape_writes]
  repeat' apply And.intro
  all_goals exact single_sub_of_mem (by decide)
theorem part6_wr : (ops_part6 : List (HloOp τ sig (Elt F))).Forall fun op => op.writes ⊆ (wr6.map (Proc.devRef (τ := τ) .tc)).toFinset := by
  simp only [List.Forall, nullary_writes, unary_writes, binary_writes, ternary_writes, reshape_writes]
  repeat' apply And.intro
  all_goals exact single_sub_of_mem (by decide)
theorem part7_wr : (ops_part7 : List (HloOp τ sig (Elt F))).Forall fun op => op.writes ⊆ (wr7.map (Proc.devRef (τ := τ) .tc)).toFinset := by
  simp only [List.Forall, nullary_writes, unary_writes, binary_writes, ternary_writes, reshape_writes]
  repeat' apply And.intro
  all_goals exact single_sub_of_mem (by decide)
theorem part8_wr : (ops_part8 : List (HloOp τ sig (Elt F))).Forall fun op => op.writes ⊆ (wr8.map (Proc.devRef (τ := τ) .tc)).toFinset := by
  simp only [List.Forall, nullary_writes, unary_writes, binary_writes, ternary_writes, reshape_writes]
  repeat' apply And.intro
  all_goals exact single_sub_of_mem (by decide)

/-! ## What each part computes, from any contents -/

variable (V : Valuation τ sig (Elt F))

/-- Part 0: the node numbers. -/
theorem part0_v0 : after ops_part0 V (Proc.devRef .tc main_v0) = val_main_v0 (F := F) := by
  after_results_simp
  rfl
/-- Part 0: the first row of the edge list. -/
theorem part0_v2 : after ops_part0 V (Proc.devRef .tc main_v2) = val_main_v2 (F := F) (V (Proc.devRef .tc main_arg1)) := by
  after_results_simp
  rfl

/-- Part 1: the source list, from the first row and the node numbers. -/
theorem part1_v3 (x1 : (⟨S2x1600000, .i32⟩ : BufTy).Contents (Elt F))
    (h2 : V (Proc.devRef .tc main_v2) = val_main_v2 (F := F) x1) (h0 : V (Proc.devRef .tc main_v0) = val_main_v0 (F := F)) :
    after ops_part1 V (Proc.devRef .tc main_v3) = val_main_v3 (F := F) x1 := by
  after_results_simp
  rw [h2, h0]
  rfl
/-- Part 1: the second row of the edge list. -/
theorem part1_v5 : after ops_part1 V (Proc.devRef .tc main_v5) = val_main_v5 (F := F) (V (Proc.devRef .tc main_arg1)) := by
  after_results_simp
  rfl

/-- Part 2: the target list, from the second row and the node numbers. -/
theorem part2_v6 (x1 : (⟨S2x1600000, .i32⟩ : BufTy).Contents (Elt F))
    (h5 : V (Proc.devRef .tc main_v5) = val_main_v5 (F := F) x1) (h0 : V (Proc.devRef .tc main_v0) = val_main_v0 (F := F)) :
    after ops_part2 V (Proc.devRef .tc main_v6) = val_main_v6 (F := F) x1 := by
  after_results_simp
  rw [h5, h0]
  rfl

/-- Part 2: the edge weights, from the source list, the second row and the node numbers. -/
theorem part2_v31 (x1 : (⟨S2x1600000, .i32⟩ : BufTy).Contents (Elt F))
    (h3 : V (Proc.devRef .tc main_v3) = val_main_v3 (F := F) x1)
    (h5 : V (Proc.devRef .tc main_v5) = val_main_v5 (F := F) x1) (h0 : V (Proc.devRef .tc main_v0) = val_main_v0 (F := F)) :
    after ops_part2 V (Proc.devRef .tc main_v31) = val_main_v31 (F := F) x1 := by
  after_results_simp
  (try simp only [TRef.ofBuf, TRef.toBuf, cast_eq])
  rw [h3, h5, h0]
  rfl

/-- Part 3: the second layer's product, from the input, the first two weights, the first bias and the graph's lists. -/
theorem part3_v50 (x0 : (⟨S50000x512, .f32⟩ : BufTy).Contents (Elt F)) (x1 : (⟨S2x1600000, .i32⟩ : BufTy).Contents (Elt F)) (x3 : (⟨S512x128, .f32⟩ : BufTy).Contents (Elt F)) (x4 : (⟨S128, .f32⟩ : BufTy).Contents (Elt F)) (x5 : (⟨S128x64, .f32⟩ : BufTy).Contents (Elt F))
    (a0 : V (Proc.devRef .tc main_arg0) = x0) (a3 : V (Proc.devRef .tc main_arg3) = x3)
    (a4 : V (Proc.devRef .tc main_arg4) = x4) (a5 : V (Proc.devRef .tc main_arg5) = x5)
    (h3 : V (Proc.devRef .tc main_v3) = val_main_v3 (F := F) x1) (h6 : V (Proc.devRef .tc main_v6) = val_main_v6 (F := F) x1)
    (h31 : V (Proc.devRef .tc main_v31) = val_main_v31 (F := F) x1) :
    after ops_part3 V (Proc.devRef .tc main_v50) = val_main_v50 (F := F) x0 x1 x3 x4 x5 := by
  after_results_simp
  (try simp only [TRef.ofBuf, TRef.toBuf, cast_eq])
  rw [a0, a3, a4, a5, h3, h6, h31]
  rfl

/-- Part 4: the rectified second aggregate, from the second layer's product, the second bias and the graph's lists. -/
theorem part4_v67 (x0 : (⟨S50000x512, .f32⟩ : BufTy).Contents (Elt F)) (x1 : (⟨S2x1600000, .i32⟩ : BufTy).Contents (Elt F)) (x3 : (⟨S512x128, .f32⟩ : BufTy).Contents (Elt F)) (x4 : (⟨S128, .f32⟩ : BufTy).Contents (Elt F)) (x5 : (⟨S128x64, .f32⟩ : BufTy).Contents (Elt F)) (x6 : (⟨S64, .f32⟩ : BufTy).Contents (Elt F))
    (h50 : V (Proc.devRef .tc main_v50) = val_main_v50 (F := F) x0 x1 x3 x4 x5) (a6 : V (Proc.devRef .tc main_arg6) = x6)
    (h3 : V (Proc.devRef .tc main_v3) = val_main_v3 (F := F) x1) (h6 : V (Proc.devRef .tc main_v6) = val_main_v6 (F := F) x1)
    (h31 : V (Proc.devRef .tc main_v31) = val_main_v31 (F := F) x1) :
    after ops_part4 V (Proc.devRef .tc main_v67) = val_main_v67 (F := F) x0 x1 x3 x4 x5 x6 := by
  after_results_simp
  (try simp only [TRef.ofBuf, TRef.toBuf, cast_eq])
  rw [h50, a6, h3, h6, h31]
  rfl

/-- Part 4: the spectral projection, from the spectral input and its weight. -/
theorem part4_v68 (x2 : (⟨S50000x128, .f32⟩ : BufTy).Contents (Elt F)) (x7 : (⟨S128x64, .f32⟩ : BufTy).Contents (Elt F))
    (a2 : V (Proc.devRef .tc main_arg2) = x2) (a7 : V (Proc.devRef .tc main_arg7) = x7) :
    after ops_part4 V (Proc.devRef .tc main_v68) = val_main_v68 (F := F) x2 x7 := by
  after_results_simp
  (try simp only [TRef.ofBuf, TRef.toBuf, cast_eq])
  rw [a2, a7]
  rfl

/-- Part 5: the last product, from the two blocks and the last weight. -/
theorem part5_v70 (x0 : (⟨S50000x512, .f32⟩ : BufTy).Contents (Elt F)) (x1 : (⟨S2x1600000, .i32⟩ : BufTy).Contents (Elt F)) (x2 : (⟨S50000x128, .f32⟩ : BufTy).Contents (Elt F)) (x3 : (⟨S512x128, .f32⟩ : BufTy).Contents (Elt F)) (x4 : (⟨S128, .f32⟩ : BufTy).Contents (Elt F)) (x5 : (⟨S128x64, .f32⟩ : BufTy).Contents (Elt F)) (x6 : (⟨S64, .f32⟩ : BufTy).Contents (Elt F)) (x7 : (⟨S128x64, .f32⟩ : BufTy).Contents (Elt F)) (x8 : (⟨S128x40, .f32⟩ : BufTy).Contents (Elt F))
    (h67 : V (Proc.devRef .tc main_v67) = val_main_v67 (F := F) x0 x1 x3 x4 x5 x6)
    (h68 : V (Proc.devRef .tc main_v68) = val_main_v68 (F := F) x2 x7) (a8 : V (Proc.devRef .tc main_arg8) = x8) :
    after ops_part5 V (Proc.devRef .tc main_v70) = val_main_v70 (F := F) x0 x1 x2 x3 x4 x5 x6 x7 x8 := by
  after_results_simp
  rw [h67, h68, a8]
  rfl

/-- Part 6: the last aggregate plus its bias, from the last product, the last bias and the graph's lists. -/
theorem part6_v86 (x0 : (⟨S50000x512, .f32⟩ : BufTy).Contents (Elt F)) (x1 : (⟨S2x1600000, .i32⟩ : BufTy).Contents (Elt F)) (x2 : (⟨S50000x128, .f32⟩ : BufTy).Contents (Elt F)) (x3 : (⟨S512x128, .f32⟩ : BufTy).Contents (Elt F)) (x4 : (⟨S128, .f32⟩ : BufTy).Contents (Elt F)) (x5 : (⟨S128x64, .f32⟩ : BufTy).Contents (Elt F)) (x6 : (⟨S64, .f32⟩ : BufTy).Contents (Elt F)) (x7 : (⟨S128x64, .f32⟩ : BufTy).Contents (Elt F)) (x8 : (⟨S128x40, .f32⟩ : BufTy).Contents (Elt F)) (x9 : (⟨S40, .f32⟩ : BufTy).Contents (Elt F))
    (h70 : V (Proc.devRef .tc main_v70) = val_main_v70 (F := F) x0 x1 x2 x3 x4 x5 x6 x7 x8) (a9 : V (Proc.devRef .tc main_arg9) = x9)
    (h3 : V (Proc.devRef .tc main_v3) = val_main_v3 (F := F) x1) (h6 : V (Proc.devRef .tc main_v6) = val_main_v6 (F := F) x1)
    (h31 : V (Proc.devRef .tc main_v31) = val_main_v31 (F := F) x1) :
    after ops_part6 V (Proc.devRef .tc main_v86) = val_main_v86 (F := F) x0 x1 x2 x3 x4 x5 x6 x7 x8 x9 := by
  after_results_simp
  rw [h70, a9, h3, h6, h31]
  rfl

/-- Part 7: each entry minus its row's maximum, from the biased last aggregate. -/
theorem part7_d (x0 : (⟨S50000x512, .f32⟩ : BufTy).Contents (Elt F)) (x1 : (⟨S2x1600000, .i32⟩ : BufTy).Contents (Elt F)) (x2 : (⟨S50000x128, .f32⟩ : BufTy).Contents (Elt F)) (x3 : (⟨S512x128, .f32⟩ : BufTy).Contents (Elt F)) (x4 : (⟨S128, .f32⟩ : BufTy).Contents (Elt F)) (x5 : (⟨S128x64, .f32⟩ : BufTy).Contents (Elt F)) (x6 : (⟨S64, .f32⟩ : BufTy).Contents (Elt F)) (x7 : (⟨S128x64, .f32⟩ : BufTy).Contents (Elt F)) (x8 : (⟨S128x40, .f32⟩ : BufTy).Contents (Elt F)) (x9 : (⟨S40, .f32⟩ : BufTy).Contents (Elt F))
    (h86 : V (Proc.devRef .tc main_v86) = val_main_v86 (F := F) x0 x1 x2 x3 x4 x5 x6 x7 x8 x9) :
    after ops_part7 V (Proc.devRef .tc main_call3_v5) = val_main_call3_v5 (F := F) x0 x1 x2 x3 x4 x5 x6 x7 x8 x9 := by
  after_results_simp
  rw [h86]
  dsimp only [TRef.ofBuf, TRef.toBuf]
  repeat (rw [cast_eq])
  rfl

/-- Part 8: the result, from the differences. -/
theorem part8_v87 (x0 : (⟨S50000x512, .f32⟩ : BufTy).Contents (Elt F)) (x1 : (⟨S2x1600000, .i32⟩ : BufTy).Contents (Elt F)) (x2 : (⟨S50000x128, .f32⟩ : BufTy).Contents (Elt F)) (x3 : (⟨S512x128, .f32⟩ : BufTy).Contents (Elt F)) (x4 : (⟨S128, .f32⟩ : BufTy).Contents (Elt F)) (x5 : (⟨S128x64, .f32⟩ : BufTy).Contents (Elt F)) (x6 : (⟨S64, .f32⟩ : BufTy).Contents (Elt F)) (x7 : (⟨S128x64, .f32⟩ : BufTy).Contents (Elt F)) (x8 : (⟨S128x40, .f32⟩ : BufTy).Contents (Elt F)) (x9 : (⟨S40, .f32⟩ : BufTy).Contents (Elt F))
    (hd : V (Proc.devRef .tc main_call3_v5) = val_main_call3_v5 (F := F) x0 x1 x2 x3 x4 x5 x6 x7 x8 x9) :
    after ops_part8 V (Proc.devRef .tc main_v87) = val_main_v87 (F := F) x0 x1 x2 x3 x4 x5 x6 x7 x8 x9 := by
  after_results_simp
  (try simp only [TRef.ofBuf, TRef.toBuf, cast_eq])
  rw [hd]
  rfl

/-! ## A buffer a part does not write -/

theorem part0_carry (r : Ref sig .tc) (hr : r ∉ wr0) : after ops_part0 V (Proc.devRef .tc r) = V (Proc.devRef .tc r) :=
  after_of_writes_sub _ _ part0_wr hr
theorem part1_carry (r : Ref sig .tc) (hr : r ∉ wr1) : after ops_part1 V (Proc.devRef .tc r) = V (Proc.devRef .tc r) :=
  after_of_writes_sub _ _ part1_wr hr
theorem part2_carry (r : Ref sig .tc) (hr : r ∉ wr2) : after ops_part2 V (Proc.devRef .tc r) = V (Proc.devRef .tc r) :=
  after_of_writes_sub _ _ part2_wr hr
theorem part3_carry (r : Ref sig .tc) (hr : r ∉ wr3) : after ops_part3 V (Proc.devRef .tc r) = V (Proc.devRef .tc r) :=
  after_of_writes_sub _ _ part3_wr hr
theorem part4_carry (r : Ref sig .tc) (hr : r ∉ wr4) : after ops_part4 V (Proc.devRef .tc r) = V (Proc.devRef .tc r) :=
  after_of_writes_sub _ _ part4_wr hr
theorem part5_carry (r : Ref sig .tc) (hr : r ∉ wr5) : after ops_part5 V (Proc.devRef .tc r) = V (Proc.devRef .tc r) :=
  after_of_writes_sub _ _ part5_wr hr
theorem part6_carry (r : Ref sig .tc) (hr : r ∉ wr6) : after ops_part6 V (Proc.devRef .tc r) = V (Proc.devRef .tc r) :=
  after_of_writes_sub _ _ part6_wr hr
theorem part7_carry (r : Ref sig .tc) (hr : r ∉ wr7) : after ops_part7 V (Proc.devRef .tc r) = V (Proc.devRef .tc r) :=
  after_of_writes_sub _ _ part7_wr hr
theorem part8_carry (r : Ref sig .tc) (hr : r ∉ wr8) : after ops_part8 V (Proc.devRef .tc r) = V (Proc.devRef .tc r) :=
  after_of_writes_sub _ _ part8_wr hr

/-! ## The nine parts chained from the launch contents -/

variable (m : (ℓ : Loc nD τ sig) → Buf (Elt F) ℓ) (c : Dev nD)

/-- The buffer contents at the launch, and after each part. -/
abbrev C0 : Valuation τ sig (Elt F) := launchContents m c
abbrev C1 : Valuation τ sig (Elt F) := after ops_part0 (C0 m c)
abbrev C2 : Valuation τ sig (Elt F) := after ops_part1 (C1 m c)
abbrev C3 : Valuation τ sig (Elt F) := after ops_part2 (C2 m c)
abbrev C4 : Valuation τ sig (Elt F) := after ops_part3 (C3 m c)
abbrev C5 : Valuation τ sig (Elt F) := after ops_part4 (C4 m c)
abbrev C6 : Valuation τ sig (Elt F) := after ops_part5 (C5 m c)
abbrev C7 : Valuation τ sig (Elt F) := after ops_part6 (C6 m c)
abbrev C8 : Valuation τ sig (Elt F) := after ops_part7 (C7 m c)
abbrev C9 : Valuation τ sig (Elt F) := after ops_part8 (C8 m c)

/-- The whole program leaves what the last part leaves. -/
theorem after_ops : after ops (launchContents m c) = C9 m c := by
  show after (ops_part0 ++ (ops_part1 ++ (ops_part2 ++ (ops_part3 ++ (ops_part4 ++ (ops_part5 ++ (ops_part6 ++ (ops_part7 ++ (ops_part8))))))))) _ = _
  rw [after_append, after_append, after_append, after_append, after_append, after_append, after_append, after_append]

/-- A buffer none of the first three parts writes holds after them what it held at the launch; the same for more parts. -/
theorem keep3 (r : Ref sig .tc) (h0 : r ∉ wr0) (h1 : r ∉ wr1) (h2 : r ∉ wr2) :
    C3 m c (Proc.devRef .tc r) = C0 m c (Proc.devRef .tc r) :=
  (part2_carry _ r h2).trans ((part1_carry _ r h1).trans (part0_carry _ r h0))
theorem keep4 (r : Ref sig .tc) (h0 : r ∉ wr0) (h1 : r ∉ wr1) (h2 : r ∉ wr2) (h3 : r ∉ wr3) :
    C4 m c (Proc.devRef .tc r) = C0 m c (Proc.devRef .tc r) :=
  (part3_carry _ r h3).trans (keep3 m c r h0 h1 h2)
theorem keep5 (r : Ref sig .tc) (h0 : r ∉ wr0) (h1 : r ∉ wr1) (h2 : r ∉ wr2) (h3 : r ∉ wr3) (h4 : r ∉ wr4) :
    C5 m c (Proc.devRef .tc r) = C0 m c (Proc.devRef .tc r) :=
  (part4_carry _ r h4).trans (keep4 m c r h0 h1 h2 h3)
theorem keep6 (r : Ref sig .tc) (h0 : r ∉ wr0) (h1 : r ∉ wr1) (h2 : r ∉ wr2) (h3 : r ∉ wr3) (h4 : r ∉ wr4) (h5 : r ∉ wr5) :
    C6 m c (Proc.devRef .tc r) = C0 m c (Proc.devRef .tc r) :=
  (part5_carry _ r h5).trans (keep5 m c r h0 h1 h2 h3 h4)
theorem keep7 (r : Ref sig .tc) (h0 : r ∉ wr0) (h1 : r ∉ wr1) (h2 : r ∉ wr2) (h3 : r ∉ wr3) (h4 : r ∉ wr4) (h5 : r ∉ wr5) (h6 : r ∉ wr6) :
    C7 m c (Proc.devRef .tc r) = C0 m c (Proc.devRef .tc r) :=
  (part6_carry _ r h6).trans (keep6 m c r h0 h1 h2 h3 h4 h5)
theorem keep8 (r : Ref sig .tc) (h0 : r ∉ wr0) (h1 : r ∉ wr1) (h2 : r ∉ wr2) (h3 : r ∉ wr3) (h4 : r ∉ wr4) (h5 : r ∉ wr5) (h6 : r ∉ wr6) (h7 : r ∉ wr7) :
    C8 m c (Proc.devRef .tc r) = C0 m c (Proc.devRef .tc r) :=
  (part7_carry _ r h7).trans (keep7 m c r h0 h1 h2 h3 h4 h5 h6)
theorem keep9 (r : Ref sig .tc) (h0 : r ∉ wr0) (h1 : r ∉ wr1) (h2 : r ∉ wr2) (h3 : r ∉ wr3) (h4 : r ∉ wr4) (h5 : r ∉ wr5) (h6 : r ∉ wr6) (h7 : r ∉ wr7) (h8 : r ∉ wr8) :
    C9 m c (Proc.devRef .tc r) = C0 m c (Proc.devRef .tc r) :=
  (part8_carry _ r h8).trans (keep8 m c r h0 h1 h2 h3 h4 h5 h6 h7)

/-- The graph's lists and the edge weights after the third part, as stages of the edge-list argument. -/
theorem C1_v0 : C1 m c (Proc.devRef .tc main_v0) = val_main_v0 (F := F) := part0_v0 _
theorem C1_v2 : C1 m c (Proc.devRef .tc main_v2) = val_main_v2 (F := F) (m ((c.tc : Thread nD τ).loc main_arg1)) := part0_v2 _
theorem C2_v3 : C2 m c (Proc.devRef .tc main_v3) = val_main_v3 (F := F) (m ((c.tc : Thread nD τ).loc main_arg1)) :=
  part1_v3 _ _ (C1_v2 m c) (C1_v0 m c)
theorem C2_v5 : C2 m c (Proc.devRef .tc main_v5) = val_main_v5 (F := F) (m ((c.tc : Thread nD τ).loc main_arg1)) :=
  (part1_v5 _).trans (congrArg (val_main_v5 (F := F)) (part0_carry _ main_arg1 (by decide)))
theorem C2_v0 : C2 m c (Proc.devRef .tc main_v0) = val_main_v0 (F := F) :=
  (part1_carry _ main_v0 (by decide)).trans (C1_v0 m c)
theorem C3_v3 : C3 m c (Proc.devRef .tc main_v3) = val_main_v3 (F := F) (m ((c.tc : Thread nD τ).loc main_arg1)) :=
  (part2_carry _ main_v3 (by decide)).trans (C2_v3 m c)
theorem C3_v6 : C3 m c (Proc.devRef .tc main_v6) = val_main_v6 (F := F) (m ((c.tc : Thread nD τ).loc main_arg1)) :=
  part2_v6 _ _ (C2_v5 m c) (C2_v0 m c)
theorem C3_v31 : C3 m c (Proc.devRef .tc main_v31) = val_main_v31 (F := F) (m ((c.tc : Thread nD τ).loc main_arg1)) :=
  part2_v31 _ _ (C2_v3 m c) (C2_v5 m c) (C2_v0 m c)

/-- The second layer's product after the fourth part. -/
theorem C4_v50 : C4 m c (Proc.devRef .tc main_v50)
    = val_main_v50 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) :=
  part3_v50 _ _ _ _ _ _ (keep3 m c main_arg0 (by decide) (by decide) (by decide)) (keep3 m c main_arg3 (by decide) (by decide) (by decide))
    (keep3 m c main_arg4 (by decide) (by decide) (by decide)) (keep3 m c main_arg5 (by decide) (by decide) (by decide))
    (C3_v3 m c) (C3_v6 m c) (C3_v31 m c)
theorem C4_v3 : C4 m c (Proc.devRef .tc main_v3) = val_main_v3 (F := F) (m ((c.tc : Thread nD τ).loc main_arg1)) :=
  (part3_carry _ main_v3 (by decide)).trans (C3_v3 m c)
theorem C4_v6 : C4 m c (Proc.devRef .tc main_v6) = val_main_v6 (F := F) (m ((c.tc : Thread nD τ).loc main_arg1)) :=
  (part3_carry _ main_v6 (by decide)).trans (C3_v6 m c)
theorem C4_v31 : C4 m c (Proc.devRef .tc main_v31) = val_main_v31 (F := F) (m ((c.tc : Thread nD τ).loc main_arg1)) :=
  (part3_carry _ main_v31 (by decide)).trans (C3_v31 m c)

/-- The two blocks after the fifth part. -/
theorem C5_v67 : C5 m c (Proc.devRef .tc main_v67)
    = val_main_v67 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) :=
  part4_v67 _ _ _ _ _ _ _ (C4_v50 m c) (keep4 m c main_arg6 (by decide) (by decide) (by decide) (by decide))
    (C4_v3 m c) (C4_v6 m c) (C4_v31 m c)
theorem C5_v68 : C5 m c (Proc.devRef .tc main_v68) = val_main_v68 (F := F) (m ((c.tc : Thread nD τ).loc main_arg2)) (m ((c.tc : Thread nD τ).loc main_arg7)) :=
  part4_v68 _ _ _ (keep4 m c main_arg2 (by decide) (by decide) (by decide) (by decide)) (keep4 m c main_arg7 (by decide) (by decide) (by decide) (by decide))
theorem C5_v3 : C5 m c (Proc.devRef .tc main_v3) = val_main_v3 (F := F) (m ((c.tc : Thread nD τ).loc main_arg1)) :=
  (part4_carry _ main_v3 (by decide)).trans (C4_v3 m c)
theorem C5_v6 : C5 m c (Proc.devRef .tc main_v6) = val_main_v6 (F := F) (m ((c.tc : Thread nD τ).loc main_arg1)) :=
  (part4_carry _ main_v6 (by decide)).trans (C4_v6 m c)
theorem C5_v31 : C5 m c (Proc.devRef .tc main_v31) = val_main_v31 (F := F) (m ((c.tc : Thread nD τ).loc main_arg1)) :=
  (part4_carry _ main_v31 (by decide)).trans (C4_v31 m c)

/-- The last product after the sixth part. -/
theorem C6_v70 : C6 m c (Proc.devRef .tc main_v70)
    = val_main_v70 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  part5_v70 _ _ _ _ _ _ _ _ _ _ (C5_v67 m c) (C5_v68 m c) (keep5 m c main_arg8 (by decide) (by decide) (by decide) (by decide) (by decide))
theorem C6_v3 : C6 m c (Proc.devRef .tc main_v3) = val_main_v3 (F := F) (m ((c.tc : Thread nD τ).loc main_arg1)) :=
  (part5_carry _ main_v3 (by decide)).trans (C5_v3 m c)
theorem C6_v6 : C6 m c (Proc.devRef .tc main_v6) = val_main_v6 (F := F) (m ((c.tc : Thread nD τ).loc main_arg1)) :=
  (part5_carry _ main_v6 (by decide)).trans (C5_v6 m c)
theorem C6_v31 : C6 m c (Proc.devRef .tc main_v31) = val_main_v31 (F := F) (m ((c.tc : Thread nD τ).loc main_arg1)) :=
  (part5_carry _ main_v31 (by decide)).trans (C5_v31 m c)

/-- The biased last aggregate after the seventh part, the differences from the row maxima after the eighth. -/
theorem C7_v86 : C7 m c (Proc.devRef .tc main_v86)
    = val_main_v86 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  part6_v86 _ _ _ _ _ _ _ _ _ _ _ (C6_v70 m c) (keep6 m c main_arg9 (by decide) (by decide) (by decide) (by decide) (by decide) (by decide))
    (C6_v3 m c) (C6_v6 m c) (C6_v31 m c)
theorem C8_d : C8 m c (Proc.devRef .tc main_call3_v5)
    = val_main_call3_v5 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  part7_d _ _ _ _ _ _ _ _ _ _ _ (C7_v86 m c)

/-- The result buffer after the last part: the reference's last stage of the ten argument arrays. -/
theorem C9_v87 : C9 m c (Proc.devRef .tc main_v87)
    = val_main_v87 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  part8_v87 _ _ _ _ _ _ _ _ _ _ _ (C8_d m c)

/-- An argument array, written by no operation, ends as launched. -/
theorem arg_kept (r : Ref sig .tc) (h0 : r ∉ wr0) (h1 : r ∉ wr1) (h2 : r ∉ wr2) (h3 : r ∉ wr3) (h4 : r ∉ wr4) (h5 : r ∉ wr5) (h6 : r ∉ wr6) (h7 : r ∉ wr7) (h8 : r ∉ wr8) :
    after ops (launchContents m c) (Proc.devRef .tc r) = m ((c.tc : Thread nD τ).loc r) := by
  rw [after_ops]
  exact keep9 m c r h0 h1 h2 h3 h4 h5 h6 h7 h8

/-! ## The run -/

/-- On every device, for any float values, from any memory with zero counters: every weakly fair execution of @main
    terminates with the result buffer at the reference's last stage of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v87)
          = val_main_v87 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
              (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
      ⟨(h c main_v87).trans ((congrFun (after_ops m c) _).trans (C9_v87 m c)),
        (h c main_arg0).trans (arg_kept m c main_arg0 (by decide) (by decide) (by decide) (by decide) (by decide) (by decide) (by decide) (by decide) (by decide)),
        (h c main_arg1).trans (arg_kept m c main_arg1 (by decide) (by decide) (by decide) (by decide) (by decide) (by decide) (by decide) (by decide) (by decide)),
        (h c main_arg2).trans (arg_kept m c main_arg2 (by decide) (by decide) (by decide) (by decide) (by decide) (by decide) (by decide) (by decide) (by decide)),
        (h c main_arg3).trans (arg_kept m c main_arg3 (by decide) (by decide) (by decide) (by decide) (by decide) (by decide) (by decide) (by decide) (by decide)),
        (h c main_arg4).trans (arg_kept m c main_arg4 (by decide) (by decide) (by decide) (by decide) (by decide) (by decide) (by decide) (by decide) (by decide)),
        (h c main_arg5).trans (arg_kept m c main_arg5 (by decide) (by decide) (by decide) (by decide) (by decide) (by decide) (by decide) (by decide) (by decide)),
        (h c main_arg6).trans (arg_kept m c main_arg6 (by decide) (by decide) (by decide) (by decide) (by decide) (by decide) (by decide) (by decide) (by decide)),
        (h c main_arg7).trans (arg_kept m c main_arg7 (by decide) (by decide) (by decide) (by decide) (by decide) (by decide) (by decide) (by decide) (by decide)),
        (h c main_arg8).trans (arg_kept m c main_arg8 (by decide) (by decide) (by decide) (by decide) (by decide) (by decide) (by decide) (by decide) (by decide)),
        (h c main_arg9).trans (arg_kept m c main_arg9 (by decide) (by decide) (by decide) (by decide) (by decide) (by decide) (by decide) (by decide) (by decide))⟩)
    (run_seq scopedRefs_eq scopedSems_eq defs main (fun _ => ops) main_eq (fun _ => ops_sub) m ρ
      (fun _ => List.forall_iff_forall_mem.mp ops_fresh))

end Cert.ReferenceIdeal.Staged

end
-- ==== Proof.RefLsm.lean ====
/-
  The reference's closing log-softmax, read as one function of whole arrays: the bias row added to every row, the row's
  maximum (a fold of the maximum from minus infinity, then once more the maximum with minus infinity, which changes
  nothing), the differences, their exponentials summed from zero, the logarithm, and the final difference.
-/
import proofs.«120531_j6004364280508_1_alg».proof.Proof.RefRead
import proofs.«120531_j6004364280508_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.RefLsm

open Idealize.ShloMosaic Idealize.ShloMosaic.ValueIdx

open Cert.ReferenceIdeal Cert.ReferenceIdeal.ReadP in
/-- Dropping the column axis of a 50000 x 40 array leaves its 50000 rows. -/
theorem reduces_cols : S50000x40.Reduces [1] S50000 := by decide

open Cert.ReferenceIdeal Cert.ReferenceIdeal.ReadP in
/-- Row `p` with the column `k` put back on the dropped axis is the index (p, k). -/
theorem lift_row (p : Fin 50000) (k : Fin (S50000x40.size 1)) :
    reduces_cols.lift (ix1 p) k = ix2 p (⟨k.val, k.isLt⟩ : Fin 40) := by
  funext c; apply Fin.ext
  match c with | ⟨0, _⟩ => rfl | ⟨1, _⟩ => rfl

/-- The word 0xFF800000 is minus infinity, so the maximum with it changes nothing. -/
theorem max_negInf (y : EReal) : max (Ideal.ofBits .f32 0xFF800000#32) y = y := by
  simp [Ideal.ofBits, Ideal.ieee]

open Cert.ReferenceIdeal Cert.ReferenceIdeal.ReadP in
/-- The host's reduction with a maximum body over the columns, from minus infinity, is at row `p` the maximum of that
    row: the fold of `max` over the 40 columns from the same word. -/
theorem hostMax_row (Z : S50000x40.Idx → Ideal .f32) (h' : S50000x40.ReducesTo [1] S50000) (hu : 0 < S_.numel) (p : Fin 50000) :
    Host.reduce (FloatOps.maximumf (F := Ideal) (φ := .f32)) Z (constant (F := Ideal) S_ .f32 0xFF800000#32) h' hu (ix1 p)
      = Cert.Spec.rowMax (fun q : Fin 40 => Z (ix2 p q)) := by
  rw [Host.reduce_eq_fold_single (FloatOps.maximumf (F := Ideal) (φ := .f32)) Z _ h' reduces_cols hu]
  have hf : (Z ∘ reduces_cols.lift (ix1 p)) = fun q : Fin 40 => Z (ix2 p q) := funext fun k => congrArg Z (lift_row p k)
  exact congrArg (fun f => Finset.fold max (Ideal.ofBits .f32 0xFF800000#32) f (Finset.univ : Finset (Fin 40))) hf

section Stages

open Cert.ReferenceIdeal Cert.ReferenceIdeal.ReadP

variable (x0 : Cert.ReferenceIdeal.S50000x512.Idx → EReal) (x1 : (⟨Cert.ReferenceIdeal.S2x1600000, .i32⟩ : BufTy).Contents (Elt Ideal))
    (x2 : Cert.ReferenceIdeal.S50000x128.Idx → EReal) (x3 : Cert.ReferenceIdeal.S512x128.Idx → EReal) (x4 : Cert.ReferenceIdeal.S128.Idx → EReal)
    (x5 : Cert.ReferenceIdeal.S128x64.Idx → EReal) (x6 : Cert.ReferenceIdeal.S64.Idx → EReal) (x7 : Cert.ReferenceIdeal.S128x64.Idx → EReal)
    (x8 : Cert.ReferenceIdeal.S128x40.Idx → EReal) (x9 : Cert.ReferenceIdeal.S40.Idx → EReal)

/-- Row `p` of the last aggregate plus the bias, as a function of the column. -/
local notation "zrow" => Cert.Spec.rowPlus (M := 50000) (N := 40) (val_main_v83 (F := Ideal) x0 x1 x2 x3 x4 x5 x6 x7 x8) (Cert.Spec.rowOf (K := 40) x9)

/-- The biased aggregate at (p, q): the aggregate there plus entry q of the bias. -/
theorem biased_at (p : Fin 50000) (q : Fin 40) :
    val_main_v86 (F := Ideal) x0 x1 x2 x3 x4 x5 x6 x7 x8 x9 (ix2 p q) = zrow p q := by
  rw [val_main_v86_apply, val_main_v85_apply, val_main_v84_apply, Ideal.addf_def]
  unfold Cert.Spec.rowPlus Cert.Spec.rowOf
  exact congrArg (fun i => val_main_v83 (F := Ideal) x0 x1 x2 x3 x4 x5 x6 x7 x8 (ix2 p q) + x9 i)
    (funext fun a => Fin.ext (by match a with | ⟨0, _⟩ => rfl))

/-- The reduction's result at row `p` is the row's maximum. -/
theorem rowMax_at (p : Fin 50000) :
    val_main_call3_v0 (F := Ideal) x0 x1 x2 x3 x4 x5 x6 x7 x8 x9 (ix1 p) = Cert.Spec.rowMax (zrow p) := by
  unfold val_main_call3_v0 val_main_call3_cst
  refine (hostMax_row _ _ _ p).trans ?_
  exact congrArg Cert.Spec.rowMax (funext fun q => biased_at x0 x1 x2 x3 x4 x5 x6 x7 x8 x9 p q)

/-- The maximum broadcast back over the columns: at (p, q) it is row p's maximum. -/
theorem rowMaxBroadcast_at (p : Fin 50000) (q : Fin 40) :
    val_main_call3_v4 (F := Ideal) x0 x1 x2 x3 x4 x5 x6 x7 x8 x9 (ix2 p q) = Cert.Spec.rowMax (zrow p) := by
  rw [val_main_call3_v4_apply, val_main_call3_v3_apply, val_main_call3_v2_apply, val_main_call3_v1_apply, val_main_call3_cst_0_apply,
    show idx_main_call3_v3 (idx_main_call3_v4 (ix2 p q)) = ix1 p from funext fun a => Fin.ext (by match a with | ⟨0, _⟩ => rfl),
    rowMax_at, Ideal.ofBits_def, Ideal.maximumf_def, max_negInf]

/-- The entry minus its row's maximum. -/
theorem shifted_at (p : Fin 50000) (q : Fin 40) :
    val_main_call3_v5 (F := Ideal) x0 x1 x2 x3 x4 x5 x6 x7 x8 x9 (ix2 p q) = zrow p q - Cert.Spec.rowMax (zrow p) := by
  rw [val_main_call3_v5_apply, rowMaxBroadcast_at, biased_at, Ideal.subf_def]

/-- The sum over row p of the exponentials of the shifted entries (summed from the zero word, which adds nothing). -/
theorem expSum_at (p : Fin 50000) :
    val_main_call3_v7 (F := Ideal) x0 x1 x2 x3 x4 x5 x6 x7 x8 x9 (ix1 p)
      = ∑ q : Fin 40, Ideal.exp (zrow p q - Cert.Spec.rowMax (zrow p)) := by
  rw [val_main_call3_v7_apply, val_main_call3_cst_1_apply, Ideal.ofBits_def, Ideal.ofBits_zero_f32, zero_add]
  refine Finset.sum_congr rfl fun k _ => ?_
  rw [show idx_main_call3_v7 (ix1 p) k = ix2 p k from funext fun a => Fin.ext (by match a with | ⟨0, _⟩ => rfl | ⟨1, _⟩ => rfl),
    val_main_call3_v6_apply, shifted_at, Ideal.hostUnary_exp_def]

end Stages

/-- The reference's result is the row-wise log-softmax of its last aggregate plus the last bias as a row. -/
theorem lsm_eq [Cert.ReferenceIdeal.Facts₀] (x0 : Cert.ReferenceIdeal.S50000x512.Idx → EReal) (x1 : (⟨Cert.ReferenceIdeal.S2x1600000, .i32⟩ : BufTy).Contents (Elt Ideal))
    (x2 : Cert.ReferenceIdeal.S50000x128.Idx → EReal) (x3 : Cert.ReferenceIdeal.S512x128.Idx → EReal) (x4 : Cert.ReferenceIdeal.S128.Idx → EReal)
    (x5 : Cert.ReferenceIdeal.S128x64.Idx → EReal) (x6 : Cert.ReferenceIdeal.S64.Idx → EReal) (x7 : Cert.ReferenceIdeal.S128x64.Idx → EReal)
    (x8 : Cert.ReferenceIdeal.S128x40.Idx → EReal) (x9 : Cert.ReferenceIdeal.S40.Idx → EReal) :
    Cert.ReferenceIdeal.ReadP.val_main_v87 (F := Ideal) x0 x1 x2 x3 x4 x5 x6 x7 x8 x9
      = Cert.Spec.lsm (M := 50000) (N := 40) (Cert.ReferenceIdeal.ReadP.val_main_v83 (F := Ideal) x0 x1 x2 x3 x4 x5 x6 x7 x8)
          (Cert.Spec.rowOf (K := 40) x9) := by
  funext j
  obtain ⟨p, q, rfl⟩ : ∃ (p : Fin 50000) (q : Fin 40), j = ix2 p q := ⟨j 0, j 1, eq_ix2 j⟩
  rw [Cert.ReferenceIdeal.ReadP.val_main_v87_apply, Cert.ReferenceIdeal.ReadP.val_main_call3_v10_apply,
    Cert.ReferenceIdeal.ReadP.val_main_call3_v9_apply, Cert.ReferenceIdeal.ReadP.val_main_call3_v8_apply,
    show Cert.ReferenceIdeal.ReadP.idx_main_call3_v8 (Cert.ReferenceIdeal.ReadP.idx_main_call3_v10 (ix2 p q)) = ix1 p from
      funext fun a => Fin.ext (by match a with | ⟨0, _⟩ => rfl),
    expSum_at, shifted_at, Ideal.hostUnary_log_def, Ideal.subf_def]
  rfl

end Cert.RefLsm

end
-- ==== Proof.RefStages.lean ====
/-
  The reference's program up to its last aggregate, read as the layers over the shared aggregation: each dot product is
  the rows-by-columns product, each bias is a row added to every row, each rectifier the maximum with zero, the
  concatenation two blocks side by side; the gathers and scatter-adds are the very operations of the kernel's program.
-/
import proofs.«120531_j6004364280508_1_alg».proof.Proof.RefRead
import proofs.«120531_j6004364280508_1_alg».proof.Proof.Spec
import proofs.«120531_j6004364280508_1_alg».proof.Proof.KAgg
import proofs.«120531_j6004364280508_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.RefStages

open Idealize.ShloMosaic Idealize.ShloMosaic.ValueIdx Cert.Spec

variable [Cert.ReferenceIdeal.Facts₀] [Cert.KernelIdeal.Facts₀]

section Generic

open Cert.ReferenceIdeal.ReadP

variable {F : FTy → Type} [FloatOps F]

/-- The sources are the same list in both programs. -/
theorem stage_v3 (x1 : (⟨Cert.ReferenceIdeal.S2x1600000, .i32⟩ : BufTy).Contents (Elt F)) :
    val_main_v3 (F := F) x1 = Cert.KAgg.rowT (F := F) x1 := rfl

/-- The targets are the same list in both programs. -/
theorem stage_v6 (x1 : (⟨Cert.ReferenceIdeal.S2x1600000, .i32⟩ : BufTy).Contents (Elt F)) :
    val_main_v6 (F := F) x1 = Cert.KAgg.colT (F := F) x1 := rfl

/-- The degrees. -/
theorem stage_v10 (x1 : (⟨Cert.ReferenceIdeal.S2x1600000, .i32⟩ : BufTy).Contents (Elt F)) :
    val_main_v10 (F := F) x1 = Cert.KAgg.degT (F := F) x1 := by
  unfold val_main_v10 val_main_v9
  rw [stage_v6]
  rfl

/-- The inverse square roots of the degrees. -/
theorem stage_v16 (x1 : (⟨Cert.ReferenceIdeal.S2x1600000, .i32⟩ : BufTy).Contents (Elt F)) :
    val_main_v16 (F := F) x1 = Cert.KAgg.disT (F := F) x1 := by
  unfold val_main_v16 val_main_v12 val_main_v15 val_main_v13
  rw [stage_v10]
  rfl

/-- The wrapped sources. -/
theorem stage_v22 (x1 : (⟨Cert.ReferenceIdeal.S2x1600000, .i32⟩ : BufTy).Contents (Elt F)) :
    val_main_v22 (F := F) x1 = Cert.KAgg.wrapIdx (F := F) (Cert.KAgg.rowT x1) := by
  unfold val_main_v22 val_main_v21 val_main_v18 val_main_v20
  rw [stage_v3]
  rfl

/-- The wrapped targets. -/
theorem stage_v29 (x1 : (⟨Cert.ReferenceIdeal.S2x1600000, .i32⟩ : BufTy).Contents (Elt F)) :
    val_main_v29 (F := F) x1 = Cert.KAgg.wrapIdx (F := F) (Cert.KAgg.colT x1) := by
  unfold val_main_v29 val_main_v28 val_main_v25 val_main_v27
  rw [stage_v6]
  rfl

/-- The edge weights. -/
theorem stage_v31 (x1 : (⟨Cert.ReferenceIdeal.S2x1600000, .i32⟩ : BufTy).Contents (Elt F)) :
    val_main_v31 (F := F) x1 = Cert.KAgg.nrmT (F := F) x1 := by
  unfold val_main_v31 val_main_v23 val_main_v30
  rw [stage_v16, stage_v22, stage_v29]
  rfl

end Generic

section Generic2

open Cert.ReferenceIdeal.ReadP

variable {F : FTy → Type} [FloatOps F]

/-- The wrapped sources again, as the first aggregate gathers by them. -/
theorem stage_v38 (x1 : (⟨Cert.ReferenceIdeal.S2x1600000, .i32⟩ : BufTy).Contents (Elt F)) :
    val_main_v38 (F := F) x1 = Cert.KAgg.wrapIdx (F := F) (Cert.KAgg.rowT x1) := by
  unfold val_main_v38 val_main_v37 val_main_v34 val_main_v36
  rw [stage_v3]
  rfl

/-- The first aggregate is the shared aggregation of the first dense product. -/
theorem stage_v45 (x0 : (⟨Cert.ReferenceIdeal.S50000x512, .f32⟩ : BufTy).Contents (Elt F))
    (x1 : (⟨Cert.ReferenceIdeal.S2x1600000, .i32⟩ : BufTy).Contents (Elt F))
    (x3 : (⟨Cert.ReferenceIdeal.S512x128, .f32⟩ : BufTy).Contents (Elt F)) :
    val_main_v45 (F := F) x0 x1 x3
      = Cert.KAgg.aggOf128 (F := F) (Cert.KAgg.rowT x1) (Cert.KAgg.colT x1) (Cert.KAgg.nrmT x1) (val_main_v32 (F := F) x0 x3) := by
  unfold val_main_v45 val_main_v44 val_main_v42 val_main_v39 val_main_v41 val_main_v40
  rw [stage_v6, stage_v38, stage_v31]
  rfl

/-- The wrapped sources again, as the second aggregate gathers by them. -/
theorem stage_v56 (x1 : (⟨Cert.ReferenceIdeal.S2x1600000, .i32⟩ : BufTy).Contents (Elt F)) :
    val_main_v56 (F := F) x1 = Cert.KAgg.wrapIdx (F := F) (Cert.KAgg.rowT x1) := by
  unfold val_main_v56 val_main_v55 val_main_v52 val_main_v54
  rw [stage_v3]
  rfl

/-- The second aggregate is the shared aggregation of the second dense product. -/
theorem stage_v63 (x0 : (⟨Cert.ReferenceIdeal.S50000x512, .f32⟩ : BufTy).Contents (Elt F))
    (x1 : (⟨Cert.ReferenceIdeal.S2x1600000, .i32⟩ : BufTy).Contents (Elt F))
    (x3 : (⟨Cert.ReferenceIdeal.S512x128, .f32⟩ : BufTy).Contents (Elt F))
    (x4 : (⟨Cert.ReferenceIdeal.S128, .f32⟩ : BufTy).Contents (Elt F))
    (x5 : (⟨Cert.ReferenceIdeal.S128x64, .f32⟩ : BufTy).Contents (Elt F)) :
    val_main_v63 (F := F) x0 x1 x3 x4 x5
      = Cert.KAgg.aggOf64 (F := F) (Cert.KAgg.rowT x1) (Cert.KAgg.colT x1) (Cert.KAgg.nrmT x1) (val_main_v50 (F := F) x0 x1 x3 x4 x5) := by
  unfold val_main_v63 val_main_v62 val_main_v60 val_main_v57 val_main_v59 val_main_v58
  rw [stage_v6, stage_v56, stage_v31]
  rfl

end Generic2

section Dense

open Cert.ReferenceIdeal Cert.ReferenceIdeal.ReadP

/-- The first dense product is the rows-by-columns product of the input and the first weight. -/
theorem dense_v32 (x0 : S50000x512.Idx → EReal) (x3 : S512x128.Idx → EReal) :
    val_main_v32 (F := Ideal) x0 x3 = mm (M := 50000) (K := 512) (N := 128) x0 x3 := by
  funext j
  exact Cert.PlainDot.dotGeneral_apply (M := 50000) (K := 512) (N := 128) (φ₁ := .f32) (φ₂ := .f32) none _ x0 x3 j

/-- The first bias and rectifier: the bias row added to every row of the first aggregate, then the maximum with zero. -/
theorem dense_v49 (x0 : S50000x512.Idx → EReal) (x1 : (⟨S2x1600000, .i32⟩ : BufTy).Contents (Elt Ideal))
    (x3 : S512x128.Idx → EReal) (x4 : S128.Idx → EReal) :
    val_main_v49 (F := Ideal) x0 x1 x3 x4
      = reluRow (M := 50000) (K := 128) (val_main_v45 (F := Ideal) x0 x1 x3) (rowOf (K := 128) x4) := by
  funext j
  rw [val_main_v49_apply, val_main_v48_apply, val_main_v47_apply, val_main_v46_apply, val_main_call1_v0_apply,
    val_main_call1_cst_apply, Ideal.addf_def, Ideal.maximumf_def, Ideal.ofBits_def]
  unfold reluRow rowOf
  exact congrArg (fun i => max (val_main_v45 (F := Ideal) x0 x1 x3 j + x4 i) (Ideal.ofBits .f32 0x00000000#32))
    (funext fun a => Fin.ext (by match a with | ⟨0, _⟩ => rfl))

/-- The second dense product is the rows-by-columns product of the rectified first layer and the second weight. -/
theorem dense_v50 (x0 : S50000x512.Idx → EReal) (x1 : (⟨S2x1600000, .i32⟩ : BufTy).Contents (Elt Ideal))
    (x3 : S512x128.Idx → EReal) (x4 : S128.Idx → EReal) (x5 : S128x64.Idx → EReal) :
    val_main_v50 (F := Ideal) x0 x1 x3 x4 x5
      = mm (M := 50000) (K := 128) (N := 64) (val_main_v49 (F := Ideal) x0 x1 x3 x4) x5 := by
  funext j
  exact Cert.PlainDot.dotGeneral_apply (M := 50000) (K := 128) (N := 64) (φ₁ := .f32) (φ₂ := .f32) none _
    (val_main_v49 (F := Ideal) x0 x1 x3 x4) x5 j

end Dense

/-- The reference's second aggregate (before its bias): the aggregation of the rectified first layer times the second weight. -/
theorem v63_eq (x0 : Cert.ReferenceIdeal.S50000x512.Idx → EReal) (x1 : (⟨Cert.ReferenceIdeal.S2x1600000, .i32⟩ : BufTy).Contents (Elt Ideal))
    (x2 : Cert.ReferenceIdeal.S50000x128.Idx → EReal) (x3 : Cert.ReferenceIdeal.S512x128.Idx → EReal) (x4 : Cert.ReferenceIdeal.S128.Idx → EReal)
    (x5 : Cert.ReferenceIdeal.S128x64.Idx → EReal) (x6 : Cert.ReferenceIdeal.S64.Idx → EReal) (x7 : Cert.ReferenceIdeal.S128x64.Idx → EReal)
    (x8 : Cert.ReferenceIdeal.S128x40.Idx → EReal) :
    Cert.ReferenceIdeal.ReadP.val_main_v63 (F := Ideal) x0 x1 x3 x4 x5
      = Cert.KAgg.aggOf64 (F := Ideal) (Cert.KAgg.rowT x1) (Cert.KAgg.colT x1) (Cert.KAgg.nrmT x1)
          (mm (M := 50000) (K := 128) (N := 64)
            (reluRow (M := 50000) (K := 128)
              (Cert.KAgg.aggOf128 (F := Ideal) (Cert.KAgg.rowT x1) (Cert.KAgg.colT x1) (Cert.KAgg.nrmT x1) (mm (M := 50000) (K := 512) (N := 128) x0 x3))
              (rowOf (K := 128) x4)) x5) := by
  rw [stage_v63, dense_v50, dense_v49, stage_v45, dense_v32]

end Cert.RefStages

end
-- ==== Proof.RefStages2.lean ====
/-
  The reference's program from its second aggregate to its last, read as the layers over the shared aggregation: a bias
  row added to every row and the maximum with zero, the product of the spectral input with its weight, the two blocks
  side by side, the product with the last weight, and the aggregation (the very operations of the kernel's program).
-/
import proofs.«120531_j6004364280508_1_alg».proof.Proof.RefRead
import proofs.«120531_j6004364280508_1_alg».proof.Proof.Spec
import proofs.«120531_j6004364280508_1_alg».proof.Proof.KAgg
import proofs.«120531_j6004364280508_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.RefStages

open Idealize.ShloMosaic Idealize.ShloMosaic.ValueIdx Cert.Spec

variable [Cert.ReferenceIdeal.Facts₀] [Cert.KernelIdeal.Facts₀]

/-! ## The graph stages, for every float family

Both programs form the source list, the target list, the degrees, their inverse square roots, the wrapped index columns
and the edge weights by the same operations, so each stage of the reference is the shared function by unfolding. -/

section Generic

open Cert.ReferenceIdeal.ReadP

variable {F : FTy → Type} [FloatOps F]

private theorem stage_v3 (x1 : (⟨Cert.ReferenceIdeal.S2x1600000, .i32⟩ : BufTy).Contents (Elt F)) :
    val_main_v3 (F := F) x1 = Cert.KAgg.rowT x1 := rfl

private theorem stage_v6 (x1 : (⟨Cert.ReferenceIdeal.S2x1600000, .i32⟩ : BufTy).Contents (Elt F)) :
    val_main_v6 (F := F) x1 = Cert.KAgg.colT x1 := rfl

private theorem stage_v10 (x1 : (⟨Cert.ReferenceIdeal.S2x1600000, .i32⟩ : BufTy).Contents (Elt F)) :
    val_main_v10 (F := F) x1 = Cert.KAgg.degT x1 := by
  unfold val_main_v10 val_main_v9
  rw [stage_v6]
  rfl

private theorem stage_v16 (x1 : (⟨Cert.ReferenceIdeal.S2x1600000, .i32⟩ : BufTy).Contents (Elt F)) :
    val_main_v16 (F := F) x1 = Cert.KAgg.disT x1 := by
  unfold val_main_v16 val_main_v12 val_main_v15 val_main_v13
  rw [stage_v10]
  rfl

private theorem stage_v22 (x1 : (⟨Cert.ReferenceIdeal.S2x1600000, .i32⟩ : BufTy).Contents (Elt F)) :
    val_main_v22 (F := F) x1 = Cert.KAgg.wrapIdx (Cert.KAgg.rowT x1) := by
  unfold val_main_v22 val_main_v21 val_main_v18 val_main_v20
  rw [stage_v3]
  rfl

private theorem stage_v29 (x1 : (⟨Cert.ReferenceIdeal.S2x1600000, .i32⟩ : BufTy).Contents (Elt F)) :
    val_main_v29 (F := F) x1 = Cert.KAgg.wrapIdx (Cert.KAgg.colT x1) := by
  unfold val_main_v29 val_main_v28 val_main_v25 val_main_v27
  rw [stage_v6]
  rfl

private theorem stage_v31 (x1 : (⟨Cert.ReferenceIdeal.S2x1600000, .i32⟩ : BufTy).Contents (Elt F)) :
    val_main_v31 (F := F) x1 = Cert.KAgg.nrmT x1 := by
  unfold val_main_v31 val_main_v23 val_main_v30
  rw [stage_v16, stage_v22, stage_v29]
  rfl

private theorem stage_v76 (x1 : (⟨Cert.ReferenceIdeal.S2x1600000, .i32⟩ : BufTy).Contents (Elt F)) :
    val_main_v76 (F := F) x1 = Cert.KAgg.wrapIdx (Cert.KAgg.rowT x1) := by
  unfold val_main_v76 val_main_v75 val_main_v72 val_main_v74
  rw [stage_v3]
  rfl

private theorem stage_v83 (x0 : (⟨Cert.ReferenceIdeal.S50000x512, .f32⟩ : BufTy).Contents (Elt F)) (x1 : (⟨Cert.ReferenceIdeal.S2x1600000, .i32⟩ : BufTy).Contents (Elt F))
    (x2 : (⟨Cert.ReferenceIdeal.S50000x128, .f32⟩ : BufTy).Contents (Elt F)) (x3 : (⟨Cert.ReferenceIdeal.S512x128, .f32⟩ : BufTy).Contents (Elt F))
    (x4 : (⟨Cert.ReferenceIdeal.S128, .f32⟩ : BufTy).Contents (Elt F)) (x5 : (⟨Cert.ReferenceIdeal.S128x64, .f32⟩ : BufTy).Contents (Elt F))
    (x6 : (⟨Cert.ReferenceIdeal.S64, .f32⟩ : BufTy).Contents (Elt F)) (x7 : (⟨Cert.ReferenceIdeal.S128x64, .f32⟩ : BufTy).Contents (Elt F))
    (x8 : (⟨Cert.ReferenceIdeal.S128x40, .f32⟩ : BufTy).Contents (Elt F)) :
    val_main_v83 (F := F) x0 x1 x2 x3 x4 x5 x6 x7 x8
      = Cert.KAgg.aggOf40 (Cert.KAgg.rowT x1) (Cert.KAgg.colT x1) (Cert.KAgg.nrmT x1) (val_main_v70 (F := F) x0 x1 x2 x3 x4 x5 x6 x7 x8) := by
  unfold val_main_v83 val_main_v82 val_main_v80 val_main_v77 val_main_v79 val_main_v78
  rw [stage_v6, stage_v31, stage_v76]
  rfl

end Generic

/-! ## The dense layers over the extended reals -/

section Dense

open Cert.ReferenceIdeal Cert.ReferenceIdeal.ReadP

variable (x0 : Cert.ReferenceIdeal.S50000x512.Idx → EReal) (x1 : (⟨Cert.ReferenceIdeal.S2x1600000, .i32⟩ : BufTy).Contents (Elt Ideal))
    (x2 : Cert.ReferenceIdeal.S50000x128.Idx → EReal) (x3 : Cert.ReferenceIdeal.S512x128.Idx → EReal) (x4 : Cert.ReferenceIdeal.S128.Idx → EReal)
    (x5 : Cert.ReferenceIdeal.S128x64.Idx → EReal) (x6 : Cert.ReferenceIdeal.S64.Idx → EReal) (x7 : Cert.ReferenceIdeal.S128x64.Idx → EReal)
    (x8 : Cert.ReferenceIdeal.S128x40.Idx → EReal)

/-- The second layer's rectifier: the bias row added to every row of the second aggregate, then the maximum with zero. -/
private theorem v67_eq :
    val_main_v67 (F := Ideal) x0 x1 x3 x4 x5 x6
      = reluRow (M := 50000) (K := 64) (val_main_v63 (F := Ideal) x0 x1 x3 x4 x5) (rowOf (K := 64) x6) := by
  funext j
  rw [val_main_v67_apply, val_main_v66_apply, val_main_v65_apply, val_main_v64_apply, val_main_call2_v0_apply,
    val_main_call2_cst_apply, Ideal.maximumf_def, Ideal.addf_def, Ideal.ofBits_def]
  unfold reluRow rowOf
  exact congrArg (fun i => max (val_main_v63 (F := Ideal) x0 x1 x3 x4 x5 j + x6 i) (Ideal.ofBits .f32 0x00000000#32))
    (funext fun a => Fin.ext (by match a with | ⟨0, _⟩ => rfl))

/-- The spectral projection: the product of the spectral input with its weight. -/
private theorem v68_eq :
    val_main_v68 (F := Ideal) x2 x7 = mm (M := 50000) (K := 128) (N := 64) x2 x7 := by
  funext j
  rw [val_main_v68_apply]
  unfold mm
  refine Finset.sum_congr rfl fun k _ => ?_
  exact congrArg₂ (· * ·)
    (congrArg x2 (funext fun a => Fin.ext (by match a with | ⟨0, _⟩ => rfl | ⟨1, _⟩ => rfl)))
    (congrArg x7 (funext fun a => Fin.ext (by match a with | ⟨0, _⟩ => rfl | ⟨1, _⟩ => rfl)))

/-- The two blocks side by side: a column below 64 reads the first block, a column from 64 on reads the second. -/
private theorem v69_eq :
    val_main_v69 (F := Ideal) x0 x1 x2 x3 x4 x5 x6 x7
      = catCols (M := 50000) (H := 64) (H' := 64) (val_main_v67 (F := Ideal) x0 x1 x3 x4 x5 x6) (val_main_v68 (F := Ideal) x2 x7) := by
  funext j
  obtain ⟨p, q, rfl⟩ : ∃ (p : Fin 50000) (q : Fin (64 + 64)), j = ix2 p q := ⟨j 0, j 1, eq_ix2 j⟩
  unfold val_main_v69 catCols
  generalize val_main_v67 (F := Ideal) x0 x1 x3 x4 x5 x6 = A
  generalize val_main_v68 (F := Ideal) x2 x7 = B
  refine Fin.addCases (fun k => ?_) (fun k => ?_) q
  · show _ = Fin.addCases (m := 64) (n := 64) (motive := fun _ => EReal) (fun c => A (ix2 p c)) (fun c => B (ix2 p c)) (Fin.castAdd 64 k)
    rw [Fin.addCases_left]
    exact concatenate_pair_apply_left (1 : Fin S50000x128.rank) A B _
      (ix2 p (Fin.castAdd 64 k)) rfl (ix2 p k) (fun b => by match b with | ⟨0, _⟩ => rfl | ⟨1, _⟩ => rfl)
  · show _ = Fin.addCases (m := 64) (n := 64) (motive := fun _ => EReal) (fun c => A (ix2 p c)) (fun c => B (ix2 p c)) (Fin.natAdd 64 k)
    rw [Fin.addCases_right]
    exact concatenate_pair_apply_right (1 : Fin S50000x128.rank) A B _
      (ix2 p (Fin.natAdd 64 k)) rfl rfl (ix2 p k)
      (fun b hb => by match b with | ⟨0, _⟩ => rfl | ⟨1, _⟩ => exact absurd rfl hb)
      (by show k.val + 64 = 64 + k.val; omega)

/-- The last product: the two blocks side by side times the last weight. -/
private theorem v70_eq :
    val_main_v70 (F := Ideal) x0 x1 x2 x3 x4 x5 x6 x7 x8
      = mm (M := 50000) (K := 64 + 64) (N := 40) (val_main_v69 (F := Ideal) x0 x1 x2 x3 x4 x5 x6 x7) x8 := by
  funext j
  rw [val_main_v70_apply]
  generalize val_main_v69 (F := Ideal) x0 x1 x2 x3 x4 x5 x6 x7 = Y
  unfold mm
  show (∑ k : Fin 128, Y (lidx_main_v70 j k) * x8 (ridx_main_v70 j k)) = ∑ k : Fin 128, Y (ix2 (j 0) k) * x8 (ix2 k (j 1))
  refine Finset.sum_congr rfl fun k _ => ?_
  exact congrArg₂ (· * ·)
    (congrArg Y (funext fun a => Fin.ext (by match a with | ⟨0, _⟩ => rfl | ⟨1, _⟩ => rfl)))
    (congrArg x8 (funext fun a => Fin.ext (by match a with | ⟨0, _⟩ => rfl | ⟨1, _⟩ => rfl)))

end Dense

/-- The reference's last aggregate (before its bias): the aggregation of [rectified second layer, spectral projection] side
    by side times the last weight. -/
theorem v83_eq (x0 : Cert.ReferenceIdeal.S50000x512.Idx → EReal) (x1 : (⟨Cert.ReferenceIdeal.S2x1600000, .i32⟩ : BufTy).Contents (Elt Ideal))
    (x2 : Cert.ReferenceIdeal.S50000x128.Idx → EReal) (x3 : Cert.ReferenceIdeal.S512x128.Idx → EReal) (x4 : Cert.ReferenceIdeal.S128.Idx → EReal)
    (x5 : Cert.ReferenceIdeal.S128x64.Idx → EReal) (x6 : Cert.ReferenceIdeal.S64.Idx → EReal) (x7 : Cert.ReferenceIdeal.S128x64.Idx → EReal)
    (x8 : Cert.ReferenceIdeal.S128x40.Idx → EReal) :
    Cert.ReferenceIdeal.ReadP.val_main_v83 (F := Ideal) x0 x1 x2 x3 x4 x5 x6 x7 x8
      = Cert.KAgg.aggOf40 (F := Ideal) (Cert.KAgg.rowT x1) (Cert.KAgg.colT x1) (Cert.KAgg.nrmT x1)
          (mm (M := 50000) (K := 64 + 64) (N := 40)
            (catCols (M := 50000) (H := 64) (H' := 64)
              (reluRow (M := 50000) (K := 64) (Cert.ReferenceIdeal.ReadP.val_main_v63 (F := Ideal) x0 x1 x3 x4 x5) (rowOf (K := 64) x6))
              (mm (M := 50000) (K := 128) (N := 64) x2 x7)) x8) := by
  refine (stage_v83 (F := Ideal) x0 x1 x2 x3 x4 x5 x6 x7 x8).trans ?_
  rw [v70_eq, v69_eq, v67_eq, v68_eq]

end Cert.RefStages

end
-- ==== Proof.RefOut.lean ====
/-
  The reference's result as one function of the ten argument arrays: its closing log-softmax over its last aggregate, that
  aggregate over the layers before it, assembled into `Cert.Outs.rOut`.
-/
import proofs.«120531_j6004364280508_1_alg».proof.Proof.RefLsm
import proofs.«120531_j6004364280508_1_alg».proof.Proof.RefStages
import proofs.«120531_j6004364280508_1_alg».proof.Proof.RefStages2
import proofs.«120531_j6004364280508_1_alg».proof.Proof.Outs

noncomputable section

namespace Cert.RefOut

open Idealize.ShloMosaic

variable [Cert.ReferenceIdeal.Facts₀] [Cert.KernelIdeal.Facts₀]

/-- The reference's last stage is its arrangement of the whole network. -/
theorem ref_eq (x0 : Cert.ReferenceIdeal.S50000x512.Idx → EReal) (x1 : (⟨Cert.ReferenceIdeal.S2x1600000, .i32⟩ : BufTy).Contents (Elt Ideal))
    (x2 : Cert.ReferenceIdeal.S50000x128.Idx → EReal) (x3 : Cert.ReferenceIdeal.S512x128.Idx → EReal) (x4 : Cert.ReferenceIdeal.S128.Idx → EReal)
    (x5 : Cert.ReferenceIdeal.S128x64.Idx → EReal) (x6 : Cert.ReferenceIdeal.S64.Idx → EReal) (x7 : Cert.ReferenceIdeal.S128x64.Idx → EReal)
    (x8 : Cert.ReferenceIdeal.S128x40.Idx → EReal) (x9 : Cert.ReferenceIdeal.S40.Idx → EReal) :
    Cert.ReferenceIdeal.ReadP.val_main_v87 (F := Ideal) x0 x1 x2 x3 x4 x5 x6 x7 x8 x9
      = Cert.Outs.rOut x0 x1 x2 x3 x4 x5 x6 x7 x8 x9 := by
  rw [Cert.RefLsm.lsm_eq, Cert.RefStages.v83_eq, Cert.RefStages.v63_eq x0 x1 x2 x3 x4 x5 x6 x7 x8]
  rfl

end Cert.RefOut

end
-- ==== Proof.SpecLaw.lean ====
/-
  The one algebraic law between the two programs, and the finiteness it needs.

  A product whose left factor is two blocks side by side, the second block itself a product E * L, is the first
  block times the top rows of the weight plus E * (L * bottom rows of the weight). Splitting the inner sum at
  the seam holds for all extended reals; moving the parentheses in the second summand is distributivity of a product over
  a finite sum, which holds when E, L and the weight's bottom rows are real numbers (an infinite entry breaks it).
-/
import proofs.«120531_j6004364280508_1_alg».proof.Proof.Spec

noncomputable section

namespace Cert.Spec

open Idealize.ShloMosaic Idealize.ShloMosaic.ValueIdx

/-- Every entry is a real number. -/
def IsReal {S : Shape} (x : S.Idx → EReal) : Prop := ∀ i, ∃ r : ℝ, x i = (r : EReal)

/-- The inclusion of the reals into the extended reals carries a finite sum to the sum of the inclusions. -/
theorem coe_real_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Moving the parentheses for real entries: the sum over k of (the sum over d of e d * l d k) * w k is the sum over d
    of e d * (the sum over k of l d k * w k). In the reals this is distributivity on both sides and an exchange of
    the two finite sums. -/
theorem sum_sum_mul_assoc_real {D H : Nat} (e : Fin D → ℝ) (l : Fin D → Fin H → ℝ) (w : Fin H → ℝ) :
    ∑ k : Fin H, (∑ d : Fin D, (e d : EReal) * (l d k : EReal)) * (w k : EReal)
      = ∑ d : Fin D, (e d : EReal) * ∑ k : Fin H, (l d k : EReal) * (w k : EReal) := by
  simp only [← EReal.coe_mul, ← coe_real_finset_sum]
  rw [EReal.coe_eq_coe_iff]
  simp only [Finset.sum_mul, Finset.mul_sum]
  rw [Finset.sum_comm]
  refine Finset.sum_congr rfl fun d _ => Finset.sum_congr rfl fun k _ => ?_
  ring

/-- The law: the product of two blocks side by side with a weight, the second block a product of real matrices, in the
    kernel's arrangement. -/
theorem mm_catCols_mm {M H D N : Nat} (A : (Mat M H).Idx → EReal) (E : (Mat M D).Idx → EReal)
    (Lw : (Mat D H).Idx → EReal) (W : (Mat (H + H) N).Idx → EReal)
    (hE : IsReal E) (hL : IsReal Lw) (hW : IsReal W) :
    mm (catCols A (mm E Lw)) W = fun j => mm A (topRows W) j + mm E (mm Lw (botRows W)) j := by
  choose e he using hE
  choose l hl using hL
  choose w hw using hW
  funext j
  -- the inner sum over the H + H columns, split at the seam between the two blocks
  show ∑ k : Fin (H + H),
      Fin.addCases (fun k => A (ix2 (j 0) k)) (fun k => mm E Lw (ix2 (j 0) k)) k * W (ix2 k (j 1)) = _
  rw [Fin.sum_univ_add]
  simp only [Fin.addCases_left, Fin.addCases_right]
  congr 1
  -- the second block: every entry is real, so the parentheses move
  show ∑ k : Fin H, (∑ d : Fin D, E (ix2 (j 0) d) * Lw (ix2 d k)) * W (ix2 (Fin.natAdd H k) (j 1))
      = ∑ d : Fin D, E (ix2 (j 0) d) * ∑ k : Fin H, Lw (ix2 d k) * W (ix2 (Fin.natAdd H k) (j 1))
  simp only [he, hl, hw]
  exact sum_sum_mul_assoc_real (fun d => e (ix2 (j 0) d)) (fun d k => l (ix2 d k))
    (fun k => w (ix2 (Fin.natAdd H k) (j 1)))

end Cert.Spec

end
-- ==== Proof.Bridge.lean ====
/-
  The two arrangements agree when the spectral input, its weight and the last weight are real: the reference multiplies
  [rectified second layer, spectral projection] side by side by the whole last weight; the kernel multiplies the
  rectified second layer by the weight's top rows and the spectral input by (spectral weight times bottom rows). That is
  the law `mm_catCols_mm`; everything around it is the same term.
-/
import proofs.«120531_j6004364280508_1_alg».proof.Proof.Outs
import proofs.«120531_j6004364280508_1_alg».proof.Proof.SpecLaw

noncomputable section

namespace Cert.Bridge

open Cert.KernelIdeal Idealize.ShloMosaic Cert.Spec

variable [Cert.KernelIdeal.Facts₀]

theorem kOut_eq_rOut (x0 : S50000x512.Idx → EReal) (x1 : (⟨S2x1600000, .i32⟩ : BufTy).Contents (Elt Ideal)) (x2 : S50000x128.Idx → EReal)
    (x3 : S512x128.Idx → EReal) (x4 : S128.Idx → EReal) (x5 : S128x64.Idx → EReal) (x6 : S64.Idx → EReal)
    (x7 : S128x64.Idx → EReal) (x8 : S128x40.Idx → EReal) (x9 : S40.Idx → EReal)
    (h2 : IsReal (S := S50000x128) x2) (h7 : IsReal (S := S128x64) x7) (h8 : IsReal (S := S128x40) x8) :
    Cert.Outs.kOut x0 x1 x2 x3 x4 x5 x6 x7 x8 x9 = Cert.Outs.rOut x0 x1 x2 x3 x4 x5 x6 x7 x8 x9 := by
  unfold Cert.Outs.kOut Cert.Outs.rOut
  rw [mm_catCols_mm (M := 50000) (H := 64) (D := 128) (N := 40)
    (reluRow (M := 50000) (K := 64) (Cert.Outs.agg2 x0 x1 x3 x4 x5) (rowOf (K := 64) x6)) x2 x7 x8 h2 h7 h8]
  rfl

end Cert.Bridge

end
-- ==== Proof.Finite.lean ====
/-
  From the precondition to real numbers: the precondition is the conjunction, over the nine float inputs, of "every entry's
  absolute value is below plus infinity"; an extended real whose absolute value is below plus infinity is a real number.
-/
import proofs.«120531_j6004364280508_1_alg».proof.Pre_finite_inputs
import Idealize.ShloMosaic.Lib.ReduceAll
import Idealize.ShloMosaic.PureOps.Ideal.Laws

noncomputable section

namespace Cert.Finite

open Idealize.ShloMosaic

/-- The rank-0 shape has exactly one index (a function out of the empty set of axes). -/
instance subsingleton_scalar_index : Subsingleton Cert.Pre_finite_inputs.S_.Idx :=
  ⟨fun _ _ => funext fun d => d.elim0⟩

/-- The word `0x7F800000` (sign 0, exponent all ones, fraction 0) denotes plus infinity. -/
theorem plus_infinity_word : Ideal.ofBits .f32 0x7F800000#32 = (⊤ : EReal) := by simp [Ideal.ofBits, Ideal.ieee]

/-- A one-bit word made from a truth value is 1 only when the truth value is true. -/
theorem true_of_ofBool_eq_one {b : Bool} (h : BitVec.ofBool b = 1#1) : b = true := by
  revert h; cases b <;> decide

/-- An extended real whose absolute value `max a (-a)` is below plus infinity is a real number: at `⊥` the absolute value is
    `-⊥ = ⊤`, at `⊤` it is `⊤`, and neither is below `⊤`. -/
theorem real_of_abs_lt_top (a : EReal) (h : max a (-a) < ⊤) : ∃ r : ℝ, a = (r : EReal) := by
  induction a using EReal.rec with
  | bot => simp at h
  | coe r => exact ⟨r, rfl⟩
  | top => simp at h

/-- One conjunct of the precondition, over an arbitrary shape `S`: if the conjunction over ALL entries of `|x i| < +∞`
    (a reduction by `and` over every axis, into the one-element result) is 1, then every entry of `x` is a real number. -/
theorem real_of_all_below_infinity {S : Shape} {axes : List (Fin S.rank)} (x : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (j : Cert.Pre_finite_inputs.S_.Idx)
    (e : Host.reduce IntOp.andi
        (cmpf .olt (Host.absf x) (broadcastInDim S ![] hb (constant Cert.Pre_finite_inputs.S_ .f32 0x7F800000#32)))
        (constantI Cert.Pre_finite_inputs.S_ 1 1#1) hr hu j = 1#1) (i : S.Idx) : ∃ r : ℝ, x i = (r : EReal) := by
  -- the conjunction is 1, so the comparison at entry `i` is 1
  have hi := Host.reduce_andi_all _ _ hr hu j e i
  -- that comparison is the truth value of `max (x i) (-(x i)) < (the broadcast constant)`
  have hc : BitVec.ofBool (decide (max (x i) (-(x i)) < Ideal.ofBits .f32 0x7F800000#32)) = 1#1 := hi
  have hlt := of_decide_eq_true (true_of_ofBool_eq_one hc)
  rw [plus_infinity_word] at hlt
  exact real_of_abs_lt_top _ hlt

/-- Under the precondition (every float input finite) the spectral input, its weight and the last layer's weight hold real
    numbers. -/
theorem real_of_pre [Cert.Pre_finite_inputs.Facts]
    (x0 : FVec Ideal Cert.Pre_finite_inputs.S50000x512 .f32) (x1 : IVec Cert.Pre_finite_inputs.S2x1600000 32)
    (x2 : FVec Ideal Cert.Pre_finite_inputs.S50000x128 .f32) (x3 : FVec Ideal Cert.Pre_finite_inputs.S512x128 .f32)
    (x4 : FVec Ideal Cert.Pre_finite_inputs.S128 .f32) (x5 : FVec Ideal Cert.Pre_finite_inputs.S128x64 .f32)
    (x6 : FVec Ideal Cert.Pre_finite_inputs.S64 .f32) (x7 : FVec Ideal Cert.Pre_finite_inputs.S128x64 .f32)
    (x8 : FVec Ideal Cert.Pre_finite_inputs.S128x40 .f32) (x9 : FVec Ideal Cert.Pre_finite_inputs.S40 .f32)
    (h : Cert.Pre_finite_inputs.fn (F := Ideal) x0 x1 x2 x3 x4 x5 x6 x7 x8 x9 = fun _ => 1#1) :
    (∀ i, ∃ r : ℝ, x2 i = (r : EReal)) ∧ (∀ i, ∃ r : ℝ, x7 i = (r : EReal)) ∧ (∀ i, ∃ r : ℝ, x8 i = (r : EReal)) := by
  -- the claim at the one index of the rank-0 result
  have h0 := congrFun h (fun a => a.elim0)
  dsimp only [Cert.Pre_finite_inputs.fn, Cert.Pre_finite_inputs.fn_part1, Cert.Pre_finite_inputs.fn_part2] at h0
  -- a chain of `and`s is 1 exactly when each of its nine members is 1; the members, left to right, are the conjuncts of
  -- inputs 0, 2, 3, 4, 5, 6, 7, 8, 9 (input 1 holds integers and has no conjunct)
  simp only [andi, IntOp.andi_eq_one] at h0
  obtain ⟨⟨⟨⟨⟨⟨⟨⟨-, e2⟩, -⟩, -⟩, -⟩, -⟩, e7⟩, e8⟩, -⟩ := h0
  exact ⟨real_of_all_below_infinity x2 _ _ _ _ e2, real_of_all_below_infinity x7 _ _ _ _ e7,
    real_of_all_below_infinity x8 _ _ _ _ e8⟩

end Cert.Finite

end
-- ==== Proof.lean ====
/-
  A three-layer graph convolution with a spectral branch and a closing row-wise log-softmax, computed two ways.

  Both programs build the same normalised adjacency from the edge list (self loops added, each edge weighted by the inverse
  square roots of the degrees of its ends) and aggregate a node array by gathering rows at the sources, scaling them by the
  edge weights and scatter-adding them by target. The kernel program computes the dense layers in four kernels, each over 25
  blocks of 2000 rows: (1) x W1; (2) relu(aggregate + b1) W2; (3) relu(aggregate + b2) W3[top 64 rows] + E (L W3[bottom 64
  rows]), with E the spectral input and L its weight; (4) the row-wise log-softmax of aggregate + b3. The reference computes
  the same layers with whole-array operations, the third as [relu(aggregate + b2), E L] side by side times the whole W3.

  Over the extended reals every block-wise product is the whole product, a change of float format is the identity, and the
  two third layers differ by associativity of the matrix product, which holds when E, L and W3 are real numbers: that is
  where the precondition (every float input finite) is used, and the only place. The aggregations, the rectifiers, the
  biases and the log-softmax are the same functions on both sides.

  The claim's parts: each program runs to the end without a fault and leaves its arguments unchanged (the generated frames;
  the reference's from its run); the idealization rewrote nothing; the two idealized programs end with equal results.
-/
import proofs.«120531_j6004364280508_1_alg».proof.Defs
import proofs.«120531_j6004364280508_1_alg».proof.Proof.Gen.Kernel
import proofs.«120531_j6004364280508_1_alg».proof.Proof.Gen.Kernel.Skeleton
import proofs.«120531_j6004364280508_1_alg».proof.Proof.Gen.Kernel.Launch
import proofs.«120531_j6004364280508_1_alg».proof.Proof.Gen.Kernel.Points
import proofs.«120531_j6004364280508_1_alg».proof.Proof.Gen.Kernel.Frame
import proofs.«120531_j6004364280508_1_alg».proof.Proof.Gen.KernelIdeal
import proofs.«120531_j6004364280508_1_alg».proof.Proof.Gen.KernelIdeal.Skeleton
import proofs.«120531_j6004364280508_1_alg».proof.Proof.Gen.KernelIdeal.Launch
import proofs.«120531_j6004364280508_1_alg».proof.Proof.Gen.KernelIdeal.Points
import proofs.«120531_j6004364280508_1_alg».proof.Proof.Gen.KernelIdeal.Frame
import proofs.«120531_j6004364280508_1_alg».proof.Proof.Gen.ReferenceIdeal
import proofs.«120531_j6004364280508_1_alg».proof.Proof.Gen.Pre_finite_inputs
import proofs.«120531_j6004364280508_1_alg».proof.Proof.KRun
import proofs.«120531_j6004364280508_1_alg».proof.Proof.KValue
import proofs.«120531_j6004364280508_1_alg».proof.Proof.RefRunStaged
import proofs.«120531_j6004364280508_1_alg».proof.Proof.RefOut
import proofs.«120531_j6004364280508_1_alg».proof.Proof.Bridge
import proofs.«120531_j6004364280508_1_alg».proof.Proof.Finite
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Staged.run (F := Ideal) m ρ)

/-- The idealization rewrote no operation. -/
theorem preserves : Cert.preserves_Kernel_KernelIdeal := trivial

/-- From memories agreeing on the arguments both idealized programs end at the kernel's arrangement of the network applied
    to the arguments: the kernel by its regions' and host stretches' values, the reference by its stages and the law between
    the two arrangements, whose finiteness the precondition gives. -/
theorem algebraic : Cert.algebraic_KernelIdeal_ReferenceIdeal := by
  intro m ρ m' ρ' hpre hagree
  refine ⟨fun c => Cert.Outs.kOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.KValue.out_eq m ρ c), (h c).2⟩)
      (Cert.KernelIdeal.RunNamed.run_named m ρ)
  · refine (θ_run Cert.ReferenceIdeal.defs _ _).mono (fun r h c => ⟨?_, (h c).2⟩)
      (Cert.ReferenceIdeal.Staged.run (F := Ideal) m' ρ')
    obtain ⟨a0, a1, a2, a3, a4, a5, a6, a7, a8, a9⟩ := hagree c
    obtain ⟨r2, r7, r8⟩ := Cert.Finite.real_of_pre _ _ _ _ _ _ _ _ _ _ (hpre c)
    rw [(h c).1, a0, a1, a2, a3, a4, a5, a6, a7, a8, a9, Cert.RefOut.ref_eq]
    exact (Cert.Bridge.kOut_eq_rOut _ _ _ _ _ _ _ _ _ _ r2 r7 r8).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
